-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.truncf_extf.Statement Cert.KernelIdeal.S1024x128 .f32 .bf16
  ∧ IdealRules.truncf_extf.Statement Cert.KernelIdeal.S256x2048 .f32 .bf16
  ∧ IdealRules.truncf_extf.Statement Cert.KernelIdeal.S128x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096x128 : Shape := ⟨3, ![128, 4096, 128]⟩
abbrev S128 : Shape := ⟨1, ![128]⟩
abbrev S1 : Shape := ⟨1, ![1]⟩
abbrev S256x128 : Shape := ⟨2, ![256, 128]⟩
abbrev S128x1 : Shape := ⟨2, ![128, 1]⟩
abbrev S128x2048 : Shape := ⟨2, ![128, 2048]⟩
abbrev S128x64x32 : Shape := ⟨3, ![128, 64, 32]⟩
abbrev S_ : Shape := ⟨0, ![]⟩

class Facts : Prop where
  bcast_S_S128x4096x128 : S_.BroadcastsInDim S128x4096x128 (![] : Fin 0 → Fin S128x4096x128.rank)
  reducesTo_S128x4096x128_S_d0_1_2 : S128x4096x128.ReducesTo [0, 1, 2] S_
  h_S_ : 0 < S_.numel
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S128x64x32 : S_.BroadcastsInDim S128x64x32 (![] : Fin 0 → Fin S128x64x32.rank)
  reducesTo_S128x64x32_S_d0_1_2 : S128x64x32.ReducesTo [0, 1, 2] S_
  bcast_S_S128x2048 : S_.BroadcastsInDim S128x2048 (![] : Fin 0 → Fin S128x2048.rank)
  reducesTo_S128x2048_S_d0_1 : S128x2048.ReducesTo [0, 1] S_

variable [Facts]

def fn_part3 {F : FTy → Type} [FloatOps F] (main_arg9 : IVec S128x2048 32) (main_v50 : IVec S_ 1) : IVec S_ 1 :=
  let main_c_19 : IVec S_ 32 := constantI S_ 32 0#32
  let main_v51 : IVec S128x2048 32 := broadcastInDim S128x2048 ![] bcast_S_S128x2048 main_c_19
  let main_v52 : IVec S128x2048 1 := cmpi .sge main_arg9 main_v51
  let main_c_20 : IVec S_ 32 := constantI S_ 32 4097#32
  let main_v53 : IVec S128x2048 32 := broadcastInDim S128x2048 ![] bcast_S_S128x2048 main_c_20
  let main_v54 : IVec S128x2048 1 := cmpi .sle main_arg9 main_v53
  let main_v55 : IVec S128x2048 1 := andi main_v52 main_v54
  let main_c_21 : IVec S_ 1 := constantI S_ 1 1#1
  let main_v56 : IVec S_ 1 := (fun x v => Host.reduce IntOp.andi x v reducesTo_S128x2048_S_d0_1 h_S_) main_v55 main_c_21
  let main_v57 : IVec S_ 1 := andi main_v50 main_v56
  main_v57

def fn_part2 {F : FTy → Type} [FloatOps F] (main_arg7 : FVec F S1 .f32) (main_arg8 : IVec S128x2048 32) (main_arg9 : IVec S128x2048 32) (main_arg11 : FVec F S128x64x32 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x64x32 .f32 := Host.absf main_arg11
  let main_cst_14 : FVec F S_ .f32 := constant S_ .f32 0x7F800000#32
  let main_v40 : FVec F S128x64x32 .f32 := broadcastInDim S128x64x32 ![] bcast_S_S128x64x32 main_cst_14
  let main_v41 : IVec S128x64x32 1 := cmpf .olt main_v39 main_v40
  let main_c_15 : IVec S_ 1 := constantI S_ 1 1#1
  let main_v42 : IVec S_ 1 := (fun x v => Host.reduce IntOp.andi x v reducesTo_S128x64x32_S_d0_1_2 h_S_) main_v41 main_c_15
  let main_v43 : IVec S_ 1 := andi main_v38 main_v42
  let main_c_16 : IVec S_ 32 := constantI S_ 32 0#32
  let main_v44 : IVec S128x2048 32 := broadcastInDim S128x2048 ![] bcast_S_S128x2048 main_c_16
  let main_v45 : IVec S128x2048 1 := cmpi .sge main_arg8 main_v44
  let main_c_17 : IVec S_ 32 := constantI S_ 32 4097#32
  let main_v46 : IVec S128x2048 32 := broadcastInDim S128x2048 ![] bcast_S_S128x2048 main_c_17
  let main_v47 : IVec S128x2048 1 := cmpi .sle main_arg8 main_v46
  let main_v48 : IVec S128x2048 1 := andi main_v45 main_v47
  let main_c_18 : IVec S_ 1 := constantI S_ 1 1#1
  let main_v49 : IVec S_ 1 := (fun x v => Host.reduce IntOp.andi x v reducesTo_S128x2048_S_d0_1 h_S_) main_v48 main_c_18
  let main_v50 : IVec S_ 1 := andi main_v43 main_v49
  fn_part3 (F := F) main_arg9 main_v50

def fn_part1 {F : FTy → Type} [FloatOps F] (main_arg4 : FVec F S256x128 .f32) (main_arg5 : FVec F S128 .f32) (main_arg6 : FVec F S128x1 .f32) (main_arg7 : FVec F S1 .f32) (main_arg8 : IVec S128x2048 32) (main_arg9 : IVec S128x2048 32) (main_arg11 : FVec F S128x64x32 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_arg8 main_arg9 main_arg11 main_v33

def fn {F : FTy → Type} [FloatOps F] (main_arg0 : FVec F S128x4096x128 .f32) (main_arg1 : FVec F S128 .f32) (main_arg2 : FVec F S128 .f32) (main_arg3 : FVec F S1 .f32) (main_arg4 : FVec F S256x128 .f32) (main_arg5 : FVec F S128 .f32) (main_arg6 : FVec F S128x1 .f32) (main_arg7 : FVec F S1 .f32) (main_arg8 : IVec S128x2048 32) (main_arg9 : IVec S128x2048 32) (main_arg10 : IVec S128x64x32 32) (main_arg11 : FVec F S128x64x32 .f32) : IVec S_ 1 :=
  let main_v0 : FVec F S128x4096x128 .f32 := Host.absf main_arg0
  let main_cst : FVec F S_ .f32 := constant S_ .f32 0x7F800000#32
  let main_v1 : FVec F S128x4096x128 .f32 := broadcastInDim S128x4096x128 ![] bcast_S_S128x4096x128 main_cst
  let main_v2 : IVec S128x4096x128 1 := cmpf .olt main_v0 main_v1
  let main_c : IVec S_ 1 := constantI S_ 1 1#1
  let main_v3 : IVec S_ 1 := (fun x v => Host.reduce IntOp.andi x v reducesTo_S128x4096x128_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_arg7 main_arg8 main_arg9 main_arg11 main_v13 main_v16
-- ==== Kernel.lean ====
abbrev S128x4096x128 : Shape := ⟨3, ![128, 4096, 128]⟩
abbrev S128 : Shape := ⟨1, ![128]⟩
abbrev S1 : Shape := ⟨1, ![1]⟩
abbrev S256x128 : Shape := ⟨2, ![256, 128]⟩
abbrev S128x1 : Shape := ⟨2, ![128, 1]⟩
abbrev S128x2048 : Shape := ⟨2, ![128, 2048]⟩
abbrev S128x64x32 : Shape := ⟨3, ![128, 64, 32]⟩
abbrev S_ : Shape := ⟨0, ![]⟩
abbrev S128x4096 : Shape := ⟨2, ![128, 4096]⟩
abbrev S128x1x4096 : Shape := ⟨3, ![128, 1, 4096]⟩
abbrev S128x1x2048 : Shape := ⟨3, ![128, 1, 2048]⟩
abbrev S128x2048x1 : Shape := ⟨3, ![128, 2048, 1]⟩
abbrev S1x1x1 : Shape := ⟨3, ![1, 1, 1]⟩
abbrev S128x64 : Shape := ⟨2, ![128, 64]⟩
abbrev S128x65 : Shape := ⟨2, ![128, 65]⟩
abbrev S128x64x1 : Shape := ⟨3, ![128, 64, 1]⟩
abbrev S128x1x1 : Shape := ⟨3, ![128, 1, 1]⟩
abbrev S524544 : Shape := ⟨1, ![524544]⟩
abbrev S262144 : Shape := ⟨1, ![262144]⟩
abbrev S262144x1 : Shape := ⟨2, ![262144, 1]⟩
abbrev S128x4098 : Shape := ⟨2, ![128, 4098]⟩
abbrev S1x1024x128 : Shape := ⟨3, ![1, 1024, 128]⟩
abbrev S1x1x4096 : Shape := ⟨3, ![1, 1, 4096]⟩
abbrev S1x1x2048 : Shape := ⟨3, ![1, 1, 2048]⟩
abbrev S256x4096 : Shape := ⟨2, ![256, 4096]⟩
abbrev S1024x256 : Shape := ⟨2, ![1024, 256]⟩
abbrev S256x2048 : Shape := ⟨2, ![256, 2048]⟩
abbrev S1x4096 : Shape := ⟨2, ![1, 4096]⟩
abbrev S1024x1 : Shape := ⟨2, ![1024, 1]⟩
abbrev S1024x4096 : Shape := ⟨2, ![1024, 4096]⟩
abbrev S1024x128 : Shape := ⟨2, ![1024, 128]⟩
abbrev S1x1 : Shape := ⟨2, ![1, 1]⟩
abbrev S1x2048 : Shape := ⟨2, ![1, 2048]⟩

abbrev nBuf : Space → Nat
  | .hbm => 160
  | .vmem => 15
  | .smem => 0
  | _ => 0

abbrev hbmTy0_0 (i : Nat) : BufTy := match i % 128 with
  | 0 => ⟨S128x4096x128, .f32⟩
  | 1 => ⟨S128, .f32⟩
  | 2 => ⟨S128, .f32⟩
  | 3 => ⟨S1, .f32⟩
  | 4 => ⟨S256x128, .f32⟩
  | 5 => ⟨S128, .f32⟩
  | 6 => ⟨S128x1, .f32⟩
  | 7 => ⟨S1, .f32⟩
  | 8 => ⟨S128x2048, .i32⟩
  | 9 => ⟨S128x2048, .i32⟩
  | 10 => ⟨S128x64x32, .i32⟩
  | 11 => ⟨S128x64x32, .f32⟩
  | 12 => ⟨S_, .i32⟩
  | 13 => ⟨S_, .i32⟩
  | 14 => ⟨S_, .i32⟩
  | 15 => ⟨S128x2048, .i32⟩
  | 16 => ⟨S128x2048, .i32⟩
  | 17 => ⟨S_, .i32⟩
  | 18 => ⟨S128x2048, .i32⟩
  | 19 => ⟨S128x2048, .i32⟩
  | 20 => ⟨S_, .i32⟩
  | 21 => ⟨S_, .i32⟩
  | 22 => ⟨S_, .i32⟩
  | 23 => ⟨S128x2048, .i32⟩
  | 24 => ⟨S128x2048, .i32⟩
  | 25 => ⟨S_, .i32⟩
  | 26 => ⟨S128x2048, .i32⟩
  | 27 => ⟨S128x2048, .i32⟩
  | 28 => ⟨S128x4096, .i32⟩
  | 29 => ⟨S128x1x4096, .i32⟩
  | 30 => ⟨S128x1x2048, .f32⟩
  | 31 => ⟨S128x2048, .f32⟩
  | 32 => ⟨S128x2048, .i32⟩
  | 33 => ⟨S_, .i32⟩
  | 34 => ⟨S128x2048, .i32⟩
  | 35 => ⟨S128x2048, .i1⟩
  | 36 => ⟨S_, .i32⟩
  | 37 => ⟨S128x2048, .i32⟩
  | 38 => ⟨S128x2048, .i32⟩
  | 39 => ⟨S128x2048, .i32⟩
  | 40 => ⟨S128x2048x1, .i32⟩
  | 41 => ⟨S1, .i32⟩
  | 42 => ⟨S_, .i32⟩
  | 43 => ⟨S128x2048x1, .i32⟩
  | 44 => ⟨S128x2048x1, .i1⟩
  | 45 => ⟨S1x1x1, .i32⟩
  | 46 => ⟨S128x2048x1, .i32⟩
  | 47 => ⟨S128x2048x1, .i1⟩
  | 48 => ⟨S128x2048x1, .i1⟩
  | 49 => ⟨S_, .i1⟩
  | 50 => ⟨S128x2048, .i1⟩
  | 51 => ⟨S128x2048, .f32⟩
  | 52 => ⟨S_, .f32⟩
  | 53 => ⟨S128x2048, .f32⟩
  | 54 => ⟨S128x2048, .f32⟩
  | 55 => ⟨S128x64x32, .f32⟩
  | 56 => ⟨S128x64x32, .f32⟩
  | 57 => ⟨S_, .f32⟩
  | 58 => ⟨S128x64, .f32⟩
  | 59 => ⟨S128x1, .f32⟩
  | 60 => ⟨S128x65, .f32⟩
  | 61 => ⟨S_, .f32⟩
  | 62 => ⟨S128, .f32⟩
  | 63 => ⟨S_, .f32⟩
  | 64 => ⟨S128, .f32⟩
  | 65 => ⟨S128, .f32⟩
  | 66 => ⟨S128x1, .f32⟩
  | 67 => ⟨S128x65, .f32⟩
  | 68 => ⟨S128x65, .f32⟩
  | 69 => ⟨S128x65, .f32⟩
  | 70 => ⟨S_, .f32⟩
  | 71 => ⟨S128, .f32⟩
  | 72 => ⟨S128x1, .f32⟩
  | 73 => ⟨S128x65, .f32⟩
  | 74 => ⟨S128x65, .f32⟩
  | 75 => ⟨S_, .i32⟩
  | 76 => ⟨S128x2048, .i32⟩
  | 77 => ⟨S128x2048, .i1⟩
  | 78 => ⟨S_, .i32⟩
  | 79 => ⟨S128x2048, .i32⟩
  | 80 => ⟨S128x2048, .i32⟩
  | 81 => ⟨S128x2048, .i32⟩
  | 82 => ⟨S128x2048x1, .i32⟩
  | 83 => ⟨S1, .i32⟩
  | 84 => ⟨S_, .i32⟩
  | 85 => ⟨S128x2048x1, .i32⟩
  | 86 => ⟨S128x2048x1, .i1⟩
  | 87 => ⟨S1x1x1, .i32⟩
  | 88 => ⟨S128x2048x1, .i32⟩
  | 89 => ⟨S128x2048x1, .i1⟩
  | 90 => ⟨S128x2048x1, .i1⟩
  | 91 => ⟨S_, .i1⟩
  | 92 => ⟨S128x2048, .i1⟩
  | 93 => ⟨S128x2048, .i32⟩
  | 94 => ⟨S_, .i32⟩
  | 95 => ⟨S128x2048, .i32⟩
  | 96 => ⟨S128x2048, .i32⟩
  | 97 => ⟨S128x64x32, .i32⟩
  | 98 => ⟨S_, .i32⟩
  | 99 => ⟨S128x2048, .i32⟩
  | 100 => ⟨S128x2048, .i1⟩
  | 101 => ⟨S_, .i32⟩
  | 102 => ⟨S128x2048, .i32⟩
  | 103 => ⟨S128x2048, .i32⟩
  | 104 => ⟨S128x2048, .i32⟩
  | 105 => ⟨S128x2048x1, .i32⟩
  | 106 => ⟨S1, .i32⟩
  | 107 => ⟨S_, .i32⟩
  | 108 => ⟨S128x2048x1, .i32⟩
  | 109 => ⟨S128x2048x1, .i1⟩
  | 110 => ⟨S1x1x1, .i32⟩
  | 111 => ⟨S128x2048x1, .i32⟩
  | 112 => ⟨S128x2048x1, .i1⟩
  | 113 => ⟨S128x2048x1, .i1⟩
  | 114 => ⟨S_, .i1⟩
  | 115 => ⟨S128x2048, .i1⟩
  | 116 => ⟨S128x2048, .i32⟩
  | 117 => ⟨S_, .i32⟩
  | 118 => ⟨S128x2048, .i32⟩
  | 119 => ⟨S128x2048, .i32⟩
  | 120 => ⟨S128x64x32, .i32⟩
  | 121 => ⟨S128x64, .f32⟩
  | 122 => ⟨S128x64x1, .f32⟩
  | 123 => ⟨S128x64x32, .f32⟩
  | 124 => ⟨S128x64x32, .f32⟩
  | 125 => ⟨S128, .i32⟩
  | 126 => ⟨S_, .i32⟩
  | 127 => ⟨S128, .i32⟩
  | _ => ⟨S128x4096x128, .f32⟩

abbrev hbmTy0_1 (i : Nat) : BufTy := match i % 128 with
  | 0 => ⟨S128, .i32⟩
  | 1 => ⟨S128x1x1, .i32⟩
  | 2 => ⟨S_, .f32⟩
  | 3 => ⟨S524544, .f32⟩
  | 4 => ⟨S128x64x32, .i32⟩
  | 5 => ⟨S128x64x32, .i32⟩
  | 6 => ⟨S262144, .i32⟩
  | 7 => ⟨S262144, .f32⟩
  | 8 => ⟨S_, .i32⟩
  | 9 => ⟨S262144, .i32⟩
  | 10 => ⟨S262144, .i1⟩
  | 11 => ⟨S_, .i32⟩
  | 12 => ⟨S262144, .i32⟩
  | 13 => ⟨S262144, .i32⟩
  | 14 => ⟨S262144, .i32⟩
  | 15 => ⟨S262144x1, .i32⟩
  | 16 => ⟨S524544, .f32⟩
  | 17 => ⟨S128x64x32, .i32⟩
  | 18 => ⟨S128x64x32, .i32⟩
  | 19 => ⟨S262144, .i32⟩
  | 20 => ⟨S262144, .f32⟩
  | 21 => ⟨S_, .i32⟩
  | 22 => ⟨S262144, .i32⟩
  | 23 => ⟨S262144, .i1⟩
  | 24 => ⟨S_, .i32⟩
  | 25 => ⟨S262144, .i32⟩
  | 26 => ⟨S262144, .i32⟩
  | 27 => ⟨S262144, .i32⟩
  | 28 => ⟨S262144x1, .i32⟩
  | 29 => ⟨S524544, .f32⟩
  | 30 => ⟨S128x4098, .f32⟩
  | 31 => ⟨S128x4096, .f32⟩
  | _ => ⟨S128x4096x128, .f32⟩

abbrev hbmTy (i : Nat) : BufTy := match i / 128 with
  | 0 => hbmTy0_0 i
  | 1 => hbmTy0_1 i
  | _ => ⟨S128x4096x128, .f32⟩

abbrev bufTy : (tb : Table) → Fin (tcTables nBuf tb) → BufTy
  | .hbm, ⟨i, _⟩ => hbmTy i
  | .local _ .vmem, ⟨0, _⟩ => ⟨S1x1024x128, .f32⟩
  | .local _ .vmem, ⟨1, _⟩ => ⟨S1x1024x128, .f32⟩
  | .local _ .vmem, ⟨2, _⟩ => ⟨S128, .f32⟩
  | .local _ .vmem, ⟨3, _⟩ => ⟨S128, .f32⟩
  | .local _ .vmem, ⟨4, _⟩ => ⟨S1x1x4096, .i32⟩
  | .local _ .vmem, ⟨5, _⟩ => ⟨S1x1x4096, .i32⟩
  | .local _ .vmem, ⟨6, _⟩ => ⟨S256x128, .f32⟩
  | .local _ .vmem, ⟨7, _⟩ => ⟨S128, .f32⟩
  | .local _ .vmem, ⟨8, _⟩ => ⟨S128x1, .f32⟩
  | .local _ .vmem, ⟨9, _⟩ => ⟨S1, .f32⟩
  | .local _ .vmem, ⟨10, _⟩ => ⟨S1x1x2048, .f32⟩
  | .local _ .vmem, ⟨11, _⟩ => ⟨S1x1x2048, .f32⟩
  | .local _ .vmem, ⟨12, _⟩ => ⟨S256x4096, .f32⟩
  | .local _ .vmem, ⟨13, _⟩ => ⟨S1024x256, .bf16⟩
  | .local _ .vmem, ⟨14, _⟩ => ⟨S256x2048, .f32⟩
  | _, _ => ⟨S128x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_c_0 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_v0 : Ref sig .tc := ⟨.hbm, 19, rfl⟩
abbrev main_call0_c_1 : Ref sig .tc := ⟨.hbm, 20, rfl⟩
abbrev main_call0_c_2 : Ref sig .tc := ⟨.hbm, 21, rfl⟩
abbrev main_call0_call1_v0 : Ref sig .tc := ⟨.hbm, 22, rfl⟩
abbrev main_call0_call1_v1 : Ref sig .tc := ⟨.hbm, 23, rfl⟩
abbrev main_call0_call1_v2 : Ref sig .tc := ⟨.hbm, 24, rfl⟩
abbrev main_call0_call1_v3 : Ref sig .tc := ⟨.hbm, 25, rfl⟩
abbrev main_call0_call1_v4 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_call2_c : Ref sig .tc := ⟨.hbm, 33, rfl⟩
abbrev main_call0_call2_v0 : Ref sig .tc := ⟨.hbm, 34, rfl⟩
abbrev main_call0_call2_v1 : Ref sig .tc := ⟨.hbm, 35, rfl⟩
abbrev main_call0_call2_c_0 : Ref sig .tc := ⟨.hbm, 36, rfl⟩
abbrev main_call0_call2_v2 : Ref sig .tc := ⟨.hbm, 37, rfl⟩
abbrev main_call0_call2_v3 : Ref sig .tc := ⟨.hbm, 38, rfl⟩
abbrev main_call0_call2_v4 : Ref sig .tc := ⟨.hbm, 39, rfl⟩
abbrev main_call0_call2_v5 : Ref sig .tc := ⟨.hbm, 40, rfl⟩
abbrev main_call0_call2_c_1 : Ref sig .tc := ⟨.hbm, 41, rfl⟩
abbrev main_call0_call2_c_2 : Ref sig .tc := ⟨.hbm, 42, rfl⟩
abbrev main_call0_call2_v6 : Ref sig .tc := ⟨.hbm, 43, rfl⟩
abbrev main_call0_call2_v7 : Ref sig .tc := ⟨.hbm, 44, rfl⟩
abbrev main_call0_call2_v8 : Ref sig .tc := ⟨.hbm, 45, rfl⟩
abbrev main_call0_call2_v9 : Ref sig .tc := ⟨.hbm, 46, rfl⟩
abbrev main_call0_call2_v10 : Ref sig .tc := ⟨.hbm, 47, rfl⟩
abbrev main_call0_call2_v11 : Ref sig .tc := ⟨.hbm, 48, rfl⟩
abbrev main_call0_call2_c_3 : Ref sig .tc := ⟨.hbm, 49, rfl⟩
abbrev main_call0_call2_v12 : Ref sig .tc := ⟨.hbm, 50, rfl⟩
abbrev main_call0_call2_v13 : Ref sig .tc := ⟨.hbm, 51, rfl⟩
abbrev main_call0_call2_cst : Ref sig .tc := ⟨.hbm, 52, rfl⟩
abbrev main_call0_call2_v14 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_cst : Ref sig .tc := ⟨.hbm, 57, rfl⟩
abbrev main_call0_v10 : Ref sig .tc := ⟨.hbm, 58, rfl⟩
abbrev main_call0_v11 : Ref sig .tc := ⟨.hbm, 59, rfl⟩
abbrev main_call0_v12 : Ref sig .tc := ⟨.hbm, 60, rfl⟩
abbrev main_call0_cst_3 : Ref sig .tc := ⟨.hbm, 61, rfl⟩
abbrev main_call0_v13 : Ref sig .tc := ⟨.hbm, 62, rfl⟩
abbrev main_call0_cst_4 : Ref sig .tc := ⟨.hbm, 63, rfl⟩
abbrev main_call0_v14 : Ref sig .tc := ⟨.hbm, 64, rfl⟩
abbrev main_call0_v15 : Ref sig .tc := ⟨.hbm, 65, rfl⟩
abbrev main_call0_v16 : Ref sig .tc := ⟨.hbm, 66, rfl⟩
abbrev main_call0_v17 : Ref sig .tc := ⟨.hbm, 67, rfl⟩
abbrev main_call0_v18 : Ref sig .tc := ⟨.hbm, 68, rfl⟩
abbrev main_call0_v19 : Ref sig .tc := ⟨.hbm, 69, rfl⟩
abbrev main_call0_cst_5 : Ref sig .tc := ⟨.hbm, 70, rfl⟩
abbrev main_call0_v20 : Ref sig .tc := ⟨.hbm, 71, rfl⟩
abbrev main_call0_v21 : Ref sig .tc := ⟨.hbm, 72, rfl⟩
abbrev main_call0_v22 : Ref sig .tc := ⟨.hbm, 73, rfl⟩
abbrev main_call0_v23 : Ref sig .tc := ⟨.hbm, 74, rfl⟩
abbrev main_call0_call3_c : Ref sig .tc := ⟨.hbm, 75, rfl⟩
abbrev main_call0_call3_v0 : Ref sig .tc := ⟨.hbm, 76, rfl⟩
abbrev main_call0_call3_v1 : Ref sig .tc := ⟨.hbm, 77, rfl⟩
abbrev main_call0_call3_c_0 : Ref sig .tc := ⟨.hbm, 78, rfl⟩
abbrev main_call0_call3_v2 : Ref sig .tc := ⟨.hbm, 79, rfl⟩
abbrev main_call0_call3_v3 : Ref sig .tc := ⟨.hbm, 80, rfl⟩
abbrev main_call0_call3_v4 : Ref sig .tc := ⟨.hbm, 81, rfl⟩
abbrev main_call0_call3_v5 : Ref sig .tc := ⟨.hbm, 82, rfl⟩
abbrev main_call0_call3_c_1 : Ref sig .tc := ⟨.hbm, 83, rfl⟩
abbrev main_call0_call3_c_2 : Ref sig .tc := ⟨.hbm, 84, rfl⟩
abbrev main_call0_call3_v6 : Ref sig .tc := ⟨.hbm, 85, rfl⟩
abbrev main_call0_call3_v7 : Ref sig .tc := ⟨.hbm, 86, rfl⟩
abbrev main_call0_call3_v8 : Ref sig .tc := ⟨.hbm, 87, rfl⟩
abbrev main_call0_call3_v9 : Ref sig .tc := ⟨.hbm, 88, rfl⟩
abbrev main_call0_call3_v10 : Ref sig .tc := ⟨.hbm, 89, rfl⟩
abbrev main_call0_call3_v11 : Ref sig .tc := ⟨.hbm, 90, rfl⟩
abbrev main_call0_call3_c_3 : Ref sig .tc := ⟨.hbm, 91, rfl⟩
abbrev main_call0_call3_v12 : Ref sig .tc := ⟨.hbm, 92, rfl⟩
abbrev main_call0_call3_v13 : Ref sig .tc := ⟨.hbm, 93, rfl⟩
abbrev main_call0_call3_c_4 : Ref sig .tc := ⟨.hbm, 94, rfl⟩
abbrev main_call0_call3_v14 : Ref sig .tc := ⟨.hbm, 95, rfl⟩
abbrev main_call0_v24 : Ref sig .tc := ⟨.hbm, 96, rfl⟩
abbrev main_call0_v25 : Ref sig .tc := ⟨.hbm, 97, rfl⟩
abbrev main_call0_call4_c : Ref sig .tc := ⟨.hbm, 98, rfl⟩
abbrev main_call0_call4_v0 : Ref sig .tc := ⟨.hbm, 99, rfl⟩
abbrev main_call0_call4_v1 : Ref sig .tc := ⟨.hbm, 100, rfl⟩
abbrev main_call0_call4_c_0 : Ref sig .tc := ⟨.hbm, 101, rfl⟩
abbrev main_call0_call4_v2 : Ref sig .tc := ⟨.hbm, 102, rfl⟩
abbrev main_call0_call4_v3 : Ref sig .tc := ⟨.hbm, 103, rfl⟩
abbrev main_call0_call4_v4 : Ref sig .tc := ⟨.hbm, 104, rfl⟩
abbrev main_call0_call4_v5 : Ref sig .tc := ⟨.hbm, 105, rfl⟩
abbrev main_call0_call4_c_1 : Ref sig .tc := ⟨.hbm, 106, rfl⟩
abbrev main_call0_call4_c_2 : Ref sig .tc := ⟨.hbm, 107, rfl⟩
abbrev main_call0_call4_v6 : Ref sig .tc := ⟨.hbm, 108, rfl⟩
abbrev main_call0_call4_v7 : Ref sig .tc := ⟨.hbm, 109, rfl⟩
abbrev main_call0_call4_v8 : Ref sig .tc := ⟨.hbm, 110, rfl⟩
abbrev main_call0_call4_v9 : Ref sig .tc := ⟨.hbm, 111, rfl⟩
abbrev main_call0_call4_v10 : Ref sig .tc := ⟨.hbm, 112, rfl⟩
abbrev main_call0_call4_v11 : Ref sig .tc := ⟨.hbm, 113, rfl⟩
abbrev main_call0_call4_c_3 : Ref sig .tc := ⟨.hbm, 114, rfl⟩
abbrev main_call0_call4_v12 : Ref sig .tc := ⟨.hbm, 115, rfl⟩
abbrev main_call0_call4_v13 : Ref sig .tc := ⟨.hbm, 116, rfl⟩
abbrev main_call0_call4_c_4 : Ref sig .tc := ⟨.hbm, 117, rfl⟩
abbrev main_call0_call4_v14 : Ref sig .tc := ⟨.hbm, 118, rfl⟩
abbrev main_call0_v26 : Ref sig .tc := ⟨.hbm, 119, rfl⟩
abbrev main_call0_v27 : Ref sig .tc := ⟨.hbm, 120, rfl⟩
abbrev main_call0_v28 : Ref sig .tc := ⟨.hbm, 121, rfl⟩
abbrev main_call0_v29 : Ref sig .tc := ⟨.hbm, 122, rfl⟩
abbrev main_call0_v30 : Ref sig .tc := ⟨.hbm, 123, rfl⟩
abbrev main_call0_v31 : Ref sig .tc := ⟨.hbm, 124, rfl⟩
abbrev main_call0_v32 : Ref sig .tc := ⟨.hbm, 125, rfl⟩
abbrev main_call0_c_6 : Ref sig .tc := ⟨.hbm, 126, rfl⟩
abbrev main_call0_v33 : Ref sig .tc := ⟨.hbm, 127, rfl⟩
abbrev main_call0_v34 : Ref sig .tc := ⟨.hbm, 128, rfl⟩
abbrev main_call0_v35 : Ref sig .tc := ⟨.hbm, 129, rfl⟩
abbrev main_call0_cst_7 : Ref sig .tc := ⟨.hbm, 130, rfl⟩
abbrev main_call0_v36 : Ref sig .tc := ⟨.hbm, 131, rfl⟩
abbrev main_call0_v37 : Ref sig .tc := ⟨.hbm, 132, rfl⟩
abbrev main_call0_v38 : Ref sig .tc := ⟨.hbm, 133, rfl⟩
abbrev main_call0_v39 : Ref sig .tc := ⟨.hbm, 134, rfl⟩
abbrev main_call0_v40 : Ref sig .tc := ⟨.hbm, 135, rfl⟩
abbrev main_call0_c_8 : Ref sig .tc := ⟨.hbm, 136, rfl⟩
abbrev main_call0_v41 : Ref sig .tc := ⟨.hbm, 137, rfl⟩
abbrev main_call0_v42 : Ref sig .tc := ⟨.hbm, 138, rfl⟩
abbrev main_call0_c_9 : Ref sig .tc := ⟨.hbm, 139, rfl⟩
abbrev main_call0_v43 : Ref sig .tc := ⟨.hbm, 140, rfl⟩
abbrev main_call0_v44 : Ref sig .tc := ⟨.hbm, 141, rfl⟩
abbrev main_call0_v45 : Ref sig .tc := ⟨.hbm, 142, rfl⟩
abbrev main_call0_v46 : Ref sig .tc := ⟨.hbm, 143, rfl⟩
abbrev main_call0_v47 : Ref sig .tc := ⟨.hbm, 144, rfl⟩
abbrev main_call0_v48 : Ref sig .tc := ⟨.hbm, 145, rfl⟩
abbrev main_call0_v49 : Ref sig .tc := ⟨.hbm, 146, rfl⟩
abbrev main_call0_v50 : Ref sig .tc := ⟨.hbm, 147, rfl⟩
abbrev main_call0_v51 : Ref sig .tc := ⟨.hbm, 148, rfl⟩
abbrev main_call0_c_10 : Ref sig .tc := ⟨.hbm, 149, rfl⟩
abbrev main_call0_v52 : Ref sig .tc := ⟨.hbm, 150, rfl⟩
abbrev main_call0_v53 : Ref sig .tc := ⟨.hbm, 151, rfl⟩
abbrev main_call0_c_11 : Ref sig .tc := ⟨.hbm, 152, rfl⟩
abbrev main_call0_v54 : Ref sig .tc := ⟨.hbm, 153, rfl⟩
abbrev main_call0_v55 : Ref sig .tc := ⟨.hbm, 154, rfl⟩
abbrev main_call0_v56 : Ref sig .tc := ⟨.hbm, 155, rfl⟩
abbrev main_call0_v57 : Ref sig .tc := ⟨.hbm, 156, rfl⟩
abbrev main_call0_v58 : Ref sig .tc := ⟨.hbm, 157, rfl⟩
abbrev main_call0_v59 : Ref sig .tc := ⟨.hbm, 158, rfl⟩
abbrev main_v0 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![128, 4], ![false, false]⟩

def k0_cond2 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_15 : BitVec 32 := 0#32
  let v36 : BitVec 1 := Scalar.cmpi .ne v35 c0_i32_15
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S_S128x2048 : S_.BroadcastsInDim S128x2048 (![] : Fin 0 → Fin S128x2048.rank)
  concatenates_S128x2048_S128x2048_S128x4096_d1 : Shape.Concatenates [S128x2048, S128x2048] S128x4096 1
  bcast_S128x4096_S128x1x4096_0_2 : S128x4096.BroadcastsInDim S128x1x4096 (![0, 2] : Fin 2 → Fin S128x1x4096.rank)
  shapeCasts_S128x1x2048_S128x2048 : S128x1x2048.ShapeCasts S128x2048
  shapeCasts_S128x64x32_S128x2048 : S128x64x32.ShapeCasts S128x2048
  shapeCasts_S128x2048_S128x2048x1 : S128x2048.ShapeCasts S128x2048x1
  bcast_S_S128x2048x1 : S_.BroadcastsInDim S128x2048x1 (![] : Fin 0 → Fin S128x2048x1.rank)
  bcast_S1_S1x1x1_2 : S1.BroadcastsInDim S1x1x1 (![2] : Fin 1 → Fin S1x1x1.rank)
  bcast_S1x1x1_S128x2048x1_0_1_2 : S1x1x1.BroadcastsInDim S128x2048x1 (![0, 1, 2] : Fin 3 → Fin S128x2048x1.rank)
  reducesTo_S128x2048x1_S128x2048_d2 : S128x2048x1.ReducesTo [2] S128x2048
  h_S_ : 0 < S_.numel
  shapeCasts_S128x2048_S128x64x32 : S128x2048.ShapeCasts S128x64x32
  reducesTo_S128x64x32_S128x64_d2 : S128x64x32.ReducesTo [2] S128x64
  bcast_S1_S128x1_1 : S1.BroadcastsInDim S128x1 (![1] : Fin 1 → Fin S128x1.rank)
  concatenates_S128x64_S128x1_S128x65_d1 : Shape.Concatenates [S128x64, S128x1] S128x65 1
  reducesTo_S128x65_S128_d1 : S128x65.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x65_0_1 : S128x1.BroadcastsInDim S128x65 (![0, 1] : Fin 2 → Fin S128x65.rank)
  slices_S128x65_S128x64_0_0 : S128x65.Slices ![0, 0] S128x64
  bcast_S128x64_S128x64x1_0_1 : S128x64.BroadcastsInDim S128x64x1 (![0, 1] : Fin 2 → Fin S128x64x1.rank)
  bcast_S128x64x1_S128x64x32_0_1_2 : S128x64x1.BroadcastsInDim S128x64x32 (![0, 1, 2] : Fin 3 → Fin S128x64x32.rank)
  bcast_S128_S128x1x1_0 : S128.BroadcastsInDim S128x1x1 (![0] : Fin 1 → Fin S128x1x1.rank)
  bcast_S_S524544 : S_.BroadcastsInDim S524544 (![] : Fin 0 → Fin S524544.rank)
  bcast_S128x1x1_S128x64x32_0_1_2 : S128x1x1.BroadcastsInDim S128x64x32 (![0, 1, 2] : Fin 3 → Fin S128x64x32.rank)
  shapeCasts_S128x64x32_S262144 : S128x64x32.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  shapeCasts_S524544_S128x4098 : S524544.ShapeCasts S128x4098
  slices_S128x4098_S128x4096_0_0 : S128x4098.Slices ![0, 0] S128x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S128_S128_0 : ∀ a, (![0] : Fin 1 → Nat) a + S128.size a ≤ S128.size a
  h_S128 : 0 < S128.numel
  shapeCasts_S128_S128x1 : S128.ShapeCasts S128x1
  natLt_1_32 : 1 < 32
  inb_S256x4096_S128x4096_0_0 : ∀ a, (![0, 0] : Fin 2 → Nat) a + S128x4096.size a ≤ S256x4096.size a
  h_S128x4096 : 0 < S128x4096.numel
  broadcasts_S128x1_S128x4096 : S128x1.Broadcasts S128x4096
  broadcasts_S1x4096_S128x4096 : S1x4096.Broadcasts S128x4096
  shapeCasts_S128x4096_S128x4096 : S128x4096.ShapeCasts S128x4096
  iota_S1024x1_d0_w32 : S1024x1.Iotas .tc 32 [0]
  broadcasts_S1024x1_S1024x4096 : S1024x1.Broadcasts S1024x4096
  broadcasts_S1x4096_S1024x4096 : S1x4096.Broadcasts S1024x4096
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1024x256_S1024x128_0_0 : ∀ a, (![0, 0] : Fin 2 → Nat) a + S1024x128.size a ≤ S1024x256.size a
  h_S1024x128 : 0 < S1024x128.numel
  shapeCasts_S1024x128_S1024x128 : S1024x128.ShapeCasts S1024x128
  packedbf16_S1024x256_S1024x128_0_0 : (Rect.unit (s := S1024x256) ![0, 0] S1024x128.size inb_S1024x256_S1024x128_0_0).PackedRows (EltTy.packing .bf16)
  inb_S1024x256_S1024x128_0_128 : ∀ a, (![0, 128] : Fin 2 → Nat) a + S1024x128.size a ≤ S1024x256.size a
  packedbf16_S1024x256_S1024x128_0_128 : (Rect.unit (s := S1024x256) ![0, 128] S1024x128.size inb_S1024x256_S1024x128_0_128).PackedRows (EltTy.packing .bf16)
  inb_S1024x256_S1024x256_0_0 : ∀ a, (![0, 0] : Fin 2 → Nat) a + S1024x256.size a ≤ S1024x256.size a
  h_S1024x256 : 0 < S1024x256.numel
  inb_S256x4096_S128x4096_128_0 : ∀ a, (![128, 0] : Fin 2 → Nat) a + S128x4096.size a ≤ S256x4096.size a
  slices_S128x4096_o0_0_S128x2048 : S128x4096.Slices ![0, 0] S128x2048
  slices_S128x4096_o0_2048_S128x2048 : S128x4096.Slices ![0, 2048] S128x2048
  inb_S256x2048_S128x2048_0_0 : ∀ a, (![0, 0] : Fin 2 → Nat) a + S128x2048.size a ≤ S256x2048.size a
  h_S128x2048 : 0 < S128x2048.numel
  shapeCasts_S128x2048_S128x2048 : S128x2048.ShapeCasts S128x2048
  inb_S256x2048_S128x2048_128_0 : ∀ a, (![128, 0] : Fin 2 → Nat) a + S128x2048.size a ≤ S256x2048.size a
  inb_S256x2048_S256x2048_0_0 : ∀ a, (![0, 0] : Fin 2 → Nat) a + S256x2048.size a ≤ S256x2048.size a
  h_S256x2048 : 0 < S256x2048.numel
  inb_S256x128_S256x128_0_0 : ∀ a, (![0, 0] : Fin 2 → Nat) a + S256x128.size a ≤ S256x128.size a
  h_S256x128 : 0 < S256x128.numel
  broadcasts_S128x1_S128x2048 : S128x1.Broadcasts S128x2048
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S1x2048 : S1x1.Broadcasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  gather_S128x2048_S128x2048x1_S128x2048_n_1_0_0_1_2_11_wf : GatherDims.WF S128x2048 S128x2048x1 S128x2048 [] [1] [0] [1] [0] 2 ![1, 1]
  scatter_S524544_S262144x1_S262144_n_0_0_1_wf : ScatterDims.WF S524544 S262144x1 S262144 [] [0] [0] 1
  dot_S1024x256_S1024x4096_S256x4096_0_0_1_1_n_n_wf : DotDims.WF S1024x256 S1024x4096 S256x4096 [0] [0] [1] [1] [] []
  dot_S256x128_S256x2048_S128x2048_0_0_1_1_n_n_wf : DotDims.WF S256x128 S256x2048 S128x2048 [0] [0] [1] [1] [] []
  dot_S128x1_S128x2048_S1x2048_0_0_1_1_n_n_wf : DotDims.WF S128x1 S128x2048 S1x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S128x4096x128.size a
  hwx0_0 : ∀ i : grid0.Coords, EltTy.bits .f32 = 32 ∨ (Rect.block (s := S128x4096x128) S1x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S128x1x4096.size a
  hwx0_3 : ∀ i : grid0.Coords, EltTy.bits .i32 = 32 ∨ (Rect.block (s := S128x1x4096) S1x1x4096.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x2048.size a ≤ S128x1x2048.size a
  hwx0_8 : ∀ i : grid0.Coords, EltTy.bits .f32 = 32 ∨ (Rect.block (s := S128x1x2048) S1x1x2048.size (cc0_transform_8 i) (hinb0_8 i)).WholeWords (EltTy.packing .f32)

variable [Facts₀]

def gather_S128x2048_S128x2048x1_S128x2048_n_1_0_0_1_2_11 : GatherDims S128x2048 S128x2048x1 S128x2048 where
  offsetDims := []
  collapsedSliceDims := [1]
  operandBatchingDims := [0]
  startIndicesBatchingDims := [0]
  startIndexMap := [1]
  indexVectorDim := 2
  sliceSizes := ![1, 1]
  wf := gather_S128x2048_S128x2048x1_S128x2048_n_1_0_0_1_2_11_wf
def scatter_S524544_S262144x1_S262144_n_0_0_1 : ScatterDims S524544 S262144x1 S262144 where
  updateWindowDims := []
  insertedWindowDims := [0]
  scatterDimsToOperandDims := [0]
  indexVectorDim := 1
  wf := scatter_S524544_S262144x1_S262144_n_0_0_1_wf
def dot_S1024x256_S1024x4096_S256x4096_0_0_1_1_n_n : DotDims S1024x256 S1024x4096 S256x4096 where
  lhsContracting := [0]
  rhsContracting := [0]
  lhsNonContracting := [1]
  rhsNonContracting := [1]
  lhsBatch := []
  rhsBatch := []
  wf := dot_S1024x256_S1024x4096_S256x4096_0_0_1_1_n_n_wf
def dot_S256x128_S256x2048_S128x2048_0_0_1_1_n_n : DotDims S256x128 S256x2048 S128x2048 where
  lhsContracting := [0]
  rhsContracting := [0]
  lhsNonContracting := [1]
  rhsNonContracting := [1]
  lhsBatch := []
  rhsBatch := []
  wf := dot_S256x128_S256x2048_S128x2048_0_0_1_1_n_n_wf
def dot_S128x1_S128x2048_S1x2048_0_0_1_1_n_n : DotDims S128x1 S128x2048 S1x2048 where
  lhsContracting := [0]
  rhsContracting := [0]
  lhsNonContracting := [1]
  rhsNonContracting := [1]
  lhsBatch := []
  rhsBatch := []
  wf := dot_S128x1_S128x2048_S1x2048_0_0_1_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v4) S1x1x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S128x4096x128 : Shape := ⟨3, ![128, 4096, 128]⟩
abbrev S128 : Shape := ⟨1, ![128]⟩
abbrev S1 : Shape := ⟨1, ![1]⟩
abbrev S256x128 : Shape := ⟨2, ![256, 128]⟩
abbrev S128x1 : Shape := ⟨2, ![128, 1]⟩
abbrev S128x2048 : Shape := ⟨2, ![128, 2048]⟩
abbrev S128x64x32 : Shape := ⟨3, ![128, 64, 32]⟩
abbrev S128x1x128 : Shape := ⟨3, ![128, 1, 128]⟩
abbrev S128x4098x128 : Shape := ⟨3, ![128, 4098, 128]⟩
abbrev S128x2048x1 : Shape := ⟨3, ![128, 2048, 1]⟩
abbrev S_ : Shape := ⟨0, ![]⟩
abbrev S1x1x1 : Shape := ⟨3, ![1, 1, 1]⟩
abbrev S128x2048x128 : Shape := ⟨3, ![128, 2048, 128]⟩
abbrev S128x2048x256 : Shape := ⟨3, ![128, 2048, 256]⟩
abbrev S1x1x128 : Shape := ⟨3, ![1, 1, 128]⟩
abbrev S128x64 : Shape := ⟨2, ![128, 64]⟩
abbrev S128x65 : Shape := ⟨2, ![128, 65]⟩
abbrev S128x64x1 : Shape := ⟨3, ![128, 64, 1]⟩
abbrev S128x1x1 : Shape := ⟨3, ![128, 1, 1]⟩
abbrev S524544 : Shape := ⟨1, ![524544]⟩
abbrev S262144 : Shape := ⟨1, ![262144]⟩
abbrev S262144x1 : Shape := ⟨2, ![262144, 1]⟩
abbrev S128x4098 : Shape := ⟨2, ![128, 4098]⟩
abbrev S128x4096 : Shape := ⟨2, ![128, 4096]⟩

abbrev nBuf : Space → Nat
  | .hbm => 202
  | .vmem => 0
  | .smem => 0
  | _ => 0

abbrev hbmTy0_0 (i : Nat) : BufTy := match i % 128 with
  | 0 => ⟨S128x4096x128, .f32⟩
  | 1 => ⟨S128, .f32⟩
  | 2 => ⟨S128, .f32⟩
  | 3 => ⟨S1, .f32⟩
  | 4 => ⟨S256x128, .f32⟩
  | 5 => ⟨S128, .f32⟩
  | 6 => ⟨S128x1, .f32⟩
  | 7 => ⟨S1, .f32⟩
  | 8 => ⟨S128x2048, .i32⟩
  | 9 => ⟨S128x2048, .i32⟩
  | 10 => ⟨S128x64x32, .i32⟩
  | 11 => ⟨S128x64x32, .f32⟩
  | 12 => ⟨S128x1x128, .f32⟩
  | 13 => ⟨S128x1x128, .f32⟩
  | 14 => ⟨S128x4098x128, .f32⟩
  | 15 => ⟨S128x2048x1, .i32⟩
  | 16 => ⟨S_, .i32⟩
  | 17 => ⟨S128x2048x1, .i32⟩
  | 18 => ⟨S128x2048x1, .i1⟩
  | 19 => ⟨S_, .i32⟩
  | 20 => ⟨S128x2048x1, .i32⟩
  | 21 => ⟨S128x2048x1, .i32⟩
  | 22 => ⟨S128x2048x1, .i32⟩
  | 23 => ⟨S1, .i32⟩
  | 24 => ⟨S_, .i32⟩
  | 25 => ⟨S128x2048x1, .i32⟩
  | 26 => ⟨S128x2048x1, .i1⟩
  | 27 => ⟨S1x1x1, .i32⟩
  | 28 => ⟨S128x2048x1, .i32⟩
  | 29 => ⟨S128x2048x1, .i1⟩
  | 30 => ⟨S128x2048x1, .i1⟩
  | 31 => ⟨S_, .i1⟩
  | 32 => ⟨S128x2048, .i1⟩
  | 33 => ⟨S128x2048x128, .f32⟩
  | 34 => ⟨S128x2048x128, .i1⟩
  | 35 => ⟨S_, .f32⟩
  | 36 => ⟨S128x2048x128, .f32⟩
  | 37 => ⟨S128x2048x128, .f32⟩
  | 38 => ⟨S128x2048x1, .i32⟩
  | 39 => ⟨S_, .i32⟩
  | 40 => ⟨S128x2048x1, .i32⟩
  | 41 => ⟨S128x2048x1, .i1⟩
  | 42 => ⟨S_, .i32⟩
  | 43 => ⟨S128x2048x1, .i32⟩
  | 44 => ⟨S128x2048x1, .i32⟩
  | 45 => ⟨S128x2048x1, .i32⟩
  | 46 => ⟨S1, .i32⟩
  | 47 => ⟨S_, .i32⟩
  | 48 => ⟨S128x2048x1, .i32⟩
  | 49 => ⟨S128x2048x1, .i1⟩
  | 50 => ⟨S1x1x1, .i32⟩
  | 51 => ⟨S128x2048x1, .i32⟩
  | 52 => ⟨S128x2048x1, .i1⟩
  | 53 => ⟨S128x2048x1, .i1⟩
  | 54 => ⟨S_, .i1⟩
  | 55 => ⟨S128x2048, .i1⟩
  | 56 => ⟨S128x2048x128, .f32⟩
  | 57 => ⟨S128x2048x128, .i1⟩
  | 58 => ⟨S_, .f32⟩
  | 59 => ⟨S128x2048x128, .f32⟩
  | 60 => ⟨S128x2048x128, .f32⟩
  | 61 => ⟨S128x2048x256, .f32⟩
  | 62 => ⟨S128x2048x128, .f32⟩
  | 63 => ⟨S1x1x128, .f32⟩
  | 64 => ⟨S128x2048x128, .f32⟩
  | 65 => ⟨S128x2048x128, .f32⟩
  | 66 => ⟨S_, .f32⟩
  | 67 => ⟨S128x2048x128, .f32⟩
  | 68 => ⟨S128x2048x128, .f32⟩
  | 69 => ⟨S128x2048x1, .f32⟩
  | 70 => ⟨S1x1x1, .f32⟩
  | 71 => ⟨S128x2048x1, .f32⟩
  | 72 => ⟨S128x2048x1, .f32⟩
  | 73 => ⟨S128x2048, .f32⟩
  | 74 => ⟨S128x2048, .i32⟩
  | 75 => ⟨S_, .i32⟩
  | 76 => ⟨S128x2048, .i32⟩
  | 77 => ⟨S128x2048, .i1⟩
  | 78 => ⟨S_, .i32⟩
  | 79 => ⟨S128x2048, .i32⟩
  | 80 => ⟨S128x2048, .i32⟩
  | 81 => ⟨S128x2048, .i32⟩
  | 82 => ⟨S128x2048x1, .i32⟩
  | 83 => ⟨S1, .i32⟩
  | 84 => ⟨S_, .i32⟩
  | 85 => ⟨S128x2048x1, .i32⟩
  | 86 => ⟨S128x2048x1, .i1⟩
  | 87 => ⟨S1x1x1, .i32⟩
  | 88 => ⟨S128x2048x1, .i32⟩
  | 89 => ⟨S128x2048x1, .i1⟩
  | 90 => ⟨S128x2048x1, .i1⟩
  | 91 => ⟨S_, .i1⟩
  | 92 => ⟨S128x2048, .i1⟩
  | 93 => ⟨S128x2048, .f32⟩
  | 94 => ⟨S_, .f32⟩
  | 95 => ⟨S128x2048, .f32⟩
  | 96 => ⟨S128x2048, .f32⟩
  | 97 => ⟨S128x64x32, .f32⟩
  | 98 => ⟨S128x64x32, .f32⟩
  | 99 => ⟨S_, .f32⟩
  | 100 => ⟨S128x64, .f32⟩
  | 101 => ⟨S128x1, .f32⟩
  | 102 => ⟨S128x65, .f32⟩
  | 103 => ⟨S_, .f32⟩
  | 104 => ⟨S128, .f32⟩
  | 105 => ⟨S_, .f32⟩
  | 106 => ⟨S128, .f32⟩
  | 107 => ⟨S128, .f32⟩
  | 108 => ⟨S128x1, .f32⟩
  | 109 => ⟨S128x65, .f32⟩
  | 110 => ⟨S128x65, .f32⟩
  | 111 => ⟨S128x65, .f32⟩
  | 112 => ⟨S_, .f32⟩
  | 113 => ⟨S128, .f32⟩
  | 114 => ⟨S128x1, .f32⟩
  | 115 => ⟨S128x65, .f32⟩
  | 116 => ⟨S128x65, .f32⟩
  | 117 => ⟨S_, .i32⟩
  | 118 => ⟨S128x2048, .i32⟩
  | 119 => ⟨S128x2048, .i1⟩
  | 120 => ⟨S_, .i32⟩
  | 121 => ⟨S128x2048, .i32⟩
  | 122 => ⟨S128x2048, .i32⟩
  | 123 => ⟨S128x2048, .i32⟩
  | 124 => ⟨S128x2048x1, .i32⟩
  | 125 => ⟨S1, .i32⟩
  | 126 => ⟨S_, .i32⟩
  | 127 => ⟨S128x2048x1, .i32⟩
  | _ => ⟨S128x4096x128, .f32⟩

abbrev hbmTy0_1 (i : Nat) : BufTy := match i % 128 with
  | 0 => ⟨S128x2048x1, .i1⟩
  | 1 => ⟨S1x1x1, .i32⟩
  | 2 => ⟨S128x2048x1, .i32⟩
  | 3 => ⟨S128x2048x1, .i1⟩
  | 4 => ⟨S128x2048x1, .i1⟩
  | 5 => ⟨S_, .i1⟩
  | 6 => ⟨S128x2048, .i1⟩
  | 7 => ⟨S128x2048, .i32⟩
  | 8 => ⟨S_, .i32⟩
  | 9 => ⟨S128x2048, .i32⟩
  | 10 => ⟨S128x2048, .i32⟩
  | 11 => ⟨S128x64x32, .i32⟩
  | 12 => ⟨S_, .i32⟩
  | 13 => ⟨S128x2048, .i32⟩
  | 14 => ⟨S128x2048, .i1⟩
  | 15 => ⟨S_, .i32⟩
  | 16 => ⟨S128x2048, .i32⟩
  | 17 => ⟨S128x2048, .i32⟩
  | 18 => ⟨S128x2048, .i32⟩
  | 19 => ⟨S128x2048x1, .i32⟩
  | 20 => ⟨S1, .i32⟩
  | 21 => ⟨S_, .i32⟩
  | 22 => ⟨S128x2048x1, .i32⟩
  | 23 => ⟨S128x2048x1, .i1⟩
  | 24 => ⟨S1x1x1, .i32⟩
  | 25 => ⟨S128x2048x1, .i32⟩
  | 26 => ⟨S128x2048x1, .i1⟩
  | 27 => ⟨S128x2048x1, .i1⟩
  | 28 => ⟨S_, .i1⟩
  | 29 => ⟨S128x2048, .i1⟩
  | 30 => ⟨S128x2048, .i32⟩
  | 31 => ⟨S_, .i32⟩
  | 32 => ⟨S128x2048, .i32⟩
  | 33 => ⟨S128x2048, .i32⟩
  | 34 => ⟨S128x64x32, .i32⟩
  | 35 => ⟨S128x64, .f32⟩
  | 36 => ⟨S128x64x1, .f32⟩
  | 37 => ⟨S128x64x32, .f32⟩
  | 38 => ⟨S128x64x32, .f32⟩
  | 39 => ⟨S128, .i32⟩
  | 40 => ⟨S_, .i32⟩
  | 41 => ⟨S128, .i32⟩
  | 42 => ⟨S128, .i32⟩
  | 43 => ⟨S128x1x1, .i32⟩
  | 44 => ⟨S_, .f32⟩
  | 45 => ⟨S524544, .f32⟩
  | 46 => ⟨S128x64x32, .i32⟩
  | 47 => ⟨S128x64x32, .i32⟩
  | 48 => ⟨S262144, .i32⟩
  | 49 => ⟨S262144, .f32⟩
  | 50 => ⟨S_, .i32⟩
  | 51 => ⟨S262144, .i32⟩
  | 52 => ⟨S262144, .i1⟩
  | 53 => ⟨S_, .i32⟩
  | 54 => ⟨S262144, .i32⟩
  | 55 => ⟨S262144, .i32⟩
  | 56 => ⟨S262144, .i32⟩
  | 57 => ⟨S262144x1, .i32⟩
  | 58 => ⟨S524544, .f32⟩
  | 59 => ⟨S128x64x32, .i32⟩
  | 60 => ⟨S128x64x32, .i32⟩
  | 61 => ⟨S262144, .i32⟩
  | 62 => ⟨S262144, .f32⟩
  | 63 => ⟨S_, .i32⟩
  | 64 => ⟨S262144, .i32⟩
  | 65 => ⟨S262144, .i1⟩
  | 66 => ⟨S_, .i32⟩
  | 67 => ⟨S262144, .i32⟩
  | 68 => ⟨S262144, .i32⟩
  | 69 => ⟨S262144, .i32⟩
  | 70 => ⟨S262144x1, .i32⟩
  | 71 => ⟨S524544, .f32⟩
  | 72 => ⟨S128x4098, .f32⟩
  | 73 => ⟨S128x4096, .f32⟩
  | _ => ⟨S128x4096x128, .f32⟩

abbrev hbmTy (i : Nat) : BufTy := match i / 128 with
  | 0 => hbmTy0_0 i
  | 1 => hbmTy0_1 i
  | _ => ⟨S128x4096x128, .f32⟩

abbrev bufTy : (tb : Table) → Fin (tcTables nBuf tb) → BufTy
  | .hbm, ⟨i, _⟩ => hbmTy i
  | _, _ => ⟨S128x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_c_2 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_c_3 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v4 : Ref sig .tc := ⟨.hbm, 37, rfl⟩
abbrev main_v5 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_c_2 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_c_3 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_call2_cst : Ref sig .tc := ⟨.hbm, 66, rfl⟩
abbrev main_call2_v0 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_cst : Ref sig .tc := ⟨.hbm, 94, rfl⟩
abbrev main_call3_v14 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_cst : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_cst_0 : Ref sig .tc := ⟨.hbm, 103, rfl⟩
abbrev main_v25 : Ref sig .tc := ⟨.hbm, 104, rfl⟩
abbrev main_cst_1 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_cst_2 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_c_4 : Ref sig .tc := ⟨.hbm, 136, rfl⟩
abbrev main_call4_v14 : Ref sig .tc := ⟨.hbm, 137, rfl⟩
abbrev main_v36 : Ref sig .tc := ⟨.hbm, 138, rfl⟩
abbrev main_v37 : Ref sig .tc := ⟨.hbm, 139, rfl⟩
abbrev main_call5_c : Ref sig .tc := ⟨.hbm, 140, rfl⟩
abbrev main_call5_v0 : Ref sig .tc := ⟨.hbm, 141, rfl⟩
abbrev main_call5_v1 : Ref sig .tc := ⟨.hbm, 142, rfl⟩
abbrev main_call5_c_0 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_v5 : Ref sig .tc := ⟨.hbm, 147, rfl⟩
abbrev main_call5_c_1 : Ref sig .tc := ⟨.hbm, 148, rfl⟩
abbrev main_call5_c_2 : Ref sig .tc := ⟨.hbm, 149, rfl⟩
abbrev main_call5_v6 : Ref sig .tc := ⟨.hbm, 150, rfl⟩
abbrev main_call5_v7 : Ref sig .tc := ⟨.hbm, 151, rfl⟩
abbrev main_call5_v8 : Ref sig .tc := ⟨.hbm, 152, rfl⟩
abbrev main_call5_v9 : Ref sig .tc := ⟨.hbm, 153, rfl⟩
abbrev main_call5_v10 : Ref sig .tc := ⟨.hbm, 154, rfl⟩
abbrev main_call5_v11 : Ref sig .tc := ⟨.hbm, 155, rfl⟩
abbrev main_call5_c_3 : Ref sig .tc := ⟨.hbm, 156, rfl⟩
abbrev main_call5_v12 : Ref sig .tc := ⟨.hbm, 157, rfl⟩
abbrev main_call5_v13 : Ref sig .tc := ⟨.hbm, 158, rfl⟩
abbrev main_call5_c_4 : Ref sig .tc := ⟨.hbm, 159, rfl⟩
abbrev main_call5_v14 : Ref sig .tc := ⟨.hbm, 160, rfl⟩
abbrev main_v38 : Ref sig .tc := ⟨.hbm, 161, rfl⟩
abbrev main_v39 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_c : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_cst_3 : Ref sig .tc := ⟨.hbm, 172, rfl⟩
abbrev main_v48 : Ref sig .tc := ⟨.hbm, 173, rfl⟩
abbrev main_v49 : Ref sig .tc := ⟨.hbm, 174, rfl⟩
abbrev main_v50 : Ref sig .tc := ⟨.hbm, 175, rfl⟩
abbrev main_v51 : Ref sig .tc := ⟨.hbm, 176, rfl⟩
abbrev main_v52 : Ref sig .tc := ⟨.hbm, 177, rfl⟩
abbrev main_c_4 : Ref sig .tc := ⟨.hbm, 178, rfl⟩
abbrev main_v53 : Ref sig .tc := ⟨.hbm, 179, rfl⟩
abbrev main_v54 : Ref sig .tc := ⟨.hbm, 180, rfl⟩
abbrev main_c_5 : Ref sig .tc := ⟨.hbm, 181, rfl⟩
abbrev main_v55 : Ref sig .tc := ⟨.hbm, 182, rfl⟩
abbrev main_v56 : Ref sig .tc := ⟨.hbm, 183, rfl⟩
abbrev main_v57 : Ref sig .tc := ⟨.hbm, 184, rfl⟩
abbrev main_v58 : Ref sig .tc := ⟨.hbm, 185, rfl⟩
abbrev main_v59 : Ref sig .tc := ⟨.hbm, 186, rfl⟩
abbrev main_v60 : Ref sig .tc := ⟨.hbm, 187, rfl⟩
abbrev main_v61 : Ref sig .tc := ⟨.hbm, 188, rfl⟩
abbrev main_v62 : Ref sig .tc := ⟨.hbm, 189, rfl⟩
abbrev main_v63 : Ref sig .tc := ⟨.hbm, 190, rfl⟩
abbrev main_c_6 : Ref sig .tc := ⟨.hbm, 191, rfl⟩
abbrev main_v64 : Ref sig .tc := ⟨.hbm, 192, rfl⟩
abbrev main_v65 : Ref sig .tc := ⟨.hbm, 193, rfl⟩
abbrev main_c_7 : Ref sig .tc := ⟨.hbm, 194, rfl⟩
abbrev main_v66 : Ref sig .tc := ⟨.hbm, 195, rfl⟩
abbrev main_v67 : Ref sig .tc := ⟨.hbm, 196, rfl⟩
abbrev main_v68 : Ref sig .tc := ⟨.hbm, 197, rfl⟩
abbrev main_v69 : Ref sig .tc := ⟨.hbm, 198, rfl⟩
abbrev main_v70 : Ref sig .tc := ⟨.hbm, 199, rfl⟩
abbrev main_v71 : Ref sig .tc := ⟨.hbm, 200, rfl⟩
abbrev main_v72 : Ref sig .tc := ⟨.hbm, 201, rfl⟩

abbrev nD : Nat := 1
abbrev τ : Topo := Topo.v7x

variable {F : FTy → Type} [FloatOps F]

class Facts₀ : Prop where
  bcast_S128_S128x1x128_2 : S128.BroadcastsInDim S128x1x128 (![2] : Fin 1 → Fin S128x1x128.rank)
  concatenates_S128x4096x128_S128x1x128_S128x1x128_S128x4098x128_d1 : Shape.Concatenates [S128x4096x128, S128x1x128, S128x1x128] S128x4098x128 1
  bcast_S128x2048_S128x2048x1_0_1 : S128x2048.BroadcastsInDim S128x2048x1 (![0, 1] : Fin 2 → Fin S128x2048x1.rank)
  bcast_S_S128x2048x1 : S_.BroadcastsInDim S128x2048x1 (![] : Fin 0 → Fin S128x2048x1.rank)
  bcast_S1_S1x1x1_2 : S1.BroadcastsInDim S1x1x1 (![2] : Fin 1 → Fin S1x1x1.rank)
  bcast_S1x1x1_S128x2048x1_0_1_2 : S1x1x1.BroadcastsInDim S128x2048x1 (![0, 1, 2] : Fin 3 → Fin S128x2048x1.rank)
  reducesTo_S128x2048x1_S128x2048_d2 : S128x2048x1.ReducesTo [2] S128x2048
  h_S_ : 0 < S_.numel
  bcast_S128x2048_S128x2048x128_0_1 : S128x2048.BroadcastsInDim S128x2048x128 (![0, 1] : Fin 2 → Fin S128x2048x128.rank)
  bcast_S_S128x2048x128 : S_.BroadcastsInDim S128x2048x128 (![] : Fin 0 → Fin S128x2048x128.rank)
  concatenates_S128x2048x128_S128x2048x128_S128x2048x256_d2 : Shape.Concatenates [S128x2048x128, S128x2048x128] S128x2048x256 2
  bcast_S128_S1x1x128_2 : S128.BroadcastsInDim S1x1x128 (![2] : Fin 1 → Fin S1x1x128.rank)
  bcast_S1x1x128_S128x2048x128_0_1_2 : S1x1x128.BroadcastsInDim S128x2048x128 (![0, 1, 2] : Fin 3 → Fin S128x2048x128.rank)
  shapeCasts_S128x2048x1_S128x2048 : S128x2048x1.ShapeCasts S128x2048
  shapeCasts_S128x64x32_S128x2048 : S128x64x32.ShapeCasts S128x2048
  bcast_S_S128x2048 : S_.BroadcastsInDim S128x2048 (![] : Fin 0 → Fin S128x2048.rank)
  shapeCasts_S128x2048_S128x2048x1 : S128x2048.ShapeCasts S128x2048x1
  shapeCasts_S128x2048_S128x64x32 : S128x2048.ShapeCasts S128x64x32
  reducesTo_S128x64x32_S128x64_d2 : S128x64x32.ReducesTo [2] S128x64
  bcast_S1_S128x1_1 : S1.BroadcastsInDim S128x1 (![1] : Fin 1 → Fin S128x1.rank)
  concatenates_S128x64_S128x1_S128x65_d1 : Shape.Concatenates [S128x64, S128x1] S128x65 1
  reducesTo_S128x65_S128_d1 : S128x65.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x65_0_1 : S128x1.BroadcastsInDim S128x65 (![0, 1] : Fin 2 → Fin S128x65.rank)
  slices_S128x65_S128x64_0_0 : S128x65.Slices ![0, 0] S128x64
  bcast_S128x64_S128x64x1_0_1 : S128x64.BroadcastsInDim S128x64x1 (![0, 1] : Fin 2 → Fin S128x64x1.rank)
  bcast_S128x64x1_S128x64x32_0_1_2 : S128x64x1.BroadcastsInDim S128x64x32 (![0, 1, 2] : Fin 3 → Fin S128x64x32.rank)
  bcast_S128_S128x1x1_0 : S128.BroadcastsInDim S128x1x1 (![0] : Fin 1 → Fin S128x1x1.rank)
  bcast_S_S524544 : S_.BroadcastsInDim S524544 (![] : Fin 0 → Fin S524544.rank)
  bcast_S128x1x1_S128x64x32_0_1_2 : S128x1x1.BroadcastsInDim S128x64x32 (![0, 1, 2] : Fin 3 → Fin S128x64x32.rank)
  shapeCasts_S128x64x32_S262144 : S128x64x32.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  shapeCasts_S524544_S128x4098 : S524544.ShapeCasts S128x4098
  slices_S128x4098_S128x4096_0_0 : S128x4098.Slices ![0, 0] S128x4096
  gather_S128x4098x128_S128x2048x1_S128x2048x128_2_1_0_0_1_2_11128_wf : GatherDims.WF S128x4098x128 S128x2048x1 S128x2048x128 [2] [1] [0] [1] [0] 2 ![1, 1, 128]
  dot_S128x2048x256_S256x128_S128x2048x128_2_0_01_1_n_n_wf : DotDims.WF S128x2048x256 S256x128 S128x2048x128 [2] [0] [0, 1] [1] [] []
  dot_S128x2048x128_S128x1_S128x2048x1_2_0_01_1_n_n_wf : DotDims.WF S128x2048x128 S128x1 S128x2048x1 [2] [0] [0, 1] [1] [] []
  gather_S128x2048_S128x2048x1_S128x2048_n_1_0_0_1_2_11_wf : GatherDims.WF S128x2048 S128x2048x1 S128x2048 [] [1] [0] [1] [0] 2 ![1, 1]
  scatter_S524544_S262144x1_S262144_n_0_0_1_wf : ScatterDims.WF S524544 S262144x1 S262144 [] [0] [0] 1

variable [Facts₀]

def gather_S128x4098x128_S128x2048x1_S128x2048x128_2_1_0_0_1_2_11128 : GatherDims S128x4098x128 S128x2048x1 S128x2048x128 where
  offsetDims := [2]
  collapsedSliceDims := [1]
  operandBatchingDims := [0]
  startIndicesBatchingDims := [0]
  startIndexMap := [1]
  indexVectorDim := 2
  sliceSizes := ![1, 1, 128]
  wf := gather_S128x4098x128_S128x2048x1_S128x2048x128_2_1_0_0_1_2_11128_wf
def dot_S128x2048x256_S256x128_S128x2048x128_2_0_01_1_n_n : DotDims S128x2048x256 S256x128 S128x2048x128 where
  lhsContracting := [2]
  rhsContracting := [0]
  lhsNonContracting := [0, 1]
  rhsNonContracting := [1]
  lhsBatch := []
  rhsBatch := []
  wf := dot_S128x2048x256_S256x128_S128x2048x128_2_0_01_1_n_n_wf
def dot_S128x2048x128_S128x1_S128x2048x1_2_0_01_1_n_n : DotDims S128x2048x128 S128x1 S128x2048x1 where
  lhsContracting := [2]
  rhsContracting := [0]
  lhsNonContracting := [0, 1]
  rhsNonContracting := [1]
  lhsBatch := []
  rhsBatch := []
  wf := dot_S128x2048x128_S128x1_S128x2048x1_2_0_01_1_n_n_wf
def gather_S128x2048_S128x2048x1_S128x2048_n_1_0_0_1_2_11 : GatherDims S128x2048 S128x2048x1 S128x2048 where
  offsetDims := []
  collapsedSliceDims := [1]
  operandBatchingDims := [0]
  startIndicesBatchingDims := [0]
  startIndexMap := [1]
  indexVectorDim := 2
  sliceSizes := ![1, 1]
  wf := gather_S128x2048_S128x2048x1_S128x2048_n_1_0_0_1_2_11_wf
def scatter_S524544_S262144x1_S262144_n_0_0_1 : ScatterDims S524544 S262144x1 S262144 where
  updateWindowDims := []
  insertedWindowDims := [0]
  scatterDimsToOperandDims := [0]
  indexVectorDim := 1
  wf := scatter_S524544_S262144x1_S262144_n_0_0_1_wf

class Facts : Prop extends Facts₀ where

variable [Facts]
-- ==== Proof.K.Kit.lean ====
/-
  The region of the program and what surrounds it, named once for the modules that run the kernel body.

  @main is eighteen host operations (two clips of the index arrays, their concatenation, a broadcast), the
  pipelined region over a grid of 128 genes × 4 chunks of 1024 site rows, and 129 host operations after it.
  Here: the buffer contents the region finds (`V0`, `V`), that @main is that chain, that the later
  operations touch only unscoped buffers, allocate nothing and write none of the region's arrays, each window's
  block at a grid point, the two conditions of the body (first chunk of a gene; last chunk of a gene) in closed
  form over the linear grid position, and the staging and scratch buffers as the body is called with them.
-/
import proofs.«422879_j30666066494039_3_alg».proof.Proof.Gen.Kernel.Launch
import proofs.«422879_j30666066494039_3_alg».proof.Proof.Gen.Kernel.Skeleton
import proofs.«422879_j30666066494039_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch the region's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 40000000 in
/-- No later operation writes an array of the region: each writes its own result buffer only. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The body's first condition: the chunk coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The body's second condition: the chunk coordinate is 3. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Away from a gene's last chunk the output window is idle and not written back. -/
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
/-- At a gene's last chunk the body stores into it. -/
theorem liveAt0_8_C : ∀ t : Fin cfg0.N, ¬cond0_0 (grid0.coords t) → cond0_1 (grid0.coords t) → cfg0.idle 8 (grid0.coords t) = false := by decide +kernel

/-! ## The staging and scratch buffers the body is called with -/

abbrev VO0_8 : View sig .tc .vmem S1x1x2048 .f32 := (Memref.whole cc0_stg8_0 : Memref sig .tc .vmem S1x1x2048 .f32).view
abbrev ms0_0 (t : Fin cfg0.N) : Memref sig .tc .vmem S1x1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4096 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x2048 .f32 := win0_8.stage (cfg0.slots t 8)
abbrev hs0_8 (t : Fin cfg0.N) : (ms0_8 t).IsWhole := hstage0_8 ((cfg0.slots t 8).cast nbuf0_8)
/-- The accumulator (carried from chunk to chunk of a gene), the stacked operand, the stacked embeddings. -/
abbrev scM0_0 : Memref sig .tc .vmem S256x4096 .f32 := Memref.whole cc0_scratch0
abbrev scM0_1 : Memref sig .tc .vmem S1024x256 .bf16 := Memref.whole cc0_scratch1
abbrev scM0_2 : Memref sig .tc .vmem S256x2048 .f32 := Memref.whole cc0_scratch2
abbrev VS0_0 : View sig .tc .vmem S256x4096 .f32 := scM0_0.view

/-- The region's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.K.RunA.lean ====
/-
  The kernel body run once, symbolically, at the first chunk of a gene (the chunk coordinate is 0): the accumulator is reset, the two special rows are added, and the chunk's one-hot product is accumulated.
  The run is stated on any whole staging and scratch buffers: the eight inputs at their contents, handed back
  as they were; the accumulator at anything (it is overwritten whole), handed back with this chunk's stores written
  (the pieces are what the run finds); the two work buffers at anything, handed back at some contents; the
  output block untouched.
-/
import proofs.«422879_j30666066494039_3_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x1024x128 .f32) (harg2 : arg2.IsWhole) (arg3 : Memref sig .tc .vmem S128 .f32) (harg3 : arg3.IsWhole) (arg4 : Memref sig .tc .vmem S128 .f32) (harg4 : arg4.IsWhole) (arg5 : Memref sig .tc .vmem S1x1x4096 .i32) (harg5 : arg5.IsWhole) (arg6 : Memref sig .tc .vmem S256x128 .f32) (harg6 : arg6.IsWhole) (arg7 : Memref sig .tc .vmem S128 .f32) (harg7 : arg7.IsWhole) (arg8 : Memref sig .tc .vmem S128x1 .f32) (harg8 : arg8.IsWhole) (arg9 : Memref sig .tc .vmem S1 .f32) (harg9 : arg9.IsWhole) (arg10 : Memref sig .tc .vmem S1x1x2048 .f32) (harg10 : arg10.IsWhole) (arg11 : Memref sig .tc .vmem S256x4096 .f32) (harg11 : arg11.IsWhole) (arg12 : Memref sig .tc .vmem S1024x256 .bf16) (harg12 : arg12.IsWhole) (arg13 : Memref sig .tc .vmem S256x2048 .f32) (harg13 : arg13.IsWhole) (hc0 : cond0_0 i) (hc1 : ¬cond0_1 i)
    (x0 : Vec F S1x1024x128 .f32) (x1 : Vec F S128 .f32) (x2 : Vec F S128 .f32) (x3 : Vec F S1x1x4096 .i32) (x4 : Vec F S256x128 .f32) (x5 : Vec F S128 .f32) (x6 : Vec F S128x1 .f32) (x7 : Vec F S1 .f32) :
    Σ' (L8 : List (View.Piece (Elt F) S1x1x2048 .f32)), { LS0 : List (View.Piece (Elt F) S256x4096 .f32) //
      ∀ (xi8 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} f) ∗ (∃ f, arg13.view.loc (c : Thread nD τ) ↦[arg13.view.set]{fullShare} f)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13) K } := by
  refine ⟨[], ?_, fun xi8 E K => ?run⟩
  case run =>
    simp only [cc0__stage1_kernel_eq_skeleton]; unfold cc0__stage1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    iexists _; iexact HS2

end Cert.Kernel.Fr

end
-- ==== Proof.K.RunB.lean ====
/-
  The kernel body run once, symbolically, at a middle chunk of a gene (the chunk coordinate is 1 or 2): the chunk's one-hot product is accumulated onto what the chunk before left.
  The run is stated on any whole staging and scratch buffers: the eight inputs at their contents, handed back
  as they were; the accumulator at what the chunk before left, handed back with this chunk's stores written
  (the pieces are what the run finds); the two work buffers at anything, handed back at some contents; the
  output block untouched.
-/
import proofs.«422879_j30666066494039_3_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x1024x128 .f32) (harg2 : arg2.IsWhole) (arg3 : Memref sig .tc .vmem S128 .f32) (harg3 : arg3.IsWhole) (arg4 : Memref sig .tc .vmem S128 .f32) (harg4 : arg4.IsWhole) (arg5 : Memref sig .tc .vmem S1x1x4096 .i32) (harg5 : arg5.IsWhole) (arg6 : Memref sig .tc .vmem S256x128 .f32) (harg6 : arg6.IsWhole) (arg7 : Memref sig .tc .vmem S128 .f32) (harg7 : arg7.IsWhole) (arg8 : Memref sig .tc .vmem S128x1 .f32) (harg8 : arg8.IsWhole) (arg9 : Memref sig .tc .vmem S1 .f32) (harg9 : arg9.IsWhole) (arg10 : Memref sig .tc .vmem S1x1x2048 .f32) (harg10 : arg10.IsWhole) (arg11 : Memref sig .tc .vmem S256x4096 .f32) (harg11 : arg11.IsWhole) (arg12 : Memref sig .tc .vmem S1024x256 .bf16) (harg12 : arg12.IsWhole) (arg13 : Memref sig .tc .vmem S256x2048 .f32) (harg13 : arg13.IsWhole) (hc0 : ¬cond0_0 i) (hc1 : ¬cond0_1 i)
    (x0 : Vec F S1x1024x128 .f32) (x1 : Vec F S128 .f32) (x2 : Vec F S128 .f32) (x3 : Vec F S1x1x4096 .i32) (x4 : Vec F S256x128 .f32) (x5 : Vec F S128 .f32) (x6 : Vec F S128x1 .f32) (x7 : Vec F S1 .f32) (xs0 : Vec F S256x4096 .f32) :
    Σ' (L8 : List (View.Piece (Elt F) S1x1x2048 .f32)), { LS0 : List (View.Piece (Elt F) S256x4096 .f32) //
      ∀ (xi8 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} f) ∗ (∃ f, arg13.view.loc (c : Thread nD τ) ↦[arg13.view.set]{fullShare} f)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13) K } := by
  refine ⟨[], ?_, fun xi8 E K => ?run⟩
  case run =>
    simp only [cc0__stage1_kernel_eq_skeleton]; unfold cc0__stage1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    iexists _; iexact HS2

end Cert.Kernel.Fr

end
-- ==== Proof.K.RunC.lean ====
/-
  The kernel body run once, symbolically, at the last chunk of a gene (the chunk coordinate is 3): the chunk's one-hot product is accumulated, then the perceptron runs on the accumulated embeddings and its result is stored into the output block.
  The run is stated on any whole staging and scratch buffers: the eight inputs at their contents, handed back
  as they were; the accumulator at what the chunk before left, handed back with this chunk's stores written
  (the pieces are what the run finds); the two work buffers at anything, handed back at some contents; the
  output block at anything, handed back with the result's store written.
-/
import proofs.«422879_j30666066494039_3_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1x1024x128 .f32) (harg2 : arg2.IsWhole) (arg3 : Memref sig .tc .vmem S128 .f32) (harg3 : arg3.IsWhole) (arg4 : Memref sig .tc .vmem S128 .f32) (harg4 : arg4.IsWhole) (arg5 : Memref sig .tc .vmem S1x1x4096 .i32) (harg5 : arg5.IsWhole) (arg6 : Memref sig .tc .vmem S256x128 .f32) (harg6 : arg6.IsWhole) (arg7 : Memref sig .tc .vmem S128 .f32) (harg7 : arg7.IsWhole) (arg8 : Memref sig .tc .vmem S128x1 .f32) (harg8 : arg8.IsWhole) (arg9 : Memref sig .tc .vmem S1 .f32) (harg9 : arg9.IsWhole) (arg10 : Memref sig .tc .vmem S1x1x2048 .f32) (harg10 : arg10.IsWhole) (arg11 : Memref sig .tc .vmem S256x4096 .f32) (harg11 : arg11.IsWhole) (arg12 : Memref sig .tc .vmem S1024x256 .bf16) (harg12 : arg12.IsWhole) (arg13 : Memref sig .tc .vmem S256x2048 .f32) (harg13 : arg13.IsWhole) (hc0 : ¬cond0_0 i) (hc1 : cond0_1 i)
    (x0 : Vec F S1x1024x128 .f32) (x1 : Vec F S128 .f32) (x2 : Vec F S128 .f32) (x3 : Vec F S1x1x4096 .i32) (x4 : Vec F S256x128 .f32) (x5 : Vec F S128 .f32) (x6 : Vec F S128x1 .f32) (x7 : Vec F S1 .f32) (xs0 : Vec F S256x4096 .f32) :
    Σ' (L8 : List (View.Piece (Elt F) S1x1x2048 .f32)), { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} f) ∗ (∃ f, arg13.view.loc (c : Thread nD τ) ↦[arg13.view.set]{fullShare} f)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__stage1_kernel_eq_skeleton]; unfold cc0__stage1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    isplitl [HS1]; · iexists _; iexact HS1
    iexists _; iexact HS2

end Cert.Kernel.Fr

end
-- ==== Proof.K.Frame.lean ====
/-
  The frame of the program: it runs to the end, nothing faults, and its argument arrays end unchanged.

  Per grid point the body is in one of three cases by the chunk coordinate (first, middle, last chunk of a
  gene).  What the accumulator holds after a point is what that point's case leaves in it over what the point
  before left (the first chunk overwrites it whole, so nothing is carried across genes); the output block is
  stored at a gene's last chunk only and is idle, and not written back, elsewhere.  The region invariant before
  a point holds the accumulator at what the point before left, the two work buffers at anything and the
  generator register at some state.  With that the body obligation holds at every point, the launch theorem for
  a region followed by host operations gives the run, and the run's post read at the argument arrays is the
  frame.
-/
import proofs.«422879_j30666066494039_3_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The output block where the body stores nothing into it: a placeholder nothing consults. -/
def outIdle : Vec F S1x1x2048 .f32 := VO0_8.read (Elt F) (VO0_8.writes (Elt F) VO0_8.junk [])

abbrev runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)
abbrev runB (c : Dev nD) (t : Fin cfg0.N) (h0 : ¬t.val % 4 = 0) (h1 : ¬t.val % 4 = 3) (xs0 : Vec F S256x4096 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xs0
abbrev runC (c : Dev nD) (t : Fin cfg0.N) (h0 : ¬t.val % 4 = 0) (h1 : t.val % 4 = 3) (xs0 : Vec F S256x4096 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) xs0

/-- The first chunk's stores cover the accumulator. -/
theorem scover0_A_0 (c : Dev nD) (t : Fin cfg0.N) (h0 : t.val % 4 = 0) (h1 : ¬t.val % 4 = 3) (y : S256x4096.Idx) :
    ∃ pc ∈ (runA m c t h0 h1).2.1, y ∈ pc.1.set :=
  View.cover_of_tiledL (runA m c t h0 h1).2.1 S256x4096.size (by sl_kernel_rfl) y
/-- What the first chunk leaves in the accumulator. -/
def soutA (c : Dev nD) (t : Fin cfg0.N) (h0 : t.val % 4 = 0) (h1 : ¬t.val % 4 = 3) : Vec F S256x4096 .f32 :=
  VS0_0.read (Elt F) (VS0_0.writes (Elt F) VS0_0.junk (runA m c t h0 h1).2.1)

theorem scover0_B_0 (c : Dev nD) (t : Fin cfg0.N) (h0 : ¬t.val % 4 = 0) (h1 : ¬t.val % 4 = 3) (xs0 : Vec F S256x4096 .f32) (y : S256x4096.Idx) :
    ∃ pc ∈ (runB m c t h0 h1 xs0).2.1, y ∈ pc.1.set :=
  View.cover_of_tiledL (runB m c t h0 h1 xs0).2.1 S256x4096.size (by sl_kernel_rfl) y
/-- What a middle chunk leaves in the accumulator, over what the chunk before left. -/
def soutB (c : Dev nD) (t : Fin cfg0.N) (h0 : ¬t.val % 4 = 0) (h1 : ¬t.val % 4 = 3) (xs0 : Vec F S256x4096 .f32) : Vec F S256x4096 .f32 :=
  VS0_0.read (Elt F) (VS0_0.writes (Elt F) VS0_0.junk (runB m c t h0 h1 xs0).2.1)

theorem scover0_C_0 (c : Dev nD) (t : Fin cfg0.N) (h0 : ¬t.val % 4 = 0) (h1 : t.val % 4 = 3) (xs0 : Vec F S256x4096 .f32) (y : S256x4096.Idx) :
    ∃ pc ∈ (runC m c t h0 h1 xs0).2.1, y ∈ pc.1.set :=
  View.cover_of_tiledL (runC m c t h0 h1 xs0).2.1 S256x4096.size (by sl_kernel_rfl) y
/-- What the last chunk leaves in the accumulator. -/
def soutC (c : Dev nD) (t : Fin cfg0.N) (h0 : ¬t.val % 4 = 0) (h1 : t.val % 4 = 3) (xs0 : Vec F S256x4096 .f32) : Vec F S256x4096 .f32 :=
  VS0_0.read (Elt F) (VS0_0.writes (Elt F) VS0_0.junk (runC m c t h0 h1 xs0).2.1)
/-- The last chunk's one store covers the output block. -/
theorem cover0_C_8 (c : Dev nD) (t : Fin cfg0.N) (h0 : ¬t.val % 4 = 0) (h1 : t.val % 4 = 3) (xs0 : Vec F S256x4096 .f32) (y : S1x1x2048.Idx) :
    ∃ pc ∈ (runC m c t h0 h1 xs0).1, y ∈ pc.1.set :=
  View.cover_of_tiledL (runC m c t h0 h1 xs0).1 S1x1x2048.size (by sl_kernel_rfl) y
/-- What the last chunk leaves in the output block. -/
def outC (c : Dev nD) (t : Fin cfg0.N) (h0 : ¬t.val % 4 = 0) (h1 : t.val % 4 = 3) (xs0 : Vec F S256x4096 .f32) : Vec F S1x1x2048 .f32 :=
  VO0_8.read (Elt F) (VO0_8.writes (Elt F) VO0_8.junk (runC m c t h0 h1 xs0).1)

/-! ## What the output block and the accumulator hold after each point -/

/-- After the body at position `n`: the output block, then the accumulator. -/
def outsAt0 (c : Dev nD) : (n : ℕ) → n < cfg0.N → Vec F S1x1x2048 .f32 × Vec F S256x4096 .f32
  | 0, hn => (outIdle, soutA m c ⟨0, hn⟩ (Nat.zero_mod _) (by show ¬ (0 : ℕ) % 4 = 3; decide))
  | n + 1, hn =>
    if h0 : (n + 1) % 4 = 0 then
      if h1 : (n + 1) % 4 = 3 then
        False.elim (by omega)
      else
        (outIdle, soutA m c ⟨n + 1, hn⟩ h0 h1)
    else
      if h1 : (n + 1) % 4 = 3 then
        (outC m c ⟨n + 1, hn⟩ h0 h1 (outsAt0 c n (Nat.lt_of_succ_lt hn)).2, soutC m c ⟨n + 1, hn⟩ h0 h1 (outsAt0 c n (Nat.lt_of_succ_lt hn)).2)
      else
        (outIdle, soutB m c ⟨n + 1, hn⟩ h0 h1 (outsAt0 c n (Nat.lt_of_succ_lt hn)).2)

theorem outsAt0_A (c : Dev nD) (t : Fin cfg0.N) (h0 : t.val % 4 = 0) (h1 : ¬t.val % 4 = 3) :
    outsAt0 m c t.val t.isLt = (outIdle, soutA m c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (outIdle, soutB m c t h0 h1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (outC m c t h0 h1 (outsAt0 m c (t.val - 1) (Nat.lt_of_le_of_lt (Nat.sub_le _ _) t.isLt)).2, soutC m c t h0 h1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start the scratch buffers at anything; afterwards the
    accumulator at what the point before left, the two work buffers at anything; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 512 := lt_of_lt_of_eq t.isLt (show cfg0.N = 512 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      rw [outsAt0_A m c t h0 h1]
      unfold soutA; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        isplitl [HS2]; · iexact HS2
        iintro ⟨H0, H1, H2, H3, H4, H5, H6, H7, H8, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 m c t h0 h1)
            isplitl [HS1]
            · unfold owns; iexists _, _; isplitr
              swap; · iexact HS1
              ipureintro; rfl
            unfold owns; iexists _, _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexact HS1
        isplitl [HS2]; · iexact HS2
        iintro ⟨H0, H1, H2, H3, H4, H5, H6, H7, H8, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 m c t h0 h1)
            isplitl [HS1]
            · unfold owns; iexists _, _; isplitr
              swap; · iexact HS1
              ipureintro; rfl
            unfold owns; iexists _, _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8_C t (fun h => h0 ((hcond0_0 t).mp h)) ((hcond0_1 t).mpr h1)], after0_8]
      rw [outsAt0_C m c t h0 h1]
      unfold outC soutC; (try dsimp only)
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%e8, H8⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_C_0 m c t h0 h1 _)
          isplitl [HS1]
          · unfold owns; iexists _, _; isplitr
            swap; · iexact HS1
            ipureintro; rfl
          unfold owns; iexists _, _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_C_8 m c t h0 h1 _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B m c t h0 h1]
      unfold soutB; (try dsimp only)
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 m c t h0 h1 _)
          isplitl [HS1]
          · unfold owns; iexists _, _; isplitr
            swap; · iexact HS1
            ipureintro; rfl
          unfold owns; iexists _, _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexact HS1
    iexact HS2
  iexact Hg

theorem hout (c : Dev nD) : (dats m 0 c).Φ (Fin.last cfg0.N) ⊢ Pipeline.ΦA spec0 c :=
  Phi_out m c _ (by rw [Fin.val_last]; have : cfg0.N = 512 := N_0; omega)

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-! ## The frame -/

set_option maxHeartbeats 40000000 in
/-- No later operation writes `main_arg3`, and it is no array of the region: it ends as the region found it. -/
theorem tail_main_arg3 (c : Dev nD) : Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
    simp only [hostOps1, List.flatten_cons, List.flatten_nil, List.append_nil, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  exact (Pipeline.withArrays_of_ne spec0 c (V0 m c) _ main_arg3 (by decide)).trans (V_main_arg3 m c)
set_option maxHeartbeats 40000000 in
/-- No later operation writes `main_arg8`, and it is no array of the region: it ends as the region found it. -/
theorem tail_main_arg8 (c : Dev nD) : Pipeline.afterTail₀ cfgs (dats m) 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
    simp only [hostOps1, List.flatten_cons, List.flatten_nil, List.append_nil, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  exact (Pipeline.withArrays_of_ne spec0 c (V0 m c) _ main_arg8 (by decide)).trans (V_main_arg8 m c)
set_option maxHeartbeats 40000000 in
/-- No later operation writes `main_arg9`, and it is no array of the region: it ends as the region found it. -/
theorem tail_main_arg9 (c : Dev nD) : Pipeline.afterTail₀ cfgs (dats m) 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
    simp only [hostOps1, List.flatten_cons, List.flatten_nil, List.append_nil, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  exact (Pipeline.withArrays_of_ne spec0 c (V0 m c) _ main_arg9 (by decide)).trans (V_main_arg9 m c)
set_option maxHeartbeats 40000000 in
/-- No later operation writes `main_arg10`, and it is no array of the region: it ends as the region found it. -/
theorem tail_main_arg10 (c : Dev nD) : Pipeline.afterTail₀ cfgs (dats m) 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
    simp only [hostOps1, List.flatten_cons, List.flatten_nil, List.append_nil, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  exact (Pipeline.withArrays_of_ne spec0 c (V0 m c) _ main_arg10 (by decide)).trans (V_main_arg10 m c)
set_option maxHeartbeats 40000000 in
/-- No later operation writes `main_arg11`, and it is no array of the region: it ends as the region found it. -/
theorem tail_main_arg11 (c : Dev nD) : Pipeline.afterTail₀ cfgs (dats m) 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
    simp only [hostOps1, List.flatten_cons, List.flatten_nil, List.append_nil, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  exact (Pipeline.withArrays_of_ne spec0 c (V0 m c) _ main_arg11 (by decide)).trans (V_main_arg11 m c)

/-- The frame: every weakly fair execution terminates without a fault and every argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).1 0).trans (((dats m 0 c).arrAt_in 0 rfl _).trans ((A_eq m c 0).trans (V_main_arg0 m c))),
      ⟨((h c).1 1).trans (((dats m 0 c).arrAt_in 1 rfl _).trans ((A_eq m c 1).trans (V_main_arg1 m c))),
      ⟨((h c).1 2).trans (((dats m 0 c).arrAt_in 2 rfl _).trans ((A_eq m c 2).trans (V_main_arg2 m c))),
      ⟨((h c).2 main_arg3 (Pipeline.mem_restRefs_of main_arg3 (by decide) (by decide))).trans (tail_main_arg3 m c),
      ⟨((h c).1 4).trans (((dats m 0 c).arrAt_in 4 rfl _).trans ((A_eq m c 4).trans (V_main_arg4 m c))),
      ⟨((h c).1 5).trans (((dats m 0 c).arrAt_in 5 rfl _).trans ((A_eq m c 5).trans (V_main_arg5 m c))),
      ⟨((h c).1 6).trans (((dats m 0 c).arrAt_in 6 rfl _).trans ((A_eq m c 6).trans (V_main_arg6 m c))),
      ⟨((h c).1 7).trans (((dats m 0 c).arrAt_in 7 rfl _).trans ((A_eq m c 7).trans (V_main_arg7 m c))),
      ⟨((h c).2 main_arg8 (Pipeline.mem_restRefs_of main_arg8 (by decide) (by decide))).trans (tail_main_arg8 m c),
      ⟨((h c).2 main_arg9 (Pipeline.mem_restRefs_of main_arg9 (by decide) (by decide))).trans (tail_main_arg9 m c),
      ⟨((h c).2 main_arg10 (Pipeline.mem_restRefs_of main_arg10 (by decide) (by decide))).trans (tail_main_arg10 m c),
      ((h c).2 main_arg11 (Pipeline.mem_restRefs_of main_arg11 (by decide) (by decide))).trans (tail_main_arg11 m c)⟩⟩⟩⟩⟩⟩⟩⟩⟩⟩⟩) (run_main m ρ)

end Cert.Kernel.Fr

end
-- ==== Proof.KI.Kit.lean ====
/-
  The region of the program and what surrounds it, named once for the modules that run the kernel body.

  @main is eighteen host operations (two clips of the index arrays, their concatenation, a broadcast), the
  pipelined region over a grid of 128 genes × 4 chunks of 1024 site rows, and 129 host operations after it.
  Here: the buffer contents the region finds (`V0`, `V`), that @main is that chain, that the later
  operations touch only unscoped buffers, allocate nothing and write none of the region's arrays, each window's
  block at a grid point, the two conditions of the body (first chunk of a gene; last chunk of a gene) in closed
  form over the linear grid position, and the staging and scratch buffers as the body is called with them.
-/
import proofs.«422879_j30666066494039_3_alg».proof.Proof.Gen.KernelIdeal.Launch
import proofs.«422879_j30666066494039_3_alg».proof.Proof.Gen.KernelIdeal.Skeleton
import proofs.«422879_j30666066494039_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch the region's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 40000000 in
/-- No later operation writes an array of the region: each writes its own result buffer only. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The body's first condition: the chunk coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The body's second condition: the chunk coordinate is 3. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Away from a gene's last chunk the output window is idle and not written back. -/
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
/-- At a gene's last chunk the body stores into it. -/
theorem liveAt0_8_C : ∀ t : Fin cfg0.N, ¬cond0_0 (grid0.coords t) → cond0_1 (grid0.coords t) → cfg0.idle 8 (grid0.coords t) = false := by decide +kernel

/-! ## The staging and scratch buffers the body is called with -/

abbrev VO0_8 : View sig .tc .vmem S1x1x2048 .f32 := (Memref.whole cc0_stg8_0 : Memref sig .tc .vmem S1x1x2048 .f32).view
abbrev ms0_0 (t : Fin cfg0.N) : Memref sig .tc .vmem S1x1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4096 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x2048 .f32 := win0_8.stage (cfg0.slots t 8)
abbrev hs0_8 (t : Fin cfg0.N) : (ms0_8 t).IsWhole := hstage0_8 ((cfg0.slots t 8).cast nbuf0_8)
/-- The accumulator (carried from chunk to chunk of a gene), the stacked operand, the stacked embeddings. -/
abbrev scM0_0 : Memref sig .tc .vmem S256x4096 .f32 := Memref.whole cc0_scratch0
abbrev scM0_1 : Memref sig .tc .vmem S1024x256 .bf16 := Memref.whole cc0_scratch1
abbrev scM0_2 : Memref sig .tc .vmem S256x2048 .f32 := Memref.whole cc0_scratch2
abbrev VS0_0 : View sig .tc .vmem S256x4096 .f32 := scM0_0.view

/-- The region's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.KI.RunA.lean ====
/-
  The kernel body run once, symbolically, at the first chunk of a gene (the chunk coordinate is 0): the accumulator is reset, the two special rows are added, and the chunk's one-hot product is accumulated.
  The run is stated on any whole staging and scratch buffers: the eight inputs at their contents, handed back
  as they were; the accumulator at anything (it is overwritten whole), handed back with this chunk's stores written
  (the pieces are what the run finds); the two work buffers at anything, handed back at some contents; the
  output block untouched.
-/
import proofs.«422879_j30666066494039_3_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x1024x128 .f32) (harg2 : arg2.IsWhole) (arg3 : Memref sig .tc .vmem S128 .f32) (harg3 : arg3.IsWhole) (arg4 : Memref sig .tc .vmem S128 .f32) (harg4 : arg4.IsWhole) (arg5 : Memref sig .tc .vmem S1x1x4096 .i32) (harg5 : arg5.IsWhole) (arg6 : Memref sig .tc .vmem S256x128 .f32) (harg6 : arg6.IsWhole) (arg7 : Memref sig .tc .vmem S128 .f32) (harg7 : arg7.IsWhole) (arg8 : Memref sig .tc .vmem S128x1 .f32) (harg8 : arg8.IsWhole) (arg9 : Memref sig .tc .vmem S1 .f32) (harg9 : arg9.IsWhole) (arg10 : Memref sig .tc .vmem S1x1x2048 .f32) (harg10 : arg10.IsWhole) (arg11 : Memref sig .tc .vmem S256x4096 .f32) (harg11 : arg11.IsWhole) (arg12 : Memref sig .tc .vmem S1024x256 .bf16) (harg12 : arg12.IsWhole) (arg13 : Memref sig .tc .vmem S256x2048 .f32) (harg13 : arg13.IsWhole) (hc0 : cond0_0 i) (hc1 : ¬cond0_1 i)
    (x0 : Vec F S1x1024x128 .f32) (x1 : Vec F S128 .f32) (x2 : Vec F S128 .f32) (x3 : Vec F S1x1x4096 .i32) (x4 : Vec F S256x128 .f32) (x5 : Vec F S128 .f32) (x6 : Vec F S128x1 .f32) (x7 : Vec F S1 .f32) :
    Σ' (L8 : List (View.Piece (Elt F) S1x1x2048 .f32)), { LS0 : List (View.Piece (Elt F) S256x4096 .f32) //
      ∀ (xi8 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} f) ∗ (∃ f, arg13.view.loc (c : Thread nD τ) ↦[arg13.view.set]{fullShare} f)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13) K } := by
  refine ⟨[], ?_, fun xi8 E K => ?run⟩
  case run =>
    simp only [cc0__stage1_kernel_eq_skeleton]; unfold cc0__stage1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    iexists _; iexact HS2

end Cert.KernelIdeal.Fr

end
-- ==== Proof.KI.RunB.lean ====
/-
  The kernel body run once, symbolically, at a middle chunk of a gene (the chunk coordinate is 1 or 2): the chunk's one-hot product is accumulated onto what the chunk before left.
  The run is stated on any whole staging and scratch buffers: the eight inputs at their contents, handed back
  as they were; the accumulator at what the chunk before left, handed back with this chunk's stores written
  (the pieces are what the run finds); the two work buffers at anything, handed back at some contents; the
  output block untouched.
-/
import proofs.«422879_j30666066494039_3_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x1024x128 .f32) (harg2 : arg2.IsWhole) (arg3 : Memref sig .tc .vmem S128 .f32) (harg3 : arg3.IsWhole) (arg4 : Memref sig .tc .vmem S128 .f32) (harg4 : arg4.IsWhole) (arg5 : Memref sig .tc .vmem S1x1x4096 .i32) (harg5 : arg5.IsWhole) (arg6 : Memref sig .tc .vmem S256x128 .f32) (harg6 : arg6.IsWhole) (arg7 : Memref sig .tc .vmem S128 .f32) (harg7 : arg7.IsWhole) (arg8 : Memref sig .tc .vmem S128x1 .f32) (harg8 : arg8.IsWhole) (arg9 : Memref sig .tc .vmem S1 .f32) (harg9 : arg9.IsWhole) (arg10 : Memref sig .tc .vmem S1x1x2048 .f32) (harg10 : arg10.IsWhole) (arg11 : Memref sig .tc .vmem S256x4096 .f32) (harg11 : arg11.IsWhole) (arg12 : Memref sig .tc .vmem S1024x256 .bf16) (harg12 : arg12.IsWhole) (arg13 : Memref sig .tc .vmem S256x2048 .f32) (harg13 : arg13.IsWhole) (hc0 : ¬cond0_0 i) (hc1 : ¬cond0_1 i)
    (x0 : Vec F S1x1024x128 .f32) (x1 : Vec F S128 .f32) (x2 : Vec F S128 .f32) (x3 : Vec F S1x1x4096 .i32) (x4 : Vec F S256x128 .f32) (x5 : Vec F S128 .f32) (x6 : Vec F S128x1 .f32) (x7 : Vec F S1 .f32) (xs0 : Vec F S256x4096 .f32) :
    Σ' (L8 : List (View.Piece (Elt F) S1x1x2048 .f32)), { LS0 : List (View.Piece (Elt F) S256x4096 .f32) //
      ∀ (xi8 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} f) ∗ (∃ f, arg13.view.loc (c : Thread nD τ) ↦[arg13.view.set]{fullShare} f)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13) K } := by
  refine ⟨[], ?_, fun xi8 E K => ?run⟩
  case run =>
    simp only [cc0__stage1_kernel_eq_skeleton]; unfold cc0__stage1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    iexists _; iexact HS2

end Cert.KernelIdeal.Fr

end
-- ==== Proof.KI.RunC.lean ====
/-
  The kernel body run once, symbolically, at the last chunk of a gene (the chunk coordinate is 3): the chunk's one-hot product is accumulated, then the perceptron runs on the accumulated embeddings and its result is stored into the output block.
  The run is stated on any whole staging and scratch buffers: the eight inputs at their contents, handed back
  as they were; the accumulator at what the chunk before left, handed back with this chunk's stores written
  (the pieces are what the run finds); the two work buffers at anything, handed back at some contents; the
  output block at anything, handed back with the result's store written.
-/
import proofs.«422879_j30666066494039_3_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1x1024x128 .f32) (harg2 : arg2.IsWhole) (arg3 : Memref sig .tc .vmem S128 .f32) (harg3 : arg3.IsWhole) (arg4 : Memref sig .tc .vmem S128 .f32) (harg4 : arg4.IsWhole) (arg5 : Memref sig .tc .vmem S1x1x4096 .i32) (harg5 : arg5.IsWhole) (arg6 : Memref sig .tc .vmem S256x128 .f32) (harg6 : arg6.IsWhole) (arg7 : Memref sig .tc .vmem S128 .f32) (harg7 : arg7.IsWhole) (arg8 : Memref sig .tc .vmem S128x1 .f32) (harg8 : arg8.IsWhole) (arg9 : Memref sig .tc .vmem S1 .f32) (harg9 : arg9.IsWhole) (arg10 : Memref sig .tc .vmem S1x1x2048 .f32) (harg10 : arg10.IsWhole) (arg11 : Memref sig .tc .vmem S256x4096 .f32) (harg11 : arg11.IsWhole) (arg12 : Memref sig .tc .vmem S1024x256 .bf16) (harg12 : arg12.IsWhole) (arg13 : Memref sig .tc .vmem S256x2048 .f32) (harg13 : arg13.IsWhole) (hc0 : ¬cond0_0 i) (hc1 : cond0_1 i)
    (x0 : Vec F S1x1024x128 .f32) (x1 : Vec F S128 .f32) (x2 : Vec F S128 .f32) (x3 : Vec F S1x1x4096 .i32) (x4 : Vec F S256x128 .f32) (x5 : Vec F S128 .f32) (x6 : Vec F S128x1 .f32) (x7 : Vec F S1 .f32) (xs0 : Vec F S256x4096 .f32) :
    Σ' (L8 : List (View.Piece (Elt F) S1x1x2048 .f32)), { LS0 : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} f) ∗ (∃ f, arg13.view.loc (c : Thread nD τ) ↦[arg13.view.set]{fullShare} f)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__stage1_kernel_eq_skeleton]; unfold cc0__stage1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    isplitl [HS1]; · iexists _; iexact HS1
    iexists _; iexact HS2

end Cert.KernelIdeal.Fr

end
-- ==== Proof.KI.Frame.lean ====
/-
  The frame of the program: it runs to the end, nothing faults, and its argument arrays end unchanged.

  Per grid point the body is in one of three cases by the chunk coordinate (first, middle, last chunk of a
  gene).  What the accumulator holds after a point is what that point's case leaves in it over what the point
  before left (the first chunk overwrites it whole, so nothing is carried across genes); the output block is
  stored at a gene's last chunk only and is idle, and not written back, elsewhere.  The region invariant before
  a point holds the accumulator at what the point before left, the two work buffers at anything and the
  generator register at some state.  With that the body obligation holds at every point, the launch theorem for
  a region followed by host operations gives the run, and the run's post read at the argument arrays is the
  frame.
-/
import proofs.«422879_j30666066494039_3_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The output block where the body stores nothing into it: a placeholder nothing consults. -/
def outIdle : Vec F S1x1x2048 .f32 := VO0_8.read (Elt F) (VO0_8.writes (Elt F) VO0_8.junk [])

abbrev runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)
abbrev runB (c : Dev nD) (t : Fin cfg0.N) (h0 : ¬t.val % 4 = 0) (h1 : ¬t.val % 4 = 3) (xs0 : Vec F S256x4096 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) xs0
abbrev runC (c : Dev nD) (t : Fin cfg0.N) (h0 : ¬t.val % 4 = 0) (h1 : t.val % 4 = 3) (xs0 : Vec F S256x4096 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) xs0

/-- The first chunk's stores cover the accumulator. -/
theorem scover0_A_0 (c : Dev nD) (t : Fin cfg0.N) (h0 : t.val % 4 = 0) (h1 : ¬t.val % 4 = 3) (y : S256x4096.Idx) :
    ∃ pc ∈ (runA m c t h0 h1).2.1, y ∈ pc.1.set :=
  View.cover_of_tiledL (runA m c t h0 h1).2.1 S256x4096.size (by sl_kernel_rfl) y
/-- What the first chunk leaves in the accumulator. -/
def soutA (c : Dev nD) (t : Fin cfg0.N) (h0 : t.val % 4 = 0) (h1 : ¬t.val % 4 = 3) : Vec F S256x4096 .f32 :=
  VS0_0.read (Elt F) (VS0_0.writes (Elt F) VS0_0.junk (runA m c t h0 h1).2.1)

theorem scover0_B_0 (c : Dev nD) (t : Fin cfg0.N) (h0 : ¬t.val % 4 = 0) (h1 : ¬t.val % 4 = 3) (xs0 : Vec F S256x4096 .f32) (y : S256x4096.Idx) :
    ∃ pc ∈ (runB m c t h0 h1 xs0).2.1, y ∈ pc.1.set :=
  View.cover_of_tiledL (runB m c t h0 h1 xs0).2.1 S256x4096.size (by sl_kernel_rfl) y
/-- What a middle chunk leaves in the accumulator, over what the chunk before left. -/
def soutB (c : Dev nD) (t : Fin cfg0.N) (h0 : ¬t.val % 4 = 0) (h1 : ¬t.val % 4 = 3) (xs0 : Vec F S256x4096 .f32) : Vec F S256x4096 .f32 :=
  VS0_0.read (Elt F) (VS0_0.writes (Elt F) VS0_0.junk (runB m c t h0 h1 xs0).2.1)

theorem scover0_C_0 (c : Dev nD) (t : Fin cfg0.N) (h0 : ¬t.val % 4 = 0) (h1 : t.val % 4 = 3) (xs0 : Vec F S256x4096 .f32) (y : S256x4096.Idx) :
    ∃ pc ∈ (runC m c t h0 h1 xs0).2.1, y ∈ pc.1.set :=
  View.cover_of_tiledL (runC m c t h0 h1 xs0).2.1 S256x4096.size (by sl_kernel_rfl) y
/-- What the last chunk leaves in the accumulator. -/
def soutC (c : Dev nD) (t : Fin cfg0.N) (h0 : ¬t.val % 4 = 0) (h1 : t.val % 4 = 3) (xs0 : Vec F S256x4096 .f32) : Vec F S256x4096 .f32 :=
  VS0_0.read (Elt F) (VS0_0.writes (Elt F) VS0_0.junk (runC m c t h0 h1 xs0).2.1)
/-- The last chunk's one store covers the output block. -/
theorem cover0_C_8 (c : Dev nD) (t : Fin cfg0.N) (h0 : ¬t.val % 4 = 0) (h1 : t.val % 4 = 3) (xs0 : Vec F S256x4096 .f32) (y : S1x1x2048.Idx) :
    ∃ pc ∈ (runC m c t h0 h1 xs0).1, y ∈ pc.1.set :=
  View.cover_of_tiledL (runC m c t h0 h1 xs0).1 S1x1x2048.size (by sl_kernel_rfl) y
/-- What the last chunk leaves in the output block. -/
def outC (c : Dev nD) (t : Fin cfg0.N) (h0 : ¬t.val % 4 = 0) (h1 : t.val % 4 = 3) (xs0 : Vec F S256x4096 .f32) : Vec F S1x1x2048 .f32 :=
  VO0_8.read (Elt F) (VO0_8.writes (Elt F) VO0_8.junk (runC m c t h0 h1 xs0).1)

/-! ## What the output block and the accumulator hold after each point -/

/-- After the body at position `n`: the output block, then the accumulator. -/
def outsAt0 (c : Dev nD) : (n : ℕ) → n < cfg0.N → Vec F S1x1x2048 .f32 × Vec F S256x4096 .f32
  | 0, hn => (outIdle, soutA m c ⟨0, hn⟩ (Nat.zero_mod _) (by show ¬ (0 : ℕ) % 4 = 3; decide))
  | n + 1, hn =>
    if h0 : (n + 1) % 4 = 0 then
      if h1 : (n + 1) % 4 = 3 then
        False.elim (by omega)
      else
        (outIdle, soutA m c ⟨n + 1, hn⟩ h0 h1)
    else
      if h1 : (n + 1) % 4 = 3 then
        (outC m c ⟨n + 1, hn⟩ h0 h1 (outsAt0 c n (Nat.lt_of_succ_lt hn)).2, soutC m c ⟨n + 1, hn⟩ h0 h1 (outsAt0 c n (Nat.lt_of_succ_lt hn)).2)
      else
        (outIdle, soutB m c ⟨n + 1, hn⟩ h0 h1 (outsAt0 c n (Nat.lt_of_succ_lt hn)).2)

theorem outsAt0_A (c : Dev nD) (t : Fin cfg0.N) (h0 : t.val % 4 = 0) (h1 : ¬t.val % 4 = 3) :
    outsAt0 m c t.val t.isLt = (outIdle, soutA m c t h0 h1) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (outIdle, soutB m c t h0 h1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (outC m c t h0 h1 (outsAt0 m c (t.val - 1) (Nat.lt_of_le_of_lt (Nat.sub_le _ _) t.isLt)).2, soutC m c t h0 h1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: at the start the scratch buffers at anything; afterwards the
    accumulator at what the point before left, the two work buffers at anything; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 512 := lt_of_lt_of_eq t.isLt (show cfg0.N = 512 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      rw [outsAt0_A m c t h0 h1]
      unfold soutA; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        isplitl [HS1]; · iexact HS1
        isplitl [HS2]; · iexact HS2
        iintro ⟨H0, H1, H2, H3, H4, H5, H6, H7, H8, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 m c t h0 h1)
            isplitl [HS1]
            · unfold owns; iexists _, _; isplitr
              swap; · iexact HS1
              ipureintro; rfl
            unfold owns; iexists _, _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        isplitl [HS1]; · iexact HS1
        isplitl [HS2]; · iexact HS2
        iintro ⟨H0, H1, H2, H3, H4, H5, H6, H7, H8, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 m c t h0 h1)
            isplitl [HS1]
            · unfold owns; iexists _, _; isplitr
              swap; · iexact HS1
              ipureintro; rfl
            unfold owns; iexists _, _; isplitr
            swap; · iexact HS2
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8_C t (fun h => h0 ((hcond0_0 t).mp h)) ((hcond0_1 t).mpr h1)], after0_8]
      rw [outsAt0_C m c t h0 h1]
      unfold outC soutC; (try dsimp only)
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      iintro ⟨H0, H1, H2, H3, H4, H5, H6, H7, ⟨%e8, H8⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_C_0 m c t h0 h1 _)
          isplitl [HS1]
          · unfold owns; iexists _, _; isplitr
            swap; · iexact HS1
            ipureintro; rfl
          unfold owns; iexists _, _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_C_8 m c t h0 h1 _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B m c t h0 h1]
      unfold soutB; (try dsimp only)
      have hz : t.val ≠ 0 := by omega
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 m c t h0 h1 _)
          isplitl [HS1]
          · unfold owns; iexists _, _; isplitr
            swap; · iexact HS1
            ipureintro; rfl
          unfold owns; iexists _, _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexact HS1
    iexact HS2
  iexact Hg

theorem hout (c : Dev nD) : (dats m 0 c).Φ (Fin.last cfg0.N) ⊢ Pipeline.ΦA spec0 c :=
  Phi_out m c _ (by rw [Fin.val_last]; have : cfg0.N = 512 := N_0; omega)

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-! ## The frame -/

set_option maxHeartbeats 40000000 in
/-- No later operation writes `main_arg3`, and it is no array of the region: it ends as the region found it. -/
theorem tail_main_arg3 (c : Dev nD) : Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
    simp only [hostOps1, List.flatten_cons, List.flatten_nil, List.append_nil, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  exact (Pipeline.withArrays_of_ne spec0 c (V0 m c) _ main_arg3 (by decide)).trans (V_main_arg3 m c)
set_option maxHeartbeats 40000000 in
/-- No later operation writes `main_arg8`, and it is no array of the region: it ends as the region found it. -/
theorem tail_main_arg8 (c : Dev nD) : Pipeline.afterTail₀ cfgs (dats m) 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
    simp only [hostOps1, List.flatten_cons, List.flatten_nil, List.append_nil, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  exact (Pipeline.withArrays_of_ne spec0 c (V0 m c) _ main_arg8 (by decide)).trans (V_main_arg8 m c)
set_option maxHeartbeats 40000000 in
/-- No later operation writes `main_arg9`, and it is no array of the region: it ends as the region found it. -/
theorem tail_main_arg9 (c : Dev nD) : Pipeline.afterTail₀ cfgs (dats m) 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
    simp only [hostOps1, List.flatten_cons, List.flatten_nil, List.append_nil, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  exact (Pipeline.withArrays_of_ne spec0 c (V0 m c) _ main_arg9 (by decide)).trans (V_main_arg9 m c)
set_option maxHeartbeats 40000000 in
/-- No later operation writes `main_arg10`, and it is no array of the region: it ends as the region found it. -/
theorem tail_main_arg10 (c : Dev nD) : Pipeline.afterTail₀ cfgs (dats m) 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
    simp only [hostOps1, List.flatten_cons, List.flatten_nil, List.append_nil, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  exact (Pipeline.withArrays_of_ne spec0 c (V0 m c) _ main_arg10 (by decide)).trans (V_main_arg10 m c)
set_option maxHeartbeats 40000000 in
/-- No later operation writes `main_arg11`, and it is no array of the region: it ends as the region found it. -/
theorem tail_main_arg11 (c : Dev nD) : Pipeline.afterTail₀ cfgs (dats m) 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
    simp only [hostOps1, List.flatten_cons, List.flatten_nil, List.append_nil, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))]
  exact (Pipeline.withArrays_of_ne spec0 c (V0 m c) _ main_arg11 (by decide)).trans (V_main_arg11 m c)

/-- The frame: every weakly fair execution terminates without a fault and every argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).1 0).trans (((dats m 0 c).arrAt_in 0 rfl _).trans ((A_eq m c 0).trans (V_main_arg0 m c))),
      ⟨((h c).1 1).trans (((dats m 0 c).arrAt_in 1 rfl _).trans ((A_eq m c 1).trans (V_main_arg1 m c))),
      ⟨((h c).1 2).trans (((dats m 0 c).arrAt_in 2 rfl _).trans ((A_eq m c 2).trans (V_main_arg2 m c))),
      ⟨((h c).2 main_arg3 (Pipeline.mem_restRefs_of main_arg3 (by decide) (by decide))).trans (tail_main_arg3 m c),
      ⟨((h c).1 4).trans (((dats m 0 c).arrAt_in 4 rfl _).trans ((A_eq m c 4).trans (V_main_arg4 m c))),
      ⟨((h c).1 5).trans (((dats m 0 c).arrAt_in 5 rfl _).trans ((A_eq m c 5).trans (V_main_arg5 m c))),
      ⟨((h c).1 6).trans (((dats m 0 c).arrAt_in 6 rfl _).trans ((A_eq m c 6).trans (V_main_arg6 m c))),
      ⟨((h c).1 7).trans (((dats m 0 c).arrAt_in 7 rfl _).trans ((A_eq m c 7).trans (V_main_arg7 m c))),
      ⟨((h c).2 main_arg8 (Pipeline.mem_restRefs_of main_arg8 (by decide) (by decide))).trans (tail_main_arg8 m c),
      ⟨((h c).2 main_arg9 (Pipeline.mem_restRefs_of main_arg9 (by decide) (by decide))).trans (tail_main_arg9 m c),
      ⟨((h c).2 main_arg10 (Pipeline.mem_restRefs_of main_arg10 (by decide) (by decide))).trans (tail_main_arg10 m c),
      ((h c).2 main_arg11 (Pipeline.mem_restRefs_of main_arg11 (by decide) (by decide))).trans (tail_main_arg11 m c)⟩⟩⟩⟩⟩⟩⟩⟩⟩⟩⟩) (run_main m ρ)

end Cert.KernelIdeal.Fr

end
-- ==== Proof.PayAcc.lean ====
import proofs.«422879_j30666066494039_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

/-!
# The accumulation payloads of the kernel body, read at an index

Over the extended reals a narrowing format change is the identity, so each accumulation payload is a closed
expression in the values read before it:

* the cleared accumulator is `0` everywhere;
* the two halves of the staged block are the block's element and its difference with itself;
* the bias rows add, to the running value at `(c, n)`, the two row vectors at `c` weighted by the indicators
  "the word at `n` is 4096" and "the word at `n` is 4097";
* the main accumulation adds, at `(r, n)`, the sum over the 1024 rows `s` of the tile of the tile's entry
  `(s, r)` times the indicator "the word at `n` is the global row number `1024 · (tile number) + s`"
  (a one-hot matrix product: at most one term of the sum is not zero).

The last section records that these payloads keep real values real, which is what makes `x - x = 0` usable.
-/

noncomputable section

open scoped BigOperators

namespace Cert.KernelIdeal.PayAcc

open Cert.KernelIdeal Cert.KernelIdeal.Gen Idealize.ShloMosaic Idealize.ShloMosaic.ValueIdx

/-! ## Layout operations on a column, read at an index -/

section Column
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## Words: a comparison's bit as a real, and equality of words by their values -/

/-- An integer comparison at an index compares the elements. -/
theorem cmpi_apply {s : Shape} {w : ℕ} (p : CmpIPredicate) (a b : IVec s w) (i : s.Idx) :
    cmpi p a b i = IntOp.cmpi p (a i) (b i) := rfl

/-- An integer sum at an index adds the elements. -/
theorem addi_apply {s : Shape} {w : ℕ} (a b : IVec s w) (i : s.Idx) : addi a b i = a i + b i := rfl

/-- The bit of "`x = y`", widened to 32 bits and converted to a float, is the real `1` when the words are equal
and the real `0` when they are not. -/
theorem flag_eq (x y : BitVec 32) :
    FloatOps.sitofp (F := Ideal) .f32 ((IntOp.cmpi .eq x y).setWidth 32) = if x = y then (1 : EReal) else 0 := by
  show ((((BitVec.ofBool (x == y)).setWidth 32).toInt : ℝ) : EReal) = _
  by_cases h : x = y
  · rw [if_pos h, beq_iff_eq.mpr h]
    have e : ((BitVec.ofBool true).setWidth 32).toInt = 1 := by decide
    rw [e]; simp
  · rw [if_neg h, beq_eq_false_iff_ne.mpr h]
    have e : ((BitVec.ofBool false).setWidth 32).toInt = 0 := by decide
    rw [e]; simp

/-- A 32-bit word is the word of a number below `2 ^ 32` exactly when its value is that number. -/
theorem word_eq_ofNat_iff (x : BitVec 32) (k : ℕ) (hk : k < 2 ^ 32) : BitVec.ofNat 32 k = x ↔ x.toNat = k := by
  constructor
  · intro h; rw [← h, BitVec.toNat_ofNat, Nat.mod_eq_of_lt hk]
  · intro h; apply BitVec.eq_of_toNat_eq; rw [BitVec.toNat_ofNat, Nat.mod_eq_of_lt hk, h]

/-! ## The cleared accumulator -/

/-- The cleared accumulator is `0` at every index. -/
theorem pay11_apply (y : S256x4096.Idx) : k0_pay11 (F := Ideal) y = 0 := by
  unfold k0_pay11
  rw [shapeCast_self]
  show Ideal.ofBits .f32 0x00000000#32 = 0
  exact Ideal.ofBits_zero_f32

/-! ## The word row and the staged block with their unit axes dropped -/

/-- The word row with its leading unit axis dropped. -/
theorem pay10_apply (v0 : Vec Ideal S1x1x4096 .i32) (n : Fin 4096) :
    k0_pay10 (F := Ideal) v0 (ix2 (0 : Fin 1) n) = v0 (ix3 0 0 n) := by
  unfold k0_pay10
  exact shapeCast_1ab_ab_apply v0 _ (0 : Fin 1) n

/-- The staged block with its leading unit axis dropped. -/
theorem pay13_apply (v15 : Vec Ideal S1x1024x128 .f32) (s : Fin 1024) (c : Fin 128) :
    k0_pay13 (F := Ideal) v15 (ix2 s c) = v15 (ix3 0 s c) := by
  unfold k0_pay13
  exact shapeCast_1ab_ab_apply v15 _ s c

/-- The first half staged: the block's element (the narrowing is the identity on extended reals). -/
theorem pay14_apply (v15 : Vec Ideal S1x1024x128 .f32) (s : Fin 1024) (c : Fin 128) :
    k0_pay14 (F := Ideal) v15 (ix2 s c) = v15 (ix3 0 s c) := by
  unfold k0_pay14
  rw [shapeCast_self]
  exact (truncf_apply (φ := .f32) (ψ := .bf16) (k0_pay13 v15) bitsLt_bf16_f32 (ix2 s c)).trans (pay13_apply v15 s c)

/-- The second half staged: the block's element minus itself. -/
theorem pay15_apply (v15 : Vec Ideal S1x1024x128 .f32) (s : Fin 1024) (c : Fin 128) :
    k0_pay15 (F := Ideal) v15 (ix2 s c) = v15 (ix3 0 s c) - v15 (ix3 0 s c) := by
  unfold k0_pay15
  rw [shapeCast_self]
  refine (truncf_apply (φ := .f32) (ψ := .bf16) (subf (k0_pay13 v15) (k0_pay13 v15)) bitsLt_bf16_f32 (ix2 s c)).trans ?_
  rw [subf_apply, pay13_apply]

/-! ## The bias rows -/

/-- The indicator row "the word at `n` is `k`", as the kernel computes it: compare with the splat of `k`, widen, convert. -/
theorem wordFlag_apply (v0 : Vec Ideal S1x1x4096 .i32) (k : ℕ) (hk : k < 2 ^ 32) (n : Fin 4096) :
    (sitofp .f32 (extui 32 (cmpi .eq (k0_pay10 (F := Ideal) v0) (broadcast S1x4096 (BitVec.ofNat 32 k))) natLt_1_32)
        : FVec Ideal S1x4096 .f32) (ix2 (0 : Fin 1) n)
      = if (v0 (ix3 0 0 n)).toNat = k then (1 : EReal) else 0 := by
  rw [sitofp_apply, extui_apply, cmpi_apply, broadcast_apply, pay10_apply, flag_eq]
  exact if_congr (eq_comm.trans (word_eq_ofNat_iff _ k hk)) rfl rfl

/-- The bias rows: the running value at `(c, n)` plus the two row vectors at `c`, the first where the word at `n` is
4096 and the second where it is 4097. -/
theorem pay12_apply (v0 : Vec Ideal S1x1x4096 .i32) (v41 v43 : Vec Ideal S128 .f32) (v53 : Vec Ideal S128x4096 .f32)
    (c : Fin 128) (n : Fin 4096) :
    k0_pay12 (F := Ideal) v0 v41 v43 v53 (ix2 c n)
      = v53 (ix2 c n) + (v41 (ix1 c) * (if (v0 (ix3 0 0 n)).toNat = 4096 then (1 : EReal) else 0)
          + v43 (ix1 c) * (if (v0 (ix3 0 0 n)).toNat = 4097 then (1 : EReal) else 0)) := by
  unfold k0_pay12
  rw [shapeCast_self]
  simp only [addf_apply, mulf_apply]
  rw [broadcastTo_a1_ab_apply, broadcastTo_a1_ab_apply, broadcastTo_1b_ab_apply, broadcastTo_1b_ab_apply,
    shapeCast_a_a1_apply, shapeCast_a_a1_apply]
  rw [wordFlag_apply v0 4096 (by decide) n, wordFlag_apply v0 4097 (by decide) n]

/-! ## The main accumulation: a product with a one-hot matrix

The product contracts axis 0 of both operands: the left operand's index at output `(r, n)` and contraction
coordinate `s` is `(s, r)`, the right operand's is `(s, n)`. -/

/-- The left operand's index on its contracted axis is the contraction coordinate … -/
theorem lhs_axis0 (j : S256x4096.Idx) (k : dot_S1024x256_S1024x4096_S256x4096_0_0_1_1_n_n.contr.Idx) :
    (dot_S1024x256_S1024x4096_S256x4096_0_0_1_1_n_n.lhsIdx j k 0).val = (k ⟨0, by decide⟩).val :=
  dot_S1024x256_S1024x4096_S256x4096_0_0_1_1_n_n.lhsIdx_val_of_single rfl j k

/-- … and on its kept axis the output's row. -/
theorem lhs_axis1 (j : S256x4096.Idx) (k : dot_S1024x256_S1024x4096_S256x4096_0_0_1_1_n_n.contr.Idx) :
    (dot_S1024x256_S1024x4096_S256x4096_0_0_1_1_n_n.lhsIdx j k 1).val = (j 0).val := by
  unfold DotDims.lhsIdx
  rw [dif_neg (show ¬(1 : Fin S1024x256.rank) ∈ dot_S1024x256_S1024x4096_S256x4096_0_0_1_1_n_n.lhsBatch by decide),
    dif_pos (show (1 : Fin S1024x256.rank) ∈ dot_S1024x256_S1024x4096_S256x4096_0_0_1_1_n_n.lhsNonContracting by decide)]
  rfl

/-- The right operand's index on its contracted axis is the contraction coordinate … -/
theorem rhs_axis0 (j : S256x4096.Idx) (k : dot_S1024x256_S1024x4096_S256x4096_0_0_1_1_n_n.contr.Idx) :
    (dot_S1024x256_S1024x4096_S256x4096_0_0_1_1_n_n.rhsIdx j k 0).val = (k ⟨0, by decide⟩).val :=
  dot_S1024x256_S1024x4096_S256x4096_0_0_1_1_n_n.rhsIdx_val_of_single rfl j k

/-- … and on its kept axis the output's column. -/
theorem rhs_axis1 (j : S256x4096.Idx) (k : dot_S1024x256_S1024x4096_S256x4096_0_0_1_1_n_n.contr.Idx) :
    (dot_S1024x256_S1024x4096_S256x4096_0_0_1_1_n_n.rhsIdx j k 1).val = (j 1).val := by
  unfold DotDims.rhsIdx
  rw [dif_neg (show ¬(1 : Fin S1024x4096.rank) ∈ dot_S1024x256_S1024x4096_S256x4096_0_0_1_1_n_n.rhsBatch by decide),
    dif_pos (show (1 : Fin S1024x4096.rank) ∈ dot_S1024x256_S1024x4096_S256x4096_0_0_1_1_n_n.rhsNonContracting by decide)]
  rfl

/-- The left operand is read at `(s, r)`. -/
theorem lhsIdx_eq (r : Fin 256) (n : Fin 4096) (s : Fin 1024) :
    dot_S1024x256_S1024x4096_S256x4096_0_0_1_1_n_n.lhsIdx (ix2 r n) ((contrEquiv1 dot_S1024x256_S1024x4096_S256x4096_0_0_1_1_n_n 1024 rfl rfl).symm s) = ix2 s r := by
  funext a; apply Fin.ext
  match a with
  | ⟨0, _⟩ => exact (lhs_axis0 _ _).trans (contrEquiv1_symm_val dot_S1024x256_S1024x4096_S256x4096_0_0_1_1_n_n 1024 rfl rfl s)
  | ⟨1, _⟩ => exact lhs_axis1 _ _

/-- The right operand is read at `(s, n)`. -/
theorem rhsIdx_eq (r : Fin 256) (n : Fin 4096) (s : Fin 1024) :
    dot_S1024x256_S1024x4096_S256x4096_0_0_1_1_n_n.rhsIdx (ix2 r n) ((contrEquiv1 dot_S1024x256_S1024x4096_S256x4096_0_0_1_1_n_n 1024 rfl rfl).symm s) = ix2 s n := by
  funext a; apply Fin.ext
  match a with
  | ⟨0, _⟩ => exact (rhs_axis0 _ _).trans (contrEquiv1_symm_val dot_S1024x256_S1024x4096_S256x4096_0_0_1_1_n_n 1024 rfl rfl s)
  | ⟨1, _⟩ => exact rhs_axis1 _ _

/-- The global row number of row `s` of tile `t`, computed in 32-bit words (`t < 4` and `s < 1024`: nothing wraps), is
the word `x` exactly when `x`'s value is `1024 t + s`. -/
theorem rowWord_eq_iff (t : ℕ) (ht : t < 4) (s : Fin 1024) (x : BitVec 32) :
    BitVec.ofNat 32 s.val + Scalar.muli (BitVec.ofNat 32 t) 1024#32 = x ↔ x.toNat = t * 1024 + s.val := by
  have hs := s.isLt
  have e : BitVec.ofNat 32 s.val + Scalar.muli (BitVec.ofNat 32 t) 1024#32 = BitVec.ofNat 32 (t * 1024 + s.val) := by
    apply BitVec.eq_of_toNat_eq
    show (BitVec.ofNat 32 s.val + BitVec.ofNat 32 t * 1024#32).toNat = _
    simp only [BitVec.toNat_add, BitVec.toNat_mul, BitVec.toNat_ofNat]
    omega
  rw [e]
  exact word_eq_ofNat_iff x _ (by omega)

/-- The main accumulation: the running value at `(r, n)` plus the sum over the tile's rows `s` of the tile's entry
`(s, r)` where the word at `n` is the row's global number. -/
theorem pay16_apply (i : grid0.Coords) (v0 : Vec Ideal S1x1x4096 .i32) (v27 : Vec Ideal S256x4096 .f32)
    (v28 : Vec Ideal S1024x256 .bf16) (r : Fin 256) (n : Fin 4096) :
    k0_pay16 (F := Ideal) i v0 v27 v28 (ix2 r n)
      = v27 (ix2 r n) + ∑ s : Fin 1024, v28 (ix2 s r)
          * (if (v0 (ix3 0 0 n)).toNat = (i 1).val * 1024 + s.val then (1 : EReal) else 0) := by
  have hi : (i 1).val < 4 := (i 1).isLt
  unfold k0_pay16
  dsimp only
  rw [shapeCast_self, addf_apply]
  simp only [matmul]
  rw [Ideal.matmul_constant_zero_apply, ← Equiv.sum_comp (contrEquiv1 dot_S1024x256_S1024x4096_S256x4096_0_0_1_1_n_n 1024 rfl rfl).symm]
  refine congrArg (v27 (ix2 r n) + ·) (Finset.sum_congr rfl fun s _ => ?_)
  rw [lhsIdx_eq, rhsIdx_eq]
  refine congrArg (v28 (ix2 s r) * ·) ?_
  rw [truncf_apply (φ := .f32) (ψ := .bf16), sitofp_apply, extui_apply, cmpi_apply, broadcastTo_a1_ab_apply,
    broadcastTo_1b_ab_apply, addi_apply, iota_single_apply, broadcast_apply, pay10_apply, flag_eq]
  exact if_congr (rowWord_eq_iff (i 1).val hi s _) rfl rfl

/-! ## Real values stay real

On the extended reals `x - x = 0` holds for a real `x` only, so the proof that uses these payloads needs to know that
real inputs give real values: sums, products and indicators of reals are real. -/

/-- An indicator is a real number. -/
theorem flag_real (p : Prop) [Decidable p] : ∃ x : ℝ, (if p then (1 : EReal) else 0) = (x : EReal) := by
  by_cases h : p
  · exact ⟨1, by rw [if_pos h, EReal.coe_one]⟩
  · exact ⟨0, by rw [if_neg h, EReal.coe_zero]⟩

/-- A finite sum of real numbers is a real number. -/
theorem sum_real {ι : Type} (t : Finset ι) (f : ι → EReal) (h : ∀ a, ∃ x : ℝ, f a = (x : EReal)) :
    ∃ x : ℝ, ∑ a ∈ t, f a = (x : EReal) := by
  classical
  induction t using Finset.induction_on with
  | empty => exact ⟨0, by rw [Finset.sum_empty, EReal.coe_zero]⟩
  | insert a t ha ih =>
    obtain ⟨x, hx⟩ := ih
    obtain ⟨y, hy⟩ := h a
    exact ⟨y + x, by rw [Finset.sum_insert ha, hx, hy, EReal.coe_add]⟩

/-- The bias rows keep real values real. -/
theorem pay12_real (v0 : Vec Ideal S1x1x4096 .i32) (v41 v43 : Vec Ideal S128 .f32) (v53 : Vec Ideal S128x4096 .f32)
    (h41 : ∀ y, ∃ x : ℝ, v41 y = (x : EReal)) (h43 : ∀ y, ∃ x : ℝ, v43 y = (x : EReal))
    (h53 : ∀ y, ∃ x : ℝ, v53 y = (x : EReal)) :
    ∀ y, ∃ x : ℝ, k0_pay12 (F := Ideal) v0 v41 v43 v53 y = (x : EReal) := by
  intro y
  obtain ⟨c, n, rfl⟩ : ∃ (c : Fin 128) (n : Fin 4096), y = ix2 c n := ⟨y 0, y 1, eq_ix2 y⟩
  obtain ⟨a, ha⟩ := h41 (ix1 c)
  obtain ⟨b, hb⟩ := h43 (ix1 c)
  obtain ⟨d, hd⟩ := h53 (ix2 c n)
  obtain ⟨e, he⟩ := flag_real ((v0 (ix3 0 0 n)).toNat = 4096)
  obtain ⟨f, hf⟩ := flag_real ((v0 (ix3 0 0 n)).toNat = 4097)
  refine ⟨d + (a * e + b * f), ?_⟩
  rw [pay12_apply, ha, hb, hd, he, hf, EReal.coe_add, EReal.coe_add, EReal.coe_mul, EReal.coe_mul]

/-- The main accumulation keeps real values real. -/
theorem pay16_real (i : grid0.Coords) (v0 : Vec Ideal S1x1x4096 .i32) (v27 : Vec Ideal S256x4096 .f32)
    (v28 : Vec Ideal S1024x256 .bf16)
    (h27 : ∀ y, ∃ x : ℝ, v27 y = (x : EReal)) (h28 : ∀ y, ∃ x : ℝ, v28 y = (x : EReal)) :
    ∀ y, ∃ x : ℝ, k0_pay16 (F := Ideal) i v0 v27 v28 y = (x : EReal) := by
  intro y
  obtain ⟨r, n, rfl⟩ : ∃ (r : Fin 256) (n : Fin 4096), y = ix2 r n := ⟨y 0, y 1, eq_ix2 y⟩
  obtain ⟨a, ha⟩ := h27 (ix2 r n)
  obtain ⟨b, hb⟩ := sum_real Finset.univ
    (fun s : Fin 1024 => v28 (ix2 s r) * (if (v0 (ix3 0 0 n)).toNat = (i 1).val * 1024 + s.val then (1 : EReal) else 0))
    (fun s => by
      obtain ⟨p, hp⟩ := h28 (ix2 s r)
      obtain ⟨q, hq⟩ := flag_real ((v0 (ix3 0 0 n)).toNat = (i 1).val * 1024 + s.val)
      exact ⟨p * q, by
        show v28 (ix2 s r) * (if (v0 (ix3 0 0 n)).toNat = (i 1).val * 1024 + s.val then (1 : EReal) else 0) = _
        rw [hp, hq, EReal.coe_mul]⟩)
  exact ⟨a + b, by rw [pay16_apply, ha, hb, EReal.coe_add]⟩

/-- On a real-valued block the second staged half is `0`. -/
theorem pay15_zero (v15 : Vec Ideal S1x1024x128 .f32) (h15 : ∀ y, ∃ x : ℝ, v15 y = (x : EReal))
    (s : Fin 1024) (c : Fin 128) : k0_pay15 (F := Ideal) v15 (ix2 s c) = 0 := by
  obtain ⟨x, hx⟩ := h15 (ix3 0 s c)
  rw [pay15_apply, hx, ← EReal.coe_sub, sub_self, EReal.coe_zero]

end Cert.KernelIdeal.PayAcc

end
-- ==== Proof.PayMlp.lean ====
import proofs.«422879_j30666066494039_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayMlp

open Cert.KernelIdeal Cert.KernelIdeal.Gen Idealize.ShloMosaic Idealize.ShloMosaic.ValueIdx
open scoped BigOperators

/-! # The final step's payloads read at an index (extended reals)

The last grid step computes a two-layer perceptron on the gathered block: a hidden layer
`relu(W₁ᵀ x + b₁)` and an output row `W₂ᵀ hidden + b₂`. Each product is taken as two matrix
products, one against the operand and one against the operand minus itself (the residue a
narrower format would leave); on real entries the second vanishes. -/

/-- Every entry of the array is a real number (neither infinity). -/
abbrev IsReal {ι : Type} (v : ι → EReal) : Prop := ∀ y, ∃ x : ℝ, v y = (x : EReal)

/-! ## Real entries: closure under the operations met here -/

/-- A real number minus itself is zero (false at the infinities, where the difference is `⊥`). -/
theorem sub_self_of_real {a : EReal} (h : ∃ x : ℝ, a = (x : EReal)) : a - a = 0 := by
  obtain ⟨x, rfl⟩ := h
  rw [← EReal.coe_sub, sub_self, EReal.coe_zero]

/-- The inclusion of the reals is monotone, so it commutes with `max`. -/
theorem coe_max_real (x y : ℝ) : ((max x y : ℝ) : EReal) = max (x : EReal) (y : EReal) :=
  EReal.coe_strictMono.monotone.map_max

/-- A finite sum of real numbers is a real number. -/
theorem real_sum {ι : Type} (s : Finset ι) (f : ι → EReal) (hf : ∀ i, ∃ x : ℝ, f i = (x : EReal)) :
    ∃ x : ℝ, ∑ i ∈ s, f i = (x : EReal) :=
  Finset.sum_induction f (fun a => ∃ x : ℝ, a = (x : EReal))
    (fun a b ha hb => by
      obtain ⟨x, hx⟩ := ha
      obtain ⟨y, hy⟩ := hb
      exact ⟨x + y, by rw [hx, hy, EReal.coe_add]⟩)
    ⟨0, EReal.coe_zero.symm⟩ (fun i _ => hf i)

/-! ## The two layout operations of a bias kept as a column -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The hidden layer's matrix product: `[256, 128]ᵀ · [256, 2048]`, axis 0 of both contracted -/

theorem lhs_hidden_0 (i : S128x2048.Idx) (q : dot_S256x128_S256x2048_S128x2048_0_0_1_1_n_n.contr.Idx) :
    (dot_S256x128_S256x2048_S128x2048_0_0_1_1_n_n.lhsIdx i q 0).val = (q ⟨0, by decide⟩).val :=
  dot_S256x128_S256x2048_S128x2048_0_0_1_1_n_n.lhsIdx_val_of_single rfl i q
theorem lhs_hidden_1 (i : S128x2048.Idx) (q : dot_S256x128_S256x2048_S128x2048_0_0_1_1_n_n.contr.Idx) :
    (dot_S256x128_S256x2048_S128x2048_0_0_1_1_n_n.lhsIdx i q 1).val = (i 0).val := by
  unfold DotDims.lhsIdx
  rw [dif_neg (show ¬(1 : Fin S256x128.rank) ∈ dot_S256x128_S256x2048_S128x2048_0_0_1_1_n_n.lhsBatch by decide), dif_pos (show (1 : Fin S256x128.rank) ∈ dot_S256x128_S256x2048_S128x2048_0_0_1_1_n_n.lhsNonContracting by decide)]
  rfl
theorem rhs_hidden_0 (i : S128x2048.Idx) (q : dot_S256x128_S256x2048_S128x2048_0_0_1_1_n_n.contr.Idx) :
    (dot_S256x128_S256x2048_S128x2048_0_0_1_1_n_n.rhsIdx i q 0).val = (q ⟨0, by decide⟩).val :=
  dot_S256x128_S256x2048_S128x2048_0_0_1_1_n_n.rhsIdx_val_of_single rfl i q
theorem rhs_hidden_1 (i : S128x2048.Idx) (q : dot_S256x128_S256x2048_S128x2048_0_0_1_1_n_n.contr.Idx) :
    (dot_S256x128_S256x2048_S128x2048_0_0_1_1_n_n.rhsIdx i q 1).val = (i 1).val := by
  unfold DotDims.rhsIdx
  rw [dif_neg (show ¬(1 : Fin S256x2048.rank) ∈ dot_S256x128_S256x2048_S128x2048_0_0_1_1_n_n.rhsBatch by decide), dif_pos (show (1 : Fin S256x2048.rank) ∈ dot_S256x128_S256x2048_S128x2048_0_0_1_1_n_n.rhsNonContracting by decide)]
  rfl

/-- Into a zero accumulator, the product's entry `(h, j)` is `∑ₖ w[k, h] · x[k, j]`. -/
theorem matmul_hidden_apply (w : FVec Ideal S256x128 .bf16) (x : FVec Ideal S256x2048 .bf16) (h : Fin 128) (j : Fin 2048) :
    matmul dot_S256x128_S256x2048_S128x2048_0_0_1_1_n_n none w x (constant (F := Ideal) S128x2048 .f32 0x00000000#32) (ix2 h j)
      = ∑ k : Fin 256, w (ix2 k h) * x (ix2 k j) := by
  simp only [matmul]
  rw [Ideal.matmul_constant_zero_apply, ← Equiv.sum_comp (contrEquiv1 dot_S256x128_S256x2048_S128x2048_0_0_1_1_n_n 256 rfl rfl).symm]
  refine Finset.sum_congr rfl fun k _ => ?_
  have hk := contrEquiv1_symm_val dot_S256x128_S256x2048_S128x2048_0_0_1_1_n_n 256 rfl rfl k
  have el : dot_S256x128_S256x2048_S128x2048_0_0_1_1_n_n.lhsIdx (ix2 h j) ((contrEquiv1 dot_S256x128_S256x2048_S128x2048_0_0_1_1_n_n 256 rfl rfl).symm k) = ix2 k h := funext fun a => Fin.ext (by
    match a with
    | ⟨0, _⟩ => exact (lhs_hidden_0 _ _).trans hk
    | ⟨1, _⟩ => exact lhs_hidden_1 _ _)
  have er : dot_S256x128_S256x2048_S128x2048_0_0_1_1_n_n.rhsIdx (ix2 h j) ((contrEquiv1 dot_S256x128_S256x2048_S128x2048_0_0_1_1_n_n 256 rfl rfl).symm k) = ix2 k j := funext fun a => Fin.ext (by
    match a with
    | ⟨0, _⟩ => exact (rhs_hidden_0 _ _).trans hk
    | ⟨1, _⟩ => exact rhs_hidden_1 _ _)
  rw [el, er]

/-! ## The output row's matrix product: `[128, 1]ᵀ · [128, 2048]`, axis 0 of both contracted -/

theorem lhs_out_0 (i : S1x2048.Idx) (q : dot_S128x1_S128x2048_S1x2048_0_0_1_1_n_n.contr.Idx) :
    (dot_S128x1_S128x2048_S1x2048_0_0_1_1_n_n.lhsIdx i q 0).val = (q ⟨0, by decide⟩).val :=
  dot_S128x1_S128x2048_S1x2048_0_0_1_1_n_n.lhsIdx_val_of_single rfl i q
theorem lhs_out_1 (i : S1x2048.Idx) (q : dot_S128x1_S128x2048_S1x2048_0_0_1_1_n_n.contr.Idx) :
    (dot_S128x1_S128x2048_S1x2048_0_0_1_1_n_n.lhsIdx i q 1).val = (i 0).val := by
  unfold DotDims.lhsIdx
  rw [dif_neg (show ¬(1 : Fin S128x1.rank) ∈ dot_S128x1_S128x2048_S1x2048_0_0_1_1_n_n.lhsBatch by decide), dif_pos (show (1 : Fin S128x1.rank) ∈ dot_S128x1_S128x2048_S1x2048_0_0_1_1_n_n.lhsNonContracting by decide)]
  rfl
theorem rhs_out_0 (i : S1x2048.Idx) (q : dot_S128x1_S128x2048_S1x2048_0_0_1_1_n_n.contr.Idx) :
    (dot_S128x1_S128x2048_S1x2048_0_0_1_1_n_n.rhsIdx i q 0).val = (q ⟨0, by decide⟩).val :=
  dot_S128x1_S128x2048_S1x2048_0_0_1_1_n_n.rhsIdx_val_of_single rfl i q
theorem rhs_out_1 (i : S1x2048.Idx) (q : dot_S128x1_S128x2048_S1x2048_0_0_1_1_n_n.contr.Idx) :
    (dot_S128x1_S128x2048_S1x2048_0_0_1_1_n_n.rhsIdx i q 1).val = (i 1).val := by
  unfold DotDims.rhsIdx
  rw [dif_neg (show ¬(1 : Fin S128x2048.rank) ∈ dot_S128x1_S128x2048_S1x2048_0_0_1_1_n_n.rhsBatch by decide), dif_pos (show (1 : Fin S128x2048.rank) ∈ dot_S128x1_S128x2048_S1x2048_0_0_1_1_n_n.rhsNonContracting by decide)]
  rfl

/-- Into a zero accumulator, the product's entry `(u, j)` is `∑ₖ w[k, u] · x[k, j]`. -/
theorem matmul_out_apply (w : FVec Ideal S128x1 .bf16) (x : FVec Ideal S128x2048 .bf16) (u : Fin 1) (j : Fin 2048) :
    matmul dot_S128x1_S128x2048_S1x2048_0_0_1_1_n_n none w x (constant (F := Ideal) S1x2048 .f32 0x00000000#32) (ix2 u j)
      = ∑ k : Fin 128, w (ix2 k u) * x (ix2 k j) := by
  simp only [matmul]
  rw [Ideal.matmul_constant_zero_apply, ← Equiv.sum_comp (contrEquiv1 dot_S128x1_S128x2048_S1x2048_0_0_1_1_n_n 128 rfl rfl).symm]
  refine Finset.sum_congr rfl fun k _ => ?_
  have hk := contrEquiv1_symm_val dot_S128x1_S128x2048_S1x2048_0_0_1_1_n_n 128 rfl rfl k
  have el : dot_S128x1_S128x2048_S1x2048_0_0_1_1_n_n.lhsIdx (ix2 u j) ((contrEquiv1 dot_S128x1_S128x2048_S1x2048_0_0_1_1_n_n 128 rfl rfl).symm k) = ix2 k u := funext fun a => Fin.ext (by
    match a with
    | ⟨0, _⟩ => exact (lhs_out_0 _ _).trans hk
    | ⟨1, _⟩ => exact lhs_out_1 _ _)
  have er : dot_S128x1_S128x2048_S1x2048_0_0_1_1_n_n.rhsIdx (ix2 u j) ((contrEquiv1 dot_S128x1_S128x2048_S1x2048_0_0_1_1_n_n 128 rfl rfl).symm k) = ix2 k j := funext fun a => Fin.ext (by
    match a with
    | ⟨0, _⟩ => exact (rhs_out_0 _ _).trans hk
    | ⟨1, _⟩ => exact rhs_out_1 _ _)
  rw [el, er]

/-! ## The sum of the two gathered halves, cut back into its halves -/

/-- The left half of the sum: columns `0 … 2047`. -/
theorem pay3_apply (v37 v38 : Vec Ideal S128x4096 .f32) (c : Fin 128) (j : Fin 2048) :
    k0_pay3 (F := Ideal) v37 v38 (ix2 c j) = v37 (ix2 c ⟨j.val, by omega⟩) + v38 (ix2 c ⟨j.val, by omega⟩) := by
  unfold k0_pay3 k0_pay2
  rw [shapeCast_self]
  refine (slice2_axis1_apply 0 _ _ c j ⟨j.val, by omega⟩ (by simp)).trans ?_
  rfl

/-- The right half of the sum: columns `2048 … 4095`. -/
theorem pay4_apply (v37 v38 : Vec Ideal S128x4096 .f32) (c : Fin 128) (j : Fin 2048) :
    k0_pay4 (F := Ideal) v37 v38 (ix2 c j) = v37 (ix2 c ⟨j.val + 2048, by omega⟩) + v38 (ix2 c ⟨j.val + 2048, by omega⟩) := by
  unfold k0_pay4 k0_pay2
  rw [shapeCast_self]
  refine (slice2_axis1_apply 2048 _ _ c j ⟨j.val + 2048, by omega⟩ (by simp [Nat.add_comm])).trans ?_
  rfl

/-! ## The hidden layer -/

/-- The hidden layer's entry `(h, j)`: the product against the operand plus the bias of row `h`,
clamped below at zero. The product against `x - x` adds nothing, the entries of `x` being real. -/
theorem pay5_apply (v48 : Vec Ideal S256x2048 .f32) (v53 : Vec Ideal S256x128 .f32) (v55 : Vec Ideal S128 .f32)
    (hv : IsReal v48) (h : Fin 128) (j : Fin 2048) :
    k0_pay5 (F := Ideal) v48 v53 v55 (ix2 h j)
      = max ((∑ k : Fin 256, v53 (ix2 k h) * v48 (ix2 k j)) + v55 (ix1 h)) 0 := by
  have hz : ∀ y, v48 y - v48 y = 0 := fun y => sub_self_of_real (hv y)
  unfold k0_pay5
  rw [maximumf_apply, addf_apply, addf_apply, matmul_hidden_apply, matmul_hidden_apply,
    broadcastTo_a1_ab_apply, shapeCast_a_a1_apply, broadcast_apply]
  simp only [truncf_apply, subf_apply, hz, mul_zero, Finset.sum_const_zero, add_zero, Ideal.ofBits_def,
    Ideal.ofBits_zero_f32]

/-- With real inputs, weights and biases the hidden layer is real. -/
theorem pay5_real (v48 : Vec Ideal S256x2048 .f32) (v53 : Vec Ideal S256x128 .f32) (v55 : Vec Ideal S128 .f32)
    (hv : IsReal v48) (hw : IsReal v53) (hb : IsReal v55) : IsReal (k0_pay5 (F := Ideal) v48 v53 v55) := by
  intro y
  obtain ⟨h, j, rfl⟩ : ∃ (h : Fin 128) (j : Fin 2048), y = ix2 h j := ⟨y 0, y 1, eq_ix2 y⟩
  rw [pay5_apply v48 v53 v55 hv h j]
  obtain ⟨s, hs⟩ := real_sum Finset.univ (fun k : Fin 256 => v53 (ix2 k h) * v48 (ix2 k j)) (fun k => by
    obtain ⟨a, ha⟩ := hw (ix2 k h)
    obtain ⟨b, hb'⟩ := hv (ix2 k j)
    exact ⟨a * b, by rw [ha, hb', EReal.coe_mul]⟩)
  obtain ⟨b, hb'⟩ := hb (ix1 h)
  exact ⟨max (s + b) 0, by rw [hs, hb', coe_max_real, EReal.coe_add, EReal.coe_zero]⟩

/-! ## The output row -/

/-- The output bias as a `[1, 1]` array. -/
theorem pay7_apply (v70 : Vec Ideal S1 .f32) (u w : Fin 1) : k0_pay7 (F := Ideal) v70 (ix2 u w) = v70 (ix1 u) := by
  unfold k0_pay7
  exact shapeCast_a_a1_apply _ _ u w

/-- The output row's product against the hidden layer. -/
theorem pay8_apply (v48 : Vec Ideal S256x2048 .f32) (v53 : Vec Ideal S256x128 .f32) (v55 : Vec Ideal S128 .f32)
    (v68 : Vec Ideal S128x1 .f32) (u : Fin 1) (j : Fin 2048) :
    k0_pay8 (F := Ideal) v48 v53 v55 v68 (ix2 u j)
      = ∑ h : Fin 128, v68 (ix2 h u) * k0_pay5 (F := Ideal) v48 v53 v55 (ix2 h j) := by
  unfold k0_pay8 k0_pay6
  dsimp only
  rw [matmul_out_apply]
  simp only [truncf_apply]

/-- The output row's product against the hidden layer minus itself: zero, the hidden layer being real. -/
theorem pay9_apply (v48 : Vec Ideal S256x2048 .f32) (v53 : Vec Ideal S256x128 .f32) (v55 : Vec Ideal S128 .f32)
    (v68 : Vec Ideal S128x1 .f32) (hp : IsReal (k0_pay5 (F := Ideal) v48 v53 v55)) (u : Fin 1) (j : Fin 2048) :
    k0_pay9 (F := Ideal) v48 v53 v55 v68 (ix2 u j) = 0 := by
  have hz : ∀ y, k0_pay5 (F := Ideal) v48 v53 v55 y - k0_pay5 (F := Ideal) v48 v53 v55 y = 0 :=
    fun y => sub_self_of_real (hp y)
  unfold k0_pay9 k0_pay6
  dsimp only
  rw [matmul_out_apply]
  simp only [truncf_apply, subf_apply, hz, mul_zero, Finset.sum_const_zero]

/-- The stored row: the two products and the bias added up, under a leading unit axis. -/
theorem pay1_apply (v71 : FVec Ideal S1x1 .f32) (v72 v73 : FVec Ideal S1x2048 .f32) (j : Fin 2048) :
    k0_pay1 (F := Ideal) v71 v72 v73 (ix3 (0 : Fin 1) (0 : Fin 1) j)
      = (v72 (ix2 (0 : Fin 1) j) + v73 (ix2 (0 : Fin 1) j)) + v71 (ix2 (0 : Fin 1) (0 : Fin 1)) := by
  unfold k0_pay1
  rw [shapeCast_ab_1ab_apply, addf_apply, addf_apply, broadcastTo_a1_ab_apply]

/-- The value the last step stores at column `j`: the second layer applied to the hidden layer. -/
theorem final_apply (v48 : Vec Ideal S256x2048 .f32) (v53 : Vec Ideal S256x128 .f32) (v55 : Vec Ideal S128 .f32)
    (v68 : Vec Ideal S128x1 .f32) (v70 : Vec Ideal S1 .f32)
    (hv : IsReal v48) (hw : IsReal v53) (hb : IsReal v55) (j : Fin 2048) :
    k0_pay1 (F := Ideal) (k0_pay7 v70) (k0_pay8 v48 v53 v55 v68) (k0_pay9 v48 v53 v55 v68) (ix3 (0 : Fin 1) (0 : Fin 1) j)
      = (∑ h : Fin 128, v68 (ix2 h (0 : Fin 1)) * k0_pay5 (F := Ideal) v48 v53 v55 (ix2 h j)) + v70 (ix1 (0 : Fin 1)) := by
  rw [pay1_apply, pay7_apply, pay8_apply, pay9_apply v48 v53 v55 v68 (pay5_real v48 v53 v55 hv hw hb), add_zero]

end Cert.KernelIdeal.PayMlp

end
-- ==== Proof.KI.Pieces.lean ====
/-
  What each of the kernel body's three cases leaves in the accumulator and in the output block, read at an index, over
  the extended reals.

  The accumulator is 256 x 4096. Every chunk forms the stacked operand (1024 x 256: the staged block in its first 128
  columns, the block minus itself in the others), multiplies its transpose by the one-hot matrix "the word at column n
  is the global number of row s of the chunk", and adds the product to the running value. The first chunk of a gene runs
  over the cleared accumulator with the two special rows added in its rows below 128; a middle and the last chunk run
  over what the chunk before left. The last chunk then adds the accumulator's upper and lower row halves, stacks the
  left column half of that sum over its right column half (256 x 2048), and applies the two-layer perceptron to it:
  the hidden layer clamped below at zero, then the output row.

  Each buffer's final contents are the payloads of its stores laid over one another, the last store on top; a load that
  follows stores reads the same overlay through its rectangle. Which payload an index sees is decided by which
  rectangle holds it: rows below 128 or not, columns below 128 or not. The statements are first proved over arbitrary
  buffers and contents of the literal types, then read at the grid point's blocks.
-/
import proofs.«422879_j30666066494039_3_alg».proof.Proof.KI.Frame
import proofs.«422879_j30666066494039_3_alg».proof.Proof.PayAcc
import proofs.«422879_j30666066494039_3_alg».proof.Proof.PayMlp

set_option maxRecDepth 16384

noncomputable section

open scoped BigOperators

namespace Cert.KernelIdeal.Pieces

open Cert.KernelIdeal Cert.KernelIdeal.Gen Cert.KernelIdeal.Fr
open Idealize.ShloMosaic Idealize.ShloMosaic.ValueIdx Idealize.ShloMosaic.Tactic

variable (m : (ℓ : Loc nD τ sig) → Buf (Elt Ideal) ℓ)

/-! ## Zero offsets -/

theorem hz1 : (![0] : Fin 1 → ℕ) = fun _ => 0 := funext fun a => by fin_cases a <;> rfl
theorem hz2 : (![0, 0] : Fin 2 → ℕ) = fun _ => 0 := funext fun a => by fin_cases a <;> rfl
theorem hz3 : (![0, 0, 0] : Fin 3 → ℕ) = fun _ => 0 := funext fun a => by fin_cases a <;> rfl

/-! ## Where the slice rectangles put their indices -/

/-- The left half of the columns of the 1024 x 256 work buffer. -/
theorem colsLo_emb (s : Fin 1024) (q : Fin 128) :
    (Rect.unit (s := S1024x256) ![0, 0] S1024x128.size inb_S1024x256_S1024x128_0_0).emb (ix2 s q) = ix2 s ⟨q.val, by omega⟩ :=
  funext fun a => Fin.ext (by
    match a with
    | ⟨0, _⟩ => show 0 + 1 * s.val = s.val; omega
    | ⟨1, _⟩ => show 0 + 1 * q.val = q.val; omega)

/-- The right half of its columns. -/
theorem colsHi_emb (s : Fin 1024) (q : Fin 128) :
    (Rect.unit (s := S1024x256) ![0, 128] S1024x128.size inb_S1024x256_S1024x128_0_128).emb (ix2 s q) = ix2 s ⟨q.val + 128, by omega⟩ :=
  funext fun a => Fin.ext (by
    match a with
    | ⟨0, _⟩ => show 0 + 1 * s.val = s.val; omega
    | ⟨1, _⟩ => show 128 + 1 * q.val = q.val + 128; omega)

/-- The upper half of the rows of the accumulator. -/
theorem accLo_emb (p : Fin 128) (n : Fin 4096) :
    (Rect.unit (s := S256x4096) ![0, 0] S128x4096.size inb_S256x4096_S128x4096_0_0).emb (ix2 p n) = ix2 ⟨p.val, by omega⟩ n :=
  funext fun a => Fin.ext (by
    match a with
    | ⟨0, _⟩ => show 0 + 1 * p.val = p.val; omega
    | ⟨1, _⟩ => show 0 + 1 * n.val = n.val; omega)

/-- The lower half of its rows. -/
theorem accHi_emb (p : Fin 128) (n : Fin 4096) :
    (Rect.unit (s := S256x4096) ![128, 0] S128x4096.size inb_S256x4096_S128x4096_128_0).emb (ix2 p n) = ix2 ⟨p.val + 128, by omega⟩ n :=
  funext fun a => Fin.ext (by
    match a with
    | ⟨0, _⟩ => show 128 + 1 * p.val = p.val + 128; omega
    | ⟨1, _⟩ => show 0 + 1 * n.val = n.val; omega)

/-- The upper half of the rows of the 256 x 2048 work buffer. -/
theorem cmbLo_emb (p : Fin 128) (j : Fin 2048) :
    (Rect.unit (s := S256x2048) ![0, 0] S128x2048.size inb_S256x2048_S128x2048_0_0).emb (ix2 p j) = ix2 ⟨p.val, by omega⟩ j :=
  funext fun a => Fin.ext (by
    match a with
    | ⟨0, _⟩ => show 0 + 1 * p.val = p.val; omega
    | ⟨1, _⟩ => show 0 + 1 * j.val = j.val; omega)

/-- The lower half of its rows. -/
theorem cmbHi_emb (p : Fin 128) (j : Fin 2048) :
    (Rect.unit (s := S256x2048) ![128, 0] S128x2048.size inb_S256x2048_S128x2048_128_0).emb (ix2 p j) = ix2 ⟨p.val + 128, by omega⟩ j :=
  funext fun a => Fin.ext (by
    match a with
    | ⟨0, _⟩ => show 128 + 1 * p.val = p.val + 128; omega
    | ⟨1, _⟩ => show 0 + 1 * j.val = j.val; omega)

/-! ## The specification's pieces -/

/-- The one-hot factor: the word at column `n` is the global number of row `s` of the chunk. -/
def ohAt (t : Fin cfg0.N) (x3 : Vec Ideal S1x1x4096 .i32) (s : Fin 1024) (n : Fin 4096) : EReal :=
  if (x3 (ix3 0 0 n)).toNat = ((grid0.coords t) 1).val * 1024 + s.val then 1 else 0

/-- The stacked operand: the block's entry in the first 128 columns, the entry minus itself in the others. -/
def catAt (x0 : Vec Ideal S1x1024x128 .f32) (s : Fin 1024) (r : Fin 256) : EReal :=
  if h : r.val < 128 then x0 (ix3 0 s ⟨r.val, h⟩) else x0 (ix3 0 s ⟨r.val - 128, by omega⟩) - x0 (ix3 0 s ⟨r.val - 128, by omega⟩)

/-- The accumulator after the reset and the two special rows: the rows below 128 hold the two row vectors
    weighted by the indicators of the words 4096 and 4097, the others zero. -/
def accInit (x1 x2 : Vec Ideal S128 .f32) (x3 : Vec Ideal S1x1x4096 .i32) (r : Fin 256) (n : Fin 4096) : EReal :=
  if h : r.val < 128 then 0 + (x1 (ix1 ⟨r.val, h⟩) * (if (x3 (ix3 0 0 n)).toNat = 4096 then (1 : EReal) else 0) + x2 (ix1 ⟨r.val, h⟩) * (if (x3 (ix3 0 0 n)).toNat = 4097 then (1 : EReal) else 0)) else 0

/-- The accumulator's upper and lower row halves added, the sum's left column half stacked over its right column half:
    rows below 128 read columns `j`, the others columns `j + 2048`. -/
def comb2At (acc : Vec Ideal S256x4096 .f32) (k : Fin 256) (j : Fin 2048) : EReal :=
  if h : k.val < 128 then acc (ix2 ⟨k.val, by omega⟩ ⟨j.val, by omega⟩) + acc (ix2 ⟨k.val + 128, by omega⟩ ⟨j.val, by omega⟩)
  else acc (ix2 ⟨k.val - 128, by omega⟩ ⟨j.val + 2048, by omega⟩) + acc (ix2 k ⟨j.val + 2048, by omega⟩)

/-! ## What the body's loads of its scratch buffers read -/

/-- The stacked operand the accumulation multiplies by: what the two column stores leave in the 1024 x 256 work buffer. -/
def stackOf (v : View sig .tc .vmem S1024x256 .bf16) (x0 : Vec Ideal S1x1024x128 .f32) : Vec Ideal S1024x256 .bf16 :=
  v.readCov
    [⟨Rect.unit (s := S1024x256) ![0, 128] S1024x128.size inb_S1024x256_S1024x128_0_128, k0_pay15 (F := Ideal) x0⟩,
      ⟨Rect.unit (s := S1024x256) ![0, 0] S1024x128.size inb_S1024x256_S1024x128_0_0, k0_pay14 (F := Ideal) x0⟩]
    (Rect.unit (s := S1024x256) ![0, 0] S1024x256.size inb_S1024x256_S1024x256_0_0).toLoadRect

theorem stackOf_apply (v : View sig .tc .vmem S1024x256 .bf16) (x0 : Vec Ideal S1x1024x128 .f32) (s : Fin 1024) (r : Fin 256) :
    stackOf v x0 (ix2 s r) = catAt x0 s r := by
  unfold stackOf catAt
  rw [View.readCov_eq_canon']
  show View.ld (View.canon _) (Rect.unit ![0, 0] S1024x256.size inb_S1024x256_S1024x256_0_0) (ix2 s r) = _
  rw [View.ld_unit_zero (S := S1024x256) hz2]
  by_cases h : r.val < 128
  · rw [dif_pos h]
    rw [View.canon_cons_of_not_mem _ _ (by
      rw [Rect.mem_set_unit]
      intro H
      have h1 := (H 1).1
      change 128 ≤ r.val at h1
      omega)]
    refine (congrArg (View.canon _) (colsLo_emb s ⟨r.val, h⟩).symm).trans ?_
    exact (View.canon_cons_emb _ _ _ _).trans (PayAcc.pay14_apply x0 s ⟨r.val, h⟩)
  · rw [dif_neg h]
    have hr : r.val - 128 < 128 := by omega
    have e : ix2 s r = ix2 s (⟨(⟨r.val - 128, hr⟩ : Fin 128).val + 128, by omega⟩ : Fin 256) :=
      congrArg (ix2 s) (Fin.ext (by show r.val = r.val - 128 + 128; omega))
    refine (congrArg (View.canon _) (e.trans (colsHi_emb s ⟨r.val - 128, hr⟩).symm)).trans ?_
    exact (View.canon_cons_emb _ _ _ _).trans (PayAcc.pay15_apply x0 s ⟨r.val - 128, hr⟩)

/-- The accumulator as the first chunk's accumulation reads it: after the reset and the store of the two special rows. -/
def initOf (v : View sig .tc .vmem S256x4096 .f32) (x1 x2 : Vec Ideal S128 .f32) (x3 : Vec Ideal S1x1x4096 .i32) : Vec Ideal S256x4096 .f32 :=
  v.readCov
    [⟨Rect.unit (s := S256x4096) ![0, 0] S128x4096.size inb_S256x4096_S128x4096_0_0,
        k0_pay12 (F := Ideal) x3 x1 x2
          (v.readCov [⟨Rect.unit (s := S256x4096) ![0, 0] S256x4096.size inb_S256x4096_S256x4096_0_0, k0_pay11 (F := Ideal)⟩]
            (Rect.unit (s := S256x4096) ![0, 0] S128x4096.size inb_S256x4096_S128x4096_0_0).toLoadRect)⟩,
      ⟨Rect.unit (s := S256x4096) ![0, 0] S256x4096.size inb_S256x4096_S256x4096_0_0, k0_pay11 (F := Ideal)⟩]
    (Rect.unit (s := S256x4096) ![0, 0] S256x4096.size inb_S256x4096_S256x4096_0_0).toLoadRect

theorem initOf_apply (v : View sig .tc .vmem S256x4096 .f32) (x1 x2 : Vec Ideal S128 .f32) (x3 : Vec Ideal S1x1x4096 .i32)
    (r : Fin 256) (n : Fin 4096) : initOf v x1 x2 x3 (ix2 r n) = accInit x1 x2 x3 r n := by
  unfold initOf accInit
  rw [View.readCov_eq_canon']
  show View.ld (View.canon _) (Rect.unit ![0, 0] S256x4096.size inb_S256x4096_S256x4096_0_0) (ix2 r n) = _
  rw [View.ld_unit_zero (S := S256x4096) hz2]
  by_cases h : r.val < 128
  · rw [dif_pos h]
    refine (congrArg (View.canon _) (accLo_emb ⟨r.val, h⟩ n).symm).trans ?_
    refine (View.canon_cons_emb _ _ _ _).trans ?_
    refine (PayAcc.pay12_apply x3 x1 x2 _ ⟨r.val, h⟩ n).trans ?_
    refine congrArg (· + _) ?_
    rw [View.readCov_eq_canon', View.canon_unit_zero (S := S256x4096) hz2]
    exact PayAcc.pay11_apply _
  · rw [dif_neg h]
    rw [View.canon_cons_of_not_mem _ _ (by
      rw [Rect.mem_set_unit]
      intro H
      have h1 := (H 0).2
      change r.val < 0 + 128 at h1
      omega)]
    rw [View.canon_unit_zero (S := S256x4096) hz2]
    exact PayAcc.pay11_apply _

/-- One chunk's accumulation over a running value `xs0`. -/
def accStep (v : View sig .tc .vmem S1024x256 .bf16) (i : grid0.Coords) (x0 : Vec Ideal S1x1024x128 .f32)
    (x3 : Vec Ideal S1x1x4096 .i32) (xs0 : Vec Ideal S256x4096 .f32) : Vec Ideal S256x4096 .f32 :=
  k0_pay16 (F := Ideal) i x3 xs0 (stackOf v x0)

theorem accStep_apply (v : View sig .tc .vmem S1024x256 .bf16) (i : grid0.Coords) (x0 : Vec Ideal S1x1024x128 .f32)
    (x3 : Vec Ideal S1x1x4096 .i32) (xs0 : Vec Ideal S256x4096 .f32) (r : Fin 256) (n : Fin 4096) :
    accStep v i x0 x3 xs0 (ix2 r n)
      = xs0 (ix2 r n) + ∑ s : Fin 1024, catAt x0 s r * (if (x3 (ix3 0 0 n)).toNat = (i 1).val * 1024 + s.val then (1 : EReal) else 0) := by
  unfold accStep
  refine (PayAcc.pay16_apply i x3 xs0 (stackOf v x0) r n).trans ?_
  exact congrArg (xs0 (ix2 r n) + ·) (Finset.sum_congr rfl fun s _ => congrArg (· * _) (stackOf_apply v x0 s r))

/-! ## The last chunk's perceptron -/

/-- Rows 0 … 127 of the accumulator, loaded after the chunk's store of `P`. -/
def rowsLo (v : View sig .tc .vmem S256x4096 .f32) (P : Vec Ideal S256x4096 .f32) : Vec Ideal S128x4096 .f32 :=
  v.readCov [⟨Rect.unit (s := S256x4096) ![0, 0] S256x4096.size inb_S256x4096_S256x4096_0_0, P⟩]
    (Rect.unit (s := S256x4096) ![0, 0] S128x4096.size inb_S256x4096_S128x4096_0_0).toLoadRect

/-- Rows 128 … 255 of it. -/
def rowsHi (v : View sig .tc .vmem S256x4096 .f32) (P : Vec Ideal S256x4096 .f32) : Vec Ideal S128x4096 .f32 :=
  v.readCov [⟨Rect.unit (s := S256x4096) ![0, 0] S256x4096.size inb_S256x4096_S256x4096_0_0, P⟩]
    (Rect.unit (s := S256x4096) ![128, 0] S128x4096.size inb_S256x4096_S128x4096_128_0).toLoadRect

theorem rowsLo_apply (v : View sig .tc .vmem S256x4096 .f32) (P : Vec Ideal S256x4096 .f32) (p : Fin 128) (n : Fin 4096) :
    rowsLo v P (ix2 p n) = P (ix2 ⟨p.val, by omega⟩ n) := by
  unfold rowsLo
  rw [View.readCov_eq_canon', View.canon_unit_zero (S := S256x4096) hz2]
  exact congrArg P (accLo_emb p n)

theorem rowsHi_apply (v : View sig .tc .vmem S256x4096 .f32) (P : Vec Ideal S256x4096 .f32) (p : Fin 128) (n : Fin 4096) :
    rowsHi v P (ix2 p n) = P (ix2 ⟨p.val + 128, by omega⟩ n) := by
  unfold rowsHi
  rw [View.readCov_eq_canon', View.canon_unit_zero (S := S256x4096) hz2]
  exact congrArg P (accHi_emb p n)

/-- The perceptron's input: what the two row stores leave in the 256 x 2048 work buffer. -/
def combOf (v11 : View sig .tc .vmem S256x4096 .f32) (v13 : View sig .tc .vmem S256x2048 .f32) (P : Vec Ideal S256x4096 .f32) :
    Vec Ideal S256x2048 .f32 :=
  v13.readCov
    [⟨Rect.unit (s := S256x2048) ![128, 0] S128x2048.size inb_S256x2048_S128x2048_128_0, k0_pay4 (F := Ideal) (rowsLo v11 P) (rowsHi v11 P)⟩,
      ⟨Rect.unit (s := S256x2048) ![0, 0] S128x2048.size inb_S256x2048_S128x2048_0_0, k0_pay3 (F := Ideal) (rowsLo v11 P) (rowsHi v11 P)⟩]
    (Rect.unit (s := S256x2048) ![0, 0] S256x2048.size inb_S256x2048_S256x2048_0_0).toLoadRect

theorem combOf_apply (v11 : View sig .tc .vmem S256x4096 .f32) (v13 : View sig .tc .vmem S256x2048 .f32) (P : Vec Ideal S256x4096 .f32)
    (k : Fin 256) (j : Fin 2048) : combOf v11 v13 P (ix2 k j) = comb2At P k j := by
  unfold combOf comb2At
  rw [View.readCov_eq_canon']
  show View.ld (View.canon _) (Rect.unit ![0, 0] S256x2048.size inb_S256x2048_S256x2048_0_0) (ix2 k j) = _
  rw [View.ld_unit_zero (S := S256x2048) hz2]
  by_cases h : k.val < 128
  · rw [dif_pos h]
    rw [View.canon_cons_of_not_mem _ _ (by
      rw [Rect.mem_set_unit]
      intro H
      have h1 := (H 0).1
      change 128 ≤ k.val at h1
      omega)]
    refine (congrArg (View.canon _) (cmbLo_emb ⟨k.val, h⟩ j).symm).trans ?_
    refine (View.canon_cons_emb _ _ _ _).trans ?_
    refine (PayMlp.pay3_apply _ _ ⟨k.val, h⟩ j).trans ?_
    rw [rowsLo_apply, rowsHi_apply]
  · rw [dif_neg h]
    have hk : k.val - 128 < 128 := by omega
    have e : k = (⟨(⟨k.val - 128, hk⟩ : Fin 128).val + 128, by omega⟩ : Fin 256) :=
      Fin.ext (by show k.val = k.val - 128 + 128; omega)
    refine (congrArg (fun a => View.canon _ (ix2 a j)) e).trans ?_
    refine (congrArg (View.canon _) (cmbHi_emb ⟨k.val - 128, hk⟩ j).symm).trans ?_
    refine (View.canon_cons_emb _ _ _ _).trans ?_
    refine (PayMlp.pay4_apply _ _ ⟨k.val - 128, hk⟩ j).trans ?_
    rw [rowsLo_apply, rowsHi_apply]
    exact congrArg (_ + ·) (congrArg (fun a => P (ix2 a _)) e.symm)

/-- The sum of two real numbers is a real number. -/
theorem add_real {a b : EReal} (ha : ∃ x : ℝ, a = (x : EReal)) (hb : ∃ x : ℝ, b = (x : EReal)) : ∃ x : ℝ, a + b = (x : EReal) := by
  obtain ⟨x, rfl⟩ := ha
  obtain ⟨y, rfl⟩ := hb
  exact ⟨x + y, (EReal.coe_add x y).symm⟩

/-- Over a real accumulator the perceptron's input is real: each entry is the sum of two of the accumulator's. -/
theorem combOf_real (v11 : View sig .tc .vmem S256x4096 .f32) (v13 : View sig .tc .vmem S256x2048 .f32) (P : Vec Ideal S256x4096 .f32)
    (hP : PayMlp.IsReal P) : PayMlp.IsReal (combOf v11 v13 P) := by
  intro y
  obtain ⟨k, j, rfl⟩ : ∃ (k : Fin 256) (j : Fin 2048), y = ix2 k j := ⟨y 0, y 1, eq_ix2 y⟩
  rw [combOf_apply]
  unfold comb2At
  by_cases h : k.val < 128
  · rw [dif_pos h]; exact add_real (hP _) (hP _)
  · rw [dif_neg h]; exact add_real (hP _) (hP _)

/-- What the last chunk stores into the output block, over the accumulator value `P` it reads back. -/
def outOf (v11 : View sig .tc .vmem S256x4096 .f32) (v13 : View sig .tc .vmem S256x2048 .f32) (P : Vec Ideal S256x4096 .f32)
    (x4 : Vec Ideal S256x128 .f32) (x5 : Vec Ideal S128 .f32) (x6 : Vec Ideal S128x1 .f32) (x7 : Vec Ideal S1 .f32) : Vec Ideal S1x1x2048 .f32 :=
  k0_pay1 (F := Ideal) (k0_pay7 x7) (k0_pay8 (combOf v11 v13 P) x4 x5 x6) (k0_pay9 (combOf v11 v13 P) x4 x5 x6)

theorem outOf_apply (v11 : View sig .tc .vmem S256x4096 .f32) (v13 : View sig .tc .vmem S256x2048 .f32) (P : Vec Ideal S256x4096 .f32)
    (x4 : Vec Ideal S256x128 .f32) (x5 : Vec Ideal S128 .f32) (x6 : Vec Ideal S128x1 .f32) (x7 : Vec Ideal S1 .f32)
    (hP : PayMlp.IsReal P) (hW : PayMlp.IsReal x4) (hb : PayMlp.IsReal x5) (j : Fin 2048) :
    outOf v11 v13 P x4 x5 x6 x7 (ix3 0 0 j)
      = (∑ h : Fin 128, x6 (ix2 h 0) * max ((∑ k : Fin 256, x4 (ix2 k h) * comb2At P k j) + x5 (ix1 h)) 0) + x7 (ix1 0) := by
  unfold outOf
  refine (PayMlp.final_apply (combOf v11 v13 P) x4 x5 x6 x7 (combOf_real v11 v13 P hP) hW hb j).trans ?_
  refine congrArg (· + x7 (ix1 0)) (Finset.sum_congr rfl fun h _ => congrArg (x6 (ix2 h 0) * ·) ?_)
  refine (PayMlp.pay5_apply (combOf v11 v13 P) x4 x5 (combOf_real v11 v13 P hP) h j).trans ?_
  exact congrArg (fun z => max (z + x5 (ix1 h)) 0)
    (Finset.sum_congr rfl fun k _ => congrArg (x4 (ix2 k h) * ·) (combOf_apply v11 v13 P k j))
/-! ## The accumulator's pieces in each case, over any buffers and contents -/

section Runs

variable (c : Dev nD) (i : grid0.Coords)
  (arg2 : Memref sig .tc .vmem S1x1024x128 .f32) (harg2 : arg2.IsWhole) (arg3 : Memref sig .tc .vmem S128 .f32) (harg3 : arg3.IsWhole)
  (arg4 : Memref sig .tc .vmem S128 .f32) (harg4 : arg4.IsWhole) (arg5 : Memref sig .tc .vmem S1x1x4096 .i32) (harg5 : arg5.IsWhole)
  (arg6 : Memref sig .tc .vmem S256x128 .f32) (harg6 : arg6.IsWhole) (arg7 : Memref sig .tc .vmem S128 .f32) (harg7 : arg7.IsWhole)
  (arg8 : Memref sig .tc .vmem S128x1 .f32) (harg8 : arg8.IsWhole) (arg9 : Memref sig .tc .vmem S1 .f32) (harg9 : arg9.IsWhole)
  (arg10 : Memref sig .tc .vmem S1x1x2048 .f32) (harg10 : arg10.IsWhole) (arg11 : Memref sig .tc .vmem S256x4096 .f32) (harg11 : arg11.IsWhole)
  (arg12 : Memref sig .tc .vmem S1024x256 .bf16) (harg12 : arg12.IsWhole) (arg13 : Memref sig .tc .vmem S256x2048 .f32) (harg13 : arg13.IsWhole)
  (x0 : Vec Ideal S1x1024x128 .f32) (x1 : Vec Ideal S128 .f32) (x2 : Vec Ideal S128 .f32) (x3 : Vec Ideal S1x1x4096 .i32)
  (x4 : Vec Ideal S256x128 .f32) (x5 : Vec Ideal S128 .f32) (x6 : Vec Ideal S128x1 .f32) (x7 : Vec Ideal S1 .f32)

/-- First chunk: the reset, the special rows, then the accumulation over what those two left. -/
theorem accA_eq (hc0 : cond0_0 i) (hc1 : ¬cond0_1 i) :
    View.canon (kernelRun0_A (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1
      = accStep arg12.view i x0 x3 (initOf arg11.view x1 x2 x3) := by
  unfold accStep initOf stackOf kernelRun0_A
  dsimp only
  sl_unfold_words
  rw [View.canon_cons_unit_zero (S := S256x4096) hz2]
  simp only [View.readAt_eq_ld, Memref.IsWhole.read_unread, View.ld_unit_zero (S := S1x1x4096) hz3,
    View.ld_unit_zero (S := S1x1024x128) hz3, View.ld_unit_zero (S := S128) hz1]

/-- Middle chunk: the accumulation over what the chunk before left. -/
theorem accB_eq (hc0 : ¬cond0_0 i) (hc1 : ¬cond0_1 i) (xs0 : Vec Ideal S256x4096 .f32) :
    View.canon (kernelRun0_B (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.1
      = accStep arg12.view i x0 x3 xs0 := by
  unfold accStep stackOf kernelRun0_B
  dsimp only
  sl_unfold_words
  rw [View.canon_unit_zero (S := S256x4096) hz2]
  simp only [View.readAt_eq_ld, Memref.IsWhole.read_unread, View.ld_unit_zero (S := S1x1x4096) hz3,
    View.ld_unit_zero (S := S1x1024x128) hz3, View.ld_unit_zero (S := S256x4096) hz2]

/-- Last chunk: the same accumulation. -/
theorem accC_eq (hc0 : ¬cond0_0 i) (hc1 : cond0_1 i) (xs0 : Vec Ideal S256x4096 .f32) :
    View.canon (kernelRun0_C (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0).2.1
      = accStep arg12.view i x0 x3 xs0 := by
  unfold accStep stackOf kernelRun0_C
  dsimp only
  sl_unfold_words
  rw [View.canon_unit_zero (S := S256x4096) hz2]
  simp only [View.readAt_eq_ld, Memref.IsWhole.read_unread, View.ld_unit_zero (S := S1x1x4096) hz3,
    View.ld_unit_zero (S := S1x1024x128) hz3, View.ld_unit_zero (S := S256x4096) hz2]

/-- Last chunk: the output block's one piece, over what this chunk's accumulation left. -/
theorem outC_eq (hc0 : ¬cond0_0 i) (hc1 : cond0_1 i) (xs0 : Vec Ideal S256x4096 .f32) :
    View.canon (kernelRun0_C (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0).1
      = outOf arg11.view arg13.view (accStep arg12.view i x0 x3 xs0) x4 x5 x6 x7 := by
  unfold outOf combOf rowsLo rowsHi accStep stackOf kernelRun0_C
  dsimp only
  sl_unfold_words
  rw [View.canon_unit_zero (S := S1x1x2048) hz3]
  simp only [View.readAt_eq_ld, Memref.IsWhole.read_unread, View.ld_unit_zero (S := S1x1x4096) hz3,
    View.ld_unit_zero (S := S1x1024x128) hz3, View.ld_unit_zero (S := S256x4096) hz2, View.ld_unit_zero (S := S256x128) hz2,
    View.ld_unit_zero (S := S128) hz1, View.ld_unit_zero (S := S128x1) hz2, View.ld_unit_zero (S := S1) hz1]

end Runs

/-! ## The three cases at a grid point -/

/-- The point's input blocks under their literal types. -/
abbrev xb0 (c : Dev nD) (t : Fin cfg0.N) : Vec Ideal S1x1024x128 .f32 := iblk m c 0 t
abbrev xb1 (c : Dev nD) (t : Fin cfg0.N) : Vec Ideal S128 .f32 := iblk m c 1 t
abbrev xb2 (c : Dev nD) (t : Fin cfg0.N) : Vec Ideal S128 .f32 := iblk m c 2 t
abbrev xb3 (c : Dev nD) (t : Fin cfg0.N) : Vec Ideal S1x1x4096 .i32 := iblk m c 3 t
abbrev xb4 (c : Dev nD) (t : Fin cfg0.N) : Vec Ideal S256x128 .f32 := iblk m c 4 t
abbrev xb5 (c : Dev nD) (t : Fin cfg0.N) : Vec Ideal S128 .f32 := iblk m c 5 t
abbrev xb6 (c : Dev nD) (t : Fin cfg0.N) : Vec Ideal S128x1 .f32 := iblk m c 6 t
abbrev xb7 (c : Dev nD) (t : Fin cfg0.N) : Vec Ideal S1 .f32 := iblk m c 7 t

/-- The first chunk leaves the special rows plus the chunk's one-hot product. -/
theorem soutA_apply (c : Dev nD) (t : Fin cfg0.N) (h0 : t.val % 4 = 0) (h1 : ¬t.val % 4 = 3) (r : Fin 256) (n : Fin 4096) :
    soutA m c t h0 h1 (ix2 r n)
      = accInit (xb1 m c t) (xb2 m c t) (xb3 m c t) r n + ∑ s : Fin 1024, catAt (xb0 m c t) s r * ohAt t (xb3 m c t) s n := by
  unfold ohAt soutA
  rw [View.read_writes_eq_canon _ _ _ (scover0_A_0 m c t h0 h1)]
  refine (congrFun (accA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (xb0 m c t) (xb1 m c t) (xb2 m c t) (xb3 m c t) (xb4 m c t) (xb5 m c t) (xb6 m c t) (xb7 m c t) ((hcond0_0 t).mpr h0) (fun h => h1 ((hcond0_1 t).mp h))) (ix2 r n)).trans ?_
  refine (accStep_apply scM0_1.view (grid0.coords t) (xb0 m c t) (xb3 m c t) (initOf scM0_0.view (xb1 m c t) (xb2 m c t) (xb3 m c t)) r n).trans ?_
  rw [initOf_apply scM0_0.view (xb1 m c t) (xb2 m c t) (xb3 m c t) r n]

/-- A middle chunk adds its one-hot product to what the chunk before left. -/
theorem soutB_apply (c : Dev nD) (t : Fin cfg0.N) (h0 : ¬t.val % 4 = 0) (h1 : ¬t.val % 4 = 3) (xs0 : Vec Ideal S256x4096 .f32)
    (r : Fin 256) (n : Fin 4096) :
    soutB m c t h0 h1 xs0 (ix2 r n) = xs0 (ix2 r n) + ∑ s : Fin 1024, catAt (xb0 m c t) s r * ohAt t (xb3 m c t) s n := by
  unfold ohAt soutB
  rw [View.read_writes_eq_canon _ _ _ (scover0_B_0 m c t h0 h1 xs0)]
  refine (congrFun (accB_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (xb0 m c t) (xb1 m c t) (xb2 m c t) (xb3 m c t) (xb4 m c t) (xb5 m c t) (xb6 m c t) (xb7 m c t) (fun h => h0 ((hcond0_0 t).mp h)) (fun h => h1 ((hcond0_1 t).mp h)) xs0) (ix2 r n)).trans ?_
  exact accStep_apply scM0_1.view (grid0.coords t) (xb0 m c t) (xb3 m c t) xs0 r n

/-- What the last chunk leaves in the accumulator, as one function. -/
theorem soutC_eq (c : Dev nD) (t : Fin cfg0.N) (h0 : ¬t.val % 4 = 0) (h1 : t.val % 4 = 3) (xs0 : Vec Ideal S256x4096 .f32) :
    soutC m c t h0 h1 xs0 = accStep scM0_1.view (grid0.coords t) (xb0 m c t) (xb3 m c t) xs0 := by
  unfold soutC
  rw [View.read_writes_eq_canon _ _ _ (scover0_C_0 m c t h0 h1 xs0)]
  exact accC_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (xb0 m c t) (xb1 m c t) (xb2 m c t) (xb3 m c t) (xb4 m c t) (xb5 m c t) (xb6 m c t) (xb7 m c t) (fun h => h0 ((hcond0_0 t).mp h)) ((hcond0_1 t).mpr h1) xs0

/-- The last chunk adds its one-hot product to what the chunk before left. -/
theorem soutC_apply (c : Dev nD) (t : Fin cfg0.N) (h0 : ¬t.val % 4 = 0) (h1 : t.val % 4 = 3) (xs0 : Vec Ideal S256x4096 .f32)
    (r : Fin 256) (n : Fin 4096) :
    soutC m c t h0 h1 xs0 (ix2 r n) = xs0 (ix2 r n) + ∑ s : Fin 1024, catAt (xb0 m c t) s r * ohAt t (xb3 m c t) s n := by
  unfold ohAt
  rw [soutC_eq m c t h0 h1 xs0]
  exact accStep_apply scM0_1.view (grid0.coords t) (xb0 m c t) (xb3 m c t) xs0 r n

/-- The last chunk stores the perceptron of the accumulated embeddings: the accumulator's two row halves added, the
    sum's two column halves stacked, through the hidden layer and the output row. -/
theorem outC_apply (c : Dev nD) (t : Fin cfg0.N) (h0 : ¬t.val % 4 = 0) (h1 : t.val % 4 = 3) (xs0 : Vec Ideal S256x4096 .f32)
    (hacc : ∀ y, ∃ x : ℝ, soutC m c t h0 h1 xs0 y = (x : EReal)) (hW1 : ∀ y, ∃ x : ℝ, xb4 m c t y = (x : EReal))
    (hb1 : ∀ y, ∃ x : ℝ, xb5 m c t y = (x : EReal)) (j : Fin 2048) :
    outC m c t h0 h1 xs0 (ix3 0 0 j)
      = (∑ h : Fin 128, xb6 m c t (ix2 h 0) * max ((∑ k : Fin 256, xb4 m c t (ix2 k h) * comb2At (soutC m c t h0 h1 xs0) k j) + xb5 m c t (ix1 h)) 0)
        + xb7 m c t (ix1 0) := by
  rw [soutC_eq m c t h0 h1 xs0] at hacc ⊢
  unfold outC
  rw [View.read_writes_eq_canon _ _ _ (cover0_C_8 m c t h0 h1 xs0)]
  refine (congrFun (outC_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (xb0 m c t) (xb1 m c t) (xb2 m c t) (xb3 m c t) (xb4 m c t) (xb5 m c t) (xb6 m c t) (xb7 m c t) (fun h => h0 ((hcond0_0 t).mp h)) ((hcond0_1 t).mpr h1) xs0) (ix3 0 0 j)).trans ?_
  exact outOf_apply scM0_0.view scM0_2.view (accStep scM0_1.view (grid0.coords t) (xb0 m c t) (xb3 m c t) xs0) (xb4 m c t) (xb5 m c t) (xb6 m c t) (xb7 m c t) hacc hW1 hb1 j

end Cert.KernelIdeal.Pieces

end
-- ==== Proof.KI.Blocks.lean ====
/-
  The geometry of the region's windows.

  The grid has 128 × 4 points in row-major order: point t is gene t / 4, chunk t % 4.  Window 0's block at a
  point is the 1024 site rows of that chunk of that gene's slab of the site array; windows 1, 2, 4, 5, 6, 7 are
  whole arrays, the same at every point; window 3's block is the gene's row of the index array; the output
  window's block is the gene's row of the result array, written back at a gene's last chunk.  A coordinate of a
  block's entry in its array is always the block index on that axis times the block's extent there, plus the
  coordinate inside the block; the block indices are the printed index maps, decided once over the grid.
-/
import proofs.«422879_j30666066494039_3_alg».proof.Proof.KI.Frame
import Idealize.ShloMosaic.Lib.ValueIdx
import Idealize.ShloMosaic.Lib.Pipeline.Value

set_option maxRecDepth 16384

noncomputable section

namespace Cert.KernelIdeal.Blocks

open Cert.KernelIdeal Cert.KernelIdeal.Gen Cert.KernelIdeal.Fr
open Idealize.ShloMosaic Idealize.ShloMosaic.TcCoe Idealize.SL.Sem
open Idealize.ShloMosaic.ValueIdx Idealize.ShloMosaic.Pipeline

variable {F : FTy → Type} [FloatOps F]
variable (m : (ℓ : Loc nD τ sig) → Buf (Elt F) ℓ)

/-! ## The grid's points -/

/-- A point's position is below 512. -/
theorem pos_lt (t : Fin cfg0.N) : t.val < 512 := lt_of_lt_of_eq t.isLt N_0
/-- Its gene is below 128. -/
theorem gene_lt (t : Fin cfg0.N) : t.val / 4 < 128 := by have := pos_lt t; omega
/-- A site row of its chunk is a row of the gene's slab. -/
theorem row_lt (t : Fin cfg0.N) (s : Fin 1024) : (t.val % 4) * 1024 + s.val < 4096 := by have := s.isLt; omega

/-! ## The printed index maps, decided over the grid -/

/-- Window 0's block index at point t: (gene, chunk, 0). -/
theorem idx0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)
/-- The whole-array windows sit at block index 0. -/
theorem idx1 : ∀ t : Fin cfg0.N, win0_1.index t (0 : Fin 1) = 0 := (by decide +kernel : ∀ t : Fin grid0.N, _)
theorem idx2 : ∀ t : Fin cfg0.N, win0_2.index t (0 : Fin 1) = 0 := (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 := (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 := (by decide +kernel : ∀ t : Fin grid0.N, _)
/-- Window 3's block index: (gene, 0, 0). -/
theorem idx3 : ∀ t : Fin cfg0.N, win0_3.index t (0 : Fin 3) = t.val / 4 ∧ win0_3.index t (1 : Fin 3) = 0
    ∧ win0_3.index t (2 : Fin 3) = 0 :=
  (by decide +kernel : ∀ t : Fin grid0.N, _)
/-- The output window's block index: (gene, 0, 0). -/
theorem idx8 : ∀ t : Fin cfg0.N, win0_8.index t (0 : Fin 3) = t.val / 4 ∧ win0_8.index t (1 : Fin 3) = 0
    ∧ win0_8.index t (2 : Fin 3) = 0 :=
  (by decide +kernel : ∀ t : Fin grid0.N, _)

/-! ## The input windows' blocks -/

/-- Window 0's block at point t: site row s of the chunk is row chunk × 1024 + s of the gene's slab. -/
theorem blk0_apply (c : Dev nD) (t : Fin cfg0.N) (s : Fin 1024) (q : Fin 128) :
    (iblk m c 0 t : Vec F S1x1024x128 .f32) (ix3 0 s q)
      = (m ((c : Thread nD τ).loc main_arg0) : S128x4096x128.Idx → Elt F .f32)
          (ix3 ⟨t.val / 4, gene_lt t⟩ ⟨(t.val % 4) * 1024 + s.val, row_lt t s⟩ q) := by
  obtain ⟨e0, e1, e2⟩ := idx0 t
  unfold iblk
  rw [View.read_apply]
  show V m c main_arg0 (((cfg0.win 0).blk t).view.emb (ix3 0 s q)) = m (c.tc.loc main_arg0) _
  rw [V_main_arg0]
  congr 1
  funext a
  apply Fin.ext
  match a with
  | ⟨0, _⟩ => show win0_0.index t (0 : Fin 3) * 1 + 1 * (0 : Fin 1).val = t.val / 4; rw [e0]; simp
  | ⟨1, _⟩ => show win0_0.index t (1 : Fin 3) * 1024 + 1 * s.val = (t.val % 4) * 1024 + s.val; rw [e1]; omega
  | ⟨2, _⟩ => show win0_0.index t (2 : Fin 3) * 128 + 1 * q.val = q.val; rw [e2]; omega

/-- Window 1 is the whole of its array at every point. -/
theorem blk1_eq (c : Dev nD) (t : Fin cfg0.N) : (iblk m c 1 t : Vec F S128 .f32) = m ((c : Thread nD τ).loc main_arg1) := by
  have e0 := idx1 t
  funext y
  unfold iblk
  rw [View.read_apply]
  show V m c main_arg1 (((cfg0.win 1).blk t).view.emb y) = m (c.tc.loc main_arg1) y
  rw [V_main_arg1]
  congr 1
  funext a
  apply Fin.ext
  match a with
  | ⟨0, _⟩ => show win0_1.index t (0 : Fin 1) * 128 + 1 * (y 0).val = (y 0).val; rw [e0]; omega
/-- Window 2 is the whole of its array at every point. -/
theorem blk2_eq (c : Dev nD) (t : Fin cfg0.N) : (iblk m c 2 t : Vec F S128 .f32) = m ((c : Thread nD τ).loc main_arg2) := by
  have e0 := idx2 t
  funext y
  unfold iblk
  rw [View.read_apply]
  show V m c main_arg2 (((cfg0.win 2).blk t).view.emb y) = m (c.tc.loc main_arg2) y
  rw [V_main_arg2]
  congr 1
  funext a
  apply Fin.ext
  match a with
  | ⟨0, _⟩ => show win0_2.index t (0 : Fin 1) * 128 + 1 * (y 0).val = (y 0).val; rw [e0]; omega
/-- Window 4 is the whole of its array at every point. -/
theorem blk4_eq (c : Dev nD) (t : Fin cfg0.N) : (iblk m c 4 t : Vec F S256x128 .f32) = m ((c : Thread nD τ).loc main_arg4) := by
  obtain ⟨e0, e1⟩ := idx4 t
  funext y
  unfold iblk
  rw [View.read_apply]
  show V m c main_arg4 (((cfg0.win 4).blk t).view.emb y) = m (c.tc.loc main_arg4) y
  rw [V_main_arg4]
  congr 1
  funext a
  apply Fin.ext
  match a with
  | ⟨0, _⟩ => show win0_4.index t (0 : Fin 2) * 256 + 1 * (y 0).val = (y 0).val; rw [e0]; omega
  | ⟨1, _⟩ => show win0_4.index t (1 : Fin 2) * 128 + 1 * (y 1).val = (y 1).val; rw [e1]; omega
/-- Window 5 is the whole of its array at every point. -/
theorem blk5_eq (c : Dev nD) (t : Fin cfg0.N) : (iblk m c 5 t : Vec F S128 .f32) = m ((c : Thread nD τ).loc main_arg5) := by
  have e0 := idx5 t
  funext y
  unfold iblk
  rw [View.read_apply]
  show V m c main_arg5 (((cfg0.win 5).blk t).view.emb y) = m (c.tc.loc main_arg5) y
  rw [V_main_arg5]
  congr 1
  funext a
  apply Fin.ext
  match a with
  | ⟨0, _⟩ => show win0_5.index t (0 : Fin 1) * 128 + 1 * (y 0).val = (y 0).val; rw [e0]; omega
/-- Window 6 is the whole of its array at every point. -/
theorem blk6_eq (c : Dev nD) (t : Fin cfg0.N) : (iblk m c 6 t : Vec F S128x1 .f32) = m ((c : Thread nD τ).loc main_arg6) := by
  obtain ⟨e0, e1⟩ := idx6 t
  funext y
  unfold iblk
  rw [View.read_apply]
  show V m c main_arg6 (((cfg0.win 6).blk t).view.emb y) = m (c.tc.loc main_arg6) y
  rw [V_main_arg6]
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 1 + 1 * (y 1).val = (y 1).val; rw [e1]; omega
/-- Window 7 is the whole of its array at every point. -/
theorem blk7_eq (c : Dev nD) (t : Fin cfg0.N) : (iblk m c 7 t : Vec F S1 .f32) = m ((c : Thread nD τ).loc main_arg7) := by
  have e0 := idx7 t
  funext y
  unfold iblk
  rw [View.read_apply]
  show V m c main_arg7 (((cfg0.win 7).blk t).view.emb y) = m (c.tc.loc main_arg7) y
  rw [V_main_arg7]
  congr 1
  funext a
  apply Fin.ext
  match a with
  | ⟨0, _⟩ => show win0_7.index t (0 : Fin 1) * 1 + 1 * (y 0).val = (y 0).val; rw [e0]; omega

/-- Window 3's block at point t is the gene's row of the index array as the region finds it. -/
theorem blk3_apply (c : Dev nD) (t : Fin cfg0.N) (n : Fin 4096) :
    (iblk m c 3 t : Vec F S1x1x4096 .i32) (ix3 0 0 n)
      = (V m c main_call0_v3 : S128x1x4096.Idx → Elt F .i32) (ix3 ⟨t.val / 4, gene_lt t⟩ 0 n) := by
  obtain ⟨e0, e1, e2⟩ := idx3 t
  unfold iblk
  rw [View.read_apply]
  show V m c main_call0_v3 (((cfg0.win 3).blk t).view.emb (ix3 0 0 n)) = V m c main_call0_v3 _
  congr 1
  funext a
  apply Fin.ext
  match a with
  | ⟨0, _⟩ => show win0_3.index t (0 : Fin 3) * 1 + 1 * (0 : Fin 1).val = t.val / 4; rw [e0]; simp
  | ⟨1, _⟩ => show win0_3.index t (1 : Fin 3) * 1 + 1 * (0 : Fin 1).val = (0 : Fin 1).val; rw [e1]; simp
  | ⟨2, _⟩ => show win0_3.index t (2 : Fin 3) * 4096 + 1 * n.val = n.val; rw [e2]; omega

/-! ## The output window -/

/-- Every index of a 1 × 1 × n shape is (0, 0, j) for one j below n. -/
theorem idx_row {n : Nat} (y : (⟨3, ![1, 1, n]⟩ : Shape).Idx) : ∃ j : Fin n, y = ix3 0 0 j :=
  ⟨y 2, funext fun a => by
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl⟩

/-- The output window's block at point t, read off contents of the result array, is the gene's row. -/
theorem out_read (c : Dev nD) (G : Buf (Elt F) ((cfg0.win 8).arr.view.loc (c.tc : Thread nD τ))) (t : Fin cfg0.N) (j : Fin 2048) :
    ((cfg0.win 8).blk t).view.read (Elt F) G (ix3 0 0 j)
      = (G : S128x1x2048.Idx → Elt F .f32) (ix3 ⟨t.val / 4, gene_lt t⟩ 0 j) := by
  obtain ⟨e0, e1, e2⟩ := idx8 t
  rw [View.read_apply]
  show G (((cfg0.win 8).blk t).view.emb (ix3 0 0 j)) = G _
  congr 1
  funext a
  apply Fin.ext
  match a with
  | ⟨0, _⟩ => show win0_8.index t (0 : Fin 3) * 1 + 1 * (0 : Fin 1).val = t.val / 4; rw [e0]; simp
  | ⟨1, _⟩ => show win0_8.index t (1 : Fin 3) * 1 + 1 * (0 : Fin 1).val = (0 : Fin 1).val; rw [e1]; simp
  | ⟨2, _⟩ => show win0_8.index t (2 : Fin 3) * 2048 + 1 * j.val = j.val; rw [e2]; omega

/-- An entry of the result array is in point t's block iff each coordinate is in the block's range on its axis. -/
theorem mem_blk8 (t : Fin cfg0.N) (i : S128x1x2048.Idx) :
    i ∈ ((cfg0.win 8).blk t).view.set ↔ ∀ a : Fin 3, win0_8.index t a * S1x1x2048.size a ≤ (i a).val ∧ (i a).val < win0_8.index t a * S1x1x2048.size a + S1x1x2048.size a := by
  show i ∈ ((View.whole main_call0_v4).slice (win0_8.rect t)).set ↔ _
  rw [View.set_slice_whole, Rect.mem_set_unit]
  exact Iff.rfl

/-- Every entry of the result array is in the block written back at its gene's last chunk. -/
theorem out_cover (c : Dev nD) : ∀ i : ((cfg0.win 8).arr.view.loc (c.tc : Thread nD τ)).2.ty.Idx,
    ∃ t : Fin cfg0.N, (cfg0.win 8).flush t = true ∧ i ∈ ((cfg0.win 8).blk t).view.set := by
  intro (i : S128x1x2048.Idx)
  have h0 : (i 0).val < 128 := (i 0).isLt
  have h1 : (i 1).val < 1 := (i 1).isLt
  have h2 : (i 2).val < 2048 := (i 2).isLt
  have hN : cfg0.N = 512 := N_0
  let t : Fin cfg0.N := ⟨4 * (i 0).val + 3, by rw [hN]; omega⟩
  have htv : t.val = 4 * (i 0).val + 3 := rfl
  obtain ⟨e0, e1, e2⟩ := idx8 t
  refine ⟨t, (flush0_8 t).mpr (by rw [htv]; omega), ?_⟩
  rw [mem_blk8]
  intro a
  match a with
  | ⟨0, _⟩ => show win0_8.index t (0 : Fin 3) * 1 ≤ (i 0).val ∧ (i 0).val < win0_8.index t (0 : Fin 3) * 1 + 1; rw [e0, htv]; omega
  | ⟨1, _⟩ => show win0_8.index t (1 : Fin 3) * 1 ≤ (i 1).val ∧ (i 1).val < win0_8.index t (1 : Fin 3) * 1 + 1; rw [e1]; omega
  | ⟨2, _⟩ => show win0_8.index t (2 : Fin 3) * 2048 ≤ (i 2).val ∧ (i 2).val < win0_8.index t (2 : Fin 3) * 2048 + 2048; rw [e2]; omega

/-- What a point writes back of the output window is what the body left in its staging buffer: no block
    overhangs the array, so the part a transfer moves is the whole block. -/
theorem flushed8 (c : Dev nD) (t : Fin cfg0.N) : (dats m 0 c).flushed 8 t = (outsAt0 m c t.val t.isLt).1 := by
  show (cfg0.win 8).cut (grid0.coords t) ((dats m 0 c).after 8 t) = _
  rw [after0_8]
  rfl

end Cert.KernelIdeal.Blocks

end
-- ==== Proof.HostPre.lean ====
/-
  The host operations of @main that run before the pipelined region, read as values.

  Two index arrays (donor columns, acceptor columns; 128 rows of 2048 words each) are clipped to [0, 4097],
  laid side by side along the column axis, and given a unit middle axis: that is the region's index operand.
  Here: the clip as a function of its argument and that it is the identity on words already in range; what
  the three written buffers hold afterwards, as functions of the two arguments; the index operand read at a
  position; and that no argument of @main is written on the way.
-/
import proofs.«422879_j30666066494039_3_alg».proof.Proof.Gen.KernelIdeal.Launch
import Idealize.ShloMosaic.Lib.StableHlo.Run
import Idealize.ShloMosaic.Lib.StableHlo.Predicate
import Idealize.ShloMosaic.Lib.ValueIdx
import Idealize.ShloMosaic.Lib.Pipeline.Value

set_option maxRecDepth 16384

noncomputable section

namespace Cert.KernelIdeal.HostPre

open Cert.KernelIdeal Cert.KernelIdeal.Gen Idealize.ShloMosaic Idealize.ShloMosaic.TcCoe Idealize.SL.Sem Idealize.ShloMosaic.ValueIdx
open Idealize.ShloMosaic.StableHlo

variable {F : FTy → Type} [FloatOps F]

/-! ## The clip -/

/-- jnp.clip(x, 0, 4097) on words: the signed maximum with 0, then the signed minimum with 4097, each bound a
    scalar constant broadcast over the array. -/
def clipIdx (x : IVec S128x2048 32) : IVec S128x2048 32 :=
  minsi (broadcastInDim S128x2048 ![] bcast_S_S128x2048 (id (constantI S_ 32 4097#32)))
    (maxsi (broadcastInDim S128x2048 ![] bcast_S_S128x2048 (id (constantI S_ 32 0#32))) x)

/-- At a position the clip is the two signed comparisons on that position's word. -/
theorem clipIdx_apply (x : IVec S128x2048 32) (i : S128x2048.Idx) :
    clipIdx x i = IntOp.minsi 4097#32 (IntOp.maxsi 0#32 (x i)) := rfl

/-- A word whose unsigned value is at most 4097 is non-negative as a signed word, so the maximum with 0 keeps it;
    and it is at most 4097 as a signed word, so the minimum with 4097 keeps it. -/
theorem clip_word (w : BitVec 32) (hw : w.toNat ≤ 4097) : IntOp.minsi 4097#32 (IntOp.maxsi 0#32 w) = w := by
  have hti : w.toInt = w.toNat := Predicate.toInt_eq_toNat_of_lt (by omega)
  have h0 : (0#32 : BitVec 32).toInt = 0 := by decide
  have hh : (4097#32 : BitVec 32).toInt = 4097 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, hh, decide_eq_true_eq]
  omega

/-- On an array whose words are all in [0, 4097] the clip changes nothing. -/
theorem clipIdx_of_inRange (x : IVec S128x2048 32) (hx : ∀ i, (x i).toNat ≤ 4097) : clipIdx x = x := by
  funext i
  rw [clipIdx_apply]
  exact clip_word (x i) (hx i)

/-! ## What the host operations leave in the buffers they write -/

/-- The donor columns' buffer holds the clip of the ninth argument. -/
theorem after_don (W : Valuation τ sig (Elt F)) :
    StableHlo.after (hostOps0 (F := F)) W (Proc.devRef .tc main_call0_v0) = clipIdx (W (Proc.devRef .tc main_arg8)) := by
  after_results
  rfl

/-- The acceptor columns' buffer holds the clip of the tenth argument. -/
theorem after_acc (W : Valuation τ sig (Elt F)) :
    StableHlo.after (hostOps0 (F := F)) W (Proc.devRef .tc main_call0_v1) = clipIdx (W (Proc.devRef .tc main_arg9)) := by
  after_results
  rfl

/-- The kernel's index operand: donor columns then acceptor columns along the column axis, with a unit middle axis. -/
def idxComb (d a : IVec S128x2048 32) : IVec S128x1x4096 32 :=
  broadcastInDim S128x1x4096 ![0, 2] bcast_S128x4096_S128x1x4096_0_2
    (concatenate S128x4096 1 [⟨S128x2048, d⟩, ⟨S128x2048, a⟩] concatenates_S128x2048_S128x2048_S128x4096_d1)

/-- The index operand's buffer holds the two clipped arrays side by side. -/
theorem after_idx (W : Valuation τ sig (Elt F)) :
    StableHlo.after (hostOps0 (F := F)) W (Proc.devRef .tc main_call0_v3)
      = idxComb (clipIdx (W (Proc.devRef .tc main_arg8))) (clipIdx (W (Proc.devRef .tc main_arg9))) := by
  after_results
  rfl

/-! ## The index operand at a position -/

/-- Row `g`, column `n` of the index operand: the donor array's column `n` when `n` is among the first 2048 columns,
    else the acceptor array's column `n - 2048`. -/
theorem idxComb_apply (d a : IVec S128x2048 32) (g : Fin 128) (n : Fin 4096) :
    idxComb d a (ix3 g 0 n)
      = if h : n.val < 2048 then d (ix2 g ⟨n.val, h⟩) else a (ix2 g ⟨n.val - 2048, by omega⟩) := by
  unfold idxComb
  -- the unit middle axis is not an axis of the operand: position (g, 0, n) reads the concatenation at (g, n)
  rw [broadcastInDim_apply ![0, 2] bcast_S128x4096_S128x1x4096_0_2 _ (ix3 g 0 n) (ix2 g n)
    (Fin.forall_fin_two.2 ⟨rfl, rfl⟩)]
  by_cases h : n.val < 2048
  · rw [dif_pos h]
    exact concatenate_pair_apply_left (1 : Fin 2) d a concatenates_S128x2048_S128x2048_S128x4096_d1 (ix2 g n) rfl
      (ix2 g ⟨n.val, h⟩) (Fin.forall_fin_two.2 ⟨rfl, rfl⟩)
  · rw [dif_neg h]
    have hn : n.val < 4096 := n.isLt
    refine concatenate_pair_apply_right (1 : Fin 2) d a concatenates_S128x2048_S128x2048_S128x4096_d1 (ix2 g n) rfl rfl
      (ix2 g ⟨n.val - 2048, by omega⟩) (Fin.forall_fin_two.2 ⟨fun _ => rfl, fun hne => absurd rfl hne⟩) ?_
    show n.val - 2048 + 2048 = n.val
    omega

/-! ## The arguments are not written -/

/-- No operation before the region writes an argument of @main: each holds afterwards what it held. -/
theorem after_arg (W : Valuation τ sig (Elt F)) (b : Ref sig .tc)
    (hb : b ∈ [main_arg0, main_arg1, main_arg2, main_arg3, main_arg4, main_arg5, main_arg6, main_arg7, main_arg8,
      main_arg9, main_arg10, main_arg11]) :
    StableHlo.after (hostOps0 (F := F)) W (Proc.devRef .tc b) = W (Proc.devRef .tc b) := by
  simp only [List.mem_cons, List.not_mem_nil, or_false] at hb
  rcases hb with rfl | rfl | rfl | rfl | rfl | rfl | rfl | rfl | rfl | rfl | rfl | rfl
  all_goals after_results

end Cert.KernelIdeal.HostPre
-- ==== Proof.Closed.lean ====
import Idealize.ShloMosaic.PureOps.Ideal

/-!
Closed form of four accumulation steps of a one-hot product over the extended
reals, and the two arrangements of a two-layer perceptron.

A table of 4096 rows is walked in four chunks of 1024 rows.  Each chunk, stacked
on a second copy `x - x` of itself, is multiplied by a one-hot matrix and added
into an accumulator whose upper half was initialised with two special rows.
For an index word `q ≤ 4097` the result selects row `q` of the table extended
by the two special rows; the lower half of the accumulator stays zero as long as
the table holds real numbers.
-/

namespace Cert.Closed

section Defs

variable (reps : Fin 4096 → Fin 128 → EReal) (gs ge : Fin 128 → EReal)
  (idx : Fin 4096 → BitVec 32)

/-- Row `s` of chunk `k` of the table. -/
noncomputable def blkAt (k : Fin 4) (s : Fin 1024) (c : Fin 128) : EReal :=
  reps ⟨k.val * 1024 + s.val, by omega⟩ c

/-- The chunk stacked on the difference of the chunk with itself. -/
noncomputable def catAt (k : Fin 4) (s : Fin 1024) (r : Fin 256) : EReal :=
  if h : r.val < 128 then blkAt reps k s ⟨r.val, h⟩
  else blkAt reps k s ⟨r.val - 128, by omega⟩ - blkAt reps k s ⟨r.val - 128, by omega⟩

/-- The one-hot matrix of chunk `k`. -/
noncomputable def oh (k : Fin 4) (s : Fin 1024) (n : Fin 4096) : EReal :=
  if (idx n).toNat = k.val * 1024 + s.val then 1 else 0

/-- The initial accumulator: the two special rows in the upper half. -/
noncomputable def accInit (r : Fin 256) (n : Fin 4096) : EReal :=
  if h : r.val < 128 then
    0 + (gs ⟨r.val, h⟩ * (if (idx n).toNat = 4096 then (1 : EReal) else 0)
      + ge ⟨r.val, h⟩ * (if (idx n).toNat = 4097 then (1 : EReal) else 0))
  else 0

/-- One accumulation step. -/
noncomputable def step (k : Fin 4) (prev : Fin 256 → Fin 4096 → EReal) (r : Fin 256) (n : Fin 4096) :
    EReal :=
  prev r n + ∑ s : Fin 1024, catAt reps k s r * oh idx k s n

noncomputable def acc0 := step reps idx 0 (accInit gs ge idx)
noncomputable def acc1 := step reps idx 1 (acc0 reps gs ge idx)
noncomputable def acc2 := step reps idx 2 (acc1 reps gs ge idx)
noncomputable def acc3 := step reps idx 3 (acc2 reps gs ge idx)

/-- The table extended by the two special rows. -/
noncomputable def augRow (q : ℕ) (c : Fin 128) : EReal :=
  if h : q < 4096 then reps ⟨q, h⟩ c else if q = 4096 then gs c else ge c

/-- The table extended by zero past its last row. -/
noncomputable def repsN (q : ℕ) (c : Fin 128) : EReal :=
  if h : q < 4096 then reps ⟨q, h⟩ c else 0

end Defs

/-- Every value of a one-argument family is a real number. -/
def IsReal1 {α : Type*} (f : α → EReal) : Prop := ∀ a, ∃ x : ℝ, f a = (x : EReal)

/-- Every value of a two-argument family is a real number. -/
def IsReal2 {α β : Type*} (f : α → β → EReal) : Prop := ∀ a b, ∃ x : ℝ, f a b = (x : EReal)

/-! ### Real numbers are closed under the operations used -/

theorem real_zero : ∃ x : ℝ, (0 : EReal) = (x : EReal) := ⟨0, EReal.coe_zero.symm⟩

theorem real_one : ∃ x : ℝ, (1 : EReal) = (x : EReal) := ⟨1, EReal.coe_one.symm⟩

theorem real_add {a b : EReal} (ha : ∃ x : ℝ, a = (x : EReal)) (hb : ∃ y : ℝ, b = (y : EReal)) :
    ∃ z : ℝ, a + b = (z : EReal) := by
  obtain ⟨x, rfl⟩ := ha
  obtain ⟨y, rfl⟩ := hb
  exact ⟨x + y, (EReal.coe_add x y).symm⟩

theorem real_mul {a b : EReal} (ha : ∃ x : ℝ, a = (x : EReal)) (hb : ∃ y : ℝ, b = (y : EReal)) :
    ∃ z : ℝ, a * b = (z : EReal) := by
  obtain ⟨x, rfl⟩ := ha
  obtain ⟨y, rfl⟩ := hb
  exact ⟨x * y, (EReal.coe_mul x y).symm⟩

theorem real_sub {a b : EReal} (ha : ∃ x : ℝ, a = (x : EReal)) (hb : ∃ y : ℝ, b = (y : EReal)) :
    ∃ z : ℝ, a - b = (z : EReal) := by
  obtain ⟨x, rfl⟩ := ha
  obtain ⟨y, rfl⟩ := hb
  exact ⟨x - y, (EReal.coe_sub x y).symm⟩

/-- A real number minus itself is zero (false at the two infinities). -/
theorem real_sub_self {a : EReal} (ha : ∃ x : ℝ, a = (x : EReal)) : a - a = 0 := by
  obtain ⟨x, rfl⟩ := ha
  rw [← EReal.coe_sub, sub_self, EReal.coe_zero]

theorem real_ite (c : Prop) [Decidable c] :
    ∃ x : ℝ, (if c then (1 : EReal) else 0) = (x : EReal) := by
  by_cases h : c
  · rw [if_pos h]; exact real_one
  · rw [if_neg h]; exact real_zero

/-- A finite sum of real numbers is a real number. -/
theorem real_sum {ι : Type*} (s : Finset ι) (f : ι → EReal)
    (hf : ∀ i ∈ s, ∃ x : ℝ, f i = (x : EReal)) : ∃ z : ℝ, s.sum f = (z : EReal) :=
  Finset.sum_induction f (fun a => ∃ x : ℝ, a = (x : EReal))
    (fun _ _ ha hb => real_add ha hb) real_zero hf

section Main

variable (reps : Fin 4096 → Fin 128 → EReal) (gs ge : Fin 128 → EReal)
  (idx : Fin 4096 → BitVec 32)

/-! ### The sum of one chunk -/

/-- In the lower half every term is `(x - x) * b` with `x` real, so the sum is zero. -/
theorem sum_hi (hr : IsReal2 reps) (k : Fin 4) (r : Fin 256) (h : ¬ r.val < 128)
    (n : Fin 4096) : ∑ s : Fin 1024, catAt reps k s r * oh idx k s n = 0 := by
  apply Finset.sum_eq_zero
  intro s _
  unfold catAt blkAt
  rw [dif_neg h, real_sub_self (hr _ _), zero_mul]

/-- In the upper half at most one row of the chunk is selected: the row `q` when `q`
lies in the chunk, none otherwise. -/
theorem sum_lo (k : Fin 4) (r : Fin 256) (h : r.val < 128) (n : Fin 4096) :
    ∑ s : Fin 1024, catAt reps k s r * oh idx k s n
      = if k.val * 1024 ≤ (idx n).toNat ∧ (idx n).toNat < k.val * 1024 + 1024
        then repsN reps (idx n).toNat ⟨r.val, h⟩ else 0 := by
  have term : ∀ s : Fin 1024, catAt reps k s r * oh idx k s n
      = if (idx n).toNat = k.val * 1024 + s.val
        then repsN reps (idx n).toNat ⟨r.val, h⟩ else 0 := by
    intro s
    unfold oh
    by_cases hs : (idx n).toNat = k.val * 1024 + s.val
    · rw [if_pos hs, if_pos hs, mul_one]
      unfold catAt blkAt repsN
      rw [dif_pos h, dif_pos (by omega)]
      congr 2
      exact hs.symm
    · rw [if_neg hs, if_neg hs, mul_zero]
  rw [Finset.sum_congr rfl (fun s _ => term s)]
  by_cases hq : k.val * 1024 ≤ (idx n).toNat ∧ (idx n).toNat < k.val * 1024 + 1024
  · rw [if_pos hq]
    have hs : (idx n).toNat - k.val * 1024 < 1024 := by omega
    rw [Finset.sum_eq_single (⟨(idx n).toNat - k.val * 1024, hs⟩ : Fin 1024)]
    · rw [if_pos]
      show (idx n).toNat = k.val * 1024 + ((idx n).toNat - k.val * 1024)
      omega
    · intro s _ hne
      rw [if_neg]
      intro e
      apply hne
      apply Fin.ext
      show s.val = (idx n).toNat - k.val * 1024
      omega
    · intro hn
      exact absurd (Finset.mem_univ _) hn
  · rw [if_neg hq]
    apply Finset.sum_eq_zero
    intro s _
    rw [if_neg]
    intro e
    apply hq
    omega

/-! ### The closed form -/

theorem acc3_eq (hr : IsReal2 reps) (hs : IsReal1 gs) (he : IsReal1 ge)
    (hi : ∀ n, (idx n).toNat ≤ 4097) (r : Fin 256) (n : Fin 4096) :
    acc3 reps gs ge idx r n
      = if h : r.val < 128 then augRow reps gs ge (idx n).toNat ⟨r.val, h⟩ else 0 := by
  by_cases h : r.val < 128
  · rw [dif_pos h]
    simp only [acc3, acc2, acc1, acc0, step]
    rw [sum_lo reps idx 0 r h n, sum_lo reps idx 1 r h n, sum_lo reps idx 2 r h n,
      sum_lo reps idx 3 r h n]
    unfold accInit
    rw [dif_pos h]
    have hq := hi n
    have v0 : ((0 : Fin 4) : ℕ) = 0 := rfl
    have v1 : ((1 : Fin 4) : ℕ) = 1 := rfl
    have v2 : ((2 : Fin 4) : ℕ) = 2 := rfl
    have v3 : ((3 : Fin 4) : ℕ) = 3 := rfl
    rw [v0, v1, v2, v3]
    generalize (idx n).toNat = q at hq ⊢
    unfold augRow repsN
    have cases : q < 1024 ∨ (1024 ≤ q ∧ q < 2048) ∨ (2048 ≤ q ∧ q < 3072)
        ∨ (3072 ≤ q ∧ q < 4096) ∨ q = 4096 ∨ q = 4097 := by omega
    rcases cases with c | c | c | c | c | c
    · have a0 : 0 * 1024 ≤ q ∧ q < 0 * 1024 + 1024 := by omega
      have a1 : ¬ (1 * 1024 ≤ q ∧ q < 1 * 1024 + 1024) := by omega
      have a2 : ¬ (2 * 1024 ≤ q ∧ q < 2 * 1024 + 1024) := by omega
      have a3 : ¬ (3 * 1024 ≤ q ∧ q < 3 * 1024 + 1024) := by omega
      have b0 : q < 4096 := by omega
      have b1 : ¬ q = 4096 := by omega
      have b2 : ¬ q = 4097 := by omega
      rw [if_pos a0, if_neg a1, if_neg a2, if_neg a3, dif_pos b0, dif_pos b0, if_neg b1, if_neg b2]
      simp
    · have a0 : ¬ (0 * 1024 ≤ q ∧ q < 0 * 1024 + 1024) := by omega
      have a1 : (1 * 1024 ≤ q ∧ q < 1 * 1024 + 1024) := by omega
      have a2 : ¬ (2 * 1024 ≤ q ∧ q < 2 * 1024 + 1024) := by omega
      have a3 : ¬ (3 * 1024 ≤ q ∧ q < 3 * 1024 + 1024) := by omega
      have b0 : q < 4096 := by omega
      have b1 : ¬ q = 4096 := by omega
      have b2 : ¬ q = 4097 := by omega
      rw [if_neg a0, if_pos a1, if_neg a2, if_neg a3, dif_pos b0, dif_pos b0, if_neg b1, if_neg b2]
      simp
    · have a0 : ¬ (0 * 1024 ≤ q ∧ q < 0 * 1024 + 1024) := by omega
      have a1 : ¬ (1 * 1024 ≤ q ∧ q < 1 * 1024 + 1024) := by omega
      have a2 : (2 * 1024 ≤ q ∧ q < 2 * 1024 + 1024) := by omega
      have a3 : ¬ (3 * 1024 ≤ q ∧ q < 3 * 1024 + 1024) := by omega
      have b0 : q < 4096 := by omega
      have b1 : ¬ q = 4096 := by omega
      have b2 : ¬ q = 4097 := by omega
      rw [if_neg a0, if_neg a1, if_pos a2, if_neg a3, dif_pos b0, dif_pos b0, if_neg b1, if_neg b2]
      simp
    · have a0 : ¬ (0 * 1024 ≤ q ∧ q < 0 * 1024 + 1024) := by omega
      have a1 : ¬ (1 * 1024 ≤ q ∧ q < 1 * 1024 + 1024) := by omega
      have a2 : ¬ (2 * 1024 ≤ q ∧ q < 2 * 1024 + 1024) := by omega
      have a3 : (3 * 1024 ≤ q ∧ q < 3 * 1024 + 1024) := by omega
      have b0 : q < 4096 := by omega
      have b1 : ¬ q = 4096 := by omega
      have b2 : ¬ q = 4097 := by omega
      rw [if_neg a0, if_neg a1, if_neg a2, if_pos a3, dif_pos b0, dif_pos b0, if_neg b1, if_neg b2]
      simp
    · subst c
      simp
    · subst c
      simp
  · rw [dif_neg h]
    simp only [acc3, acc2, acc1, acc0, step]
    rw [sum_hi reps idx hr 0 r h n, sum_hi reps idx hr 1 r h n, sum_hi reps idx hr 2 r h n,
      sum_hi reps idx hr 3 r h n]
    unfold accInit
    rw [dif_neg h]
    simp

/-! ### Realness of the accumulators -/

theorem catAt_real (hr : IsReal2 reps) (k : Fin 4) (s : Fin 1024) (r : Fin 256) :
    ∃ x : ℝ, catAt reps k s r = (x : EReal) := by
  unfold catAt
  by_cases h : r.val < 128
  · rw [dif_pos h]; exact hr _ _
  · rw [dif_neg h]; exact real_sub (hr _ _) (hr _ _)

theorem oh_real (k : Fin 4) (s : Fin 1024) (n : Fin 4096) :
    ∃ x : ℝ, oh idx k s n = (x : EReal) := real_ite _

theorem accInit_real (hs : IsReal1 gs) (he : IsReal1 ge) : IsReal2 (accInit gs ge idx) := by
  intro r n
  unfold accInit
  by_cases h : r.val < 128
  · rw [dif_pos h]
    exact real_add real_zero
      (real_add (real_mul (hs _) (real_ite _)) (real_mul (he _) (real_ite _)))
  · rw [dif_neg h]; exact real_zero

theorem step_real (hr : IsReal2 reps) (k : Fin 4) (prev : Fin 256 → Fin 4096 → EReal)
    (hp : IsReal2 prev) : IsReal2 (step reps idx k prev) := by
  intro r n
  unfold step
  exact real_add (hp r n)
    (real_sum _ _ (fun s _ => real_mul (catAt_real reps hr k s r) (oh_real idx k s n)))

theorem acc0_real (hr : IsReal2 reps) (hs : IsReal1 gs) (he : IsReal1 ge) :
    IsReal2 (acc0 reps gs ge idx) :=
  step_real reps idx hr 0 _ (accInit_real gs ge idx hs he)

theorem acc1_real (hr : IsReal2 reps) (hs : IsReal1 gs) (he : IsReal1 ge) :
    IsReal2 (acc1 reps gs ge idx) :=
  step_real reps idx hr 1 _ (acc0_real reps gs ge idx hr hs he)

theorem acc2_real (hr : IsReal2 reps) (hs : IsReal1 gs) (he : IsReal1 ge) :
    IsReal2 (acc2 reps gs ge idx) :=
  step_real reps idx hr 2 _ (acc1_real reps gs ge idx hr hs he)

theorem acc3_real (hr : IsReal2 reps) (hs : IsReal1 gs) (he : IsReal1 ge) :
    IsReal2 (acc3 reps gs ge idx) :=
  step_real reps idx hr 3 _ (acc2_real reps gs ge idx hr hs he)

/-! ### Folding the two halves -/

/-- The upper and lower halves of the accumulator added, donors over acceptors. -/
noncomputable def comb2At (acc : Fin 256 → Fin 4096 → EReal) (k : Fin 256) (j : Fin 2048) : EReal :=
  if h : k.val < 128 then
    acc ⟨k.val, by omega⟩ ⟨j.val, by omega⟩ + acc ⟨k.val + 128, by omega⟩ ⟨j.val, by omega⟩
  else
    acc ⟨k.val - 128, by omega⟩ ⟨j.val + 2048, by omega⟩ + acc k ⟨j.val + 2048, by omega⟩

theorem comb2_eq (hr : IsReal2 reps) (hs : IsReal1 gs) (he : IsReal1 ge)
    (hi : ∀ n, (idx n).toNat ≤ 4097) (k : Fin 256) (j : Fin 2048) :
    comb2At (acc3 reps gs ge idx) k j
      = if h : k.val < 128 then augRow reps gs ge (idx ⟨j.val, by omega⟩).toNat ⟨k.val, h⟩
        else augRow reps gs ge (idx ⟨j.val + 2048, by omega⟩).toNat ⟨k.val - 128, by omega⟩ := by
  unfold comb2At
  by_cases h : k.val < 128
  · rw [dif_pos h, dif_pos h, acc3_eq reps gs ge idx hr hs he hi,
      acc3_eq reps gs ge idx hr hs he hi]
    have h2 : ¬ (k.val + 128 < 128) := by omega
    rw [dif_pos h, dif_neg h2, add_zero]
  · rw [dif_neg h, dif_neg h, acc3_eq reps gs ge idx hr hs he hi,
      acc3_eq reps gs ge idx hr hs he hi]
    have h2 : k.val - 128 < 128 := by omega
    rw [dif_pos h2, dif_neg h, add_zero]

theorem comb2_real (hr : IsReal2 reps) (hs : IsReal1 gs) (he : IsReal1 ge) :
    ∀ (k : Fin 256) (j : Fin 2048), ∃ x : ℝ, comb2At (acc3 reps gs ge idx) k j = (x : EReal) := by
  intro k j
  unfold comb2At
  by_cases h : k.val < 128
  · rw [dif_pos h]
    exact real_add (acc3_real reps gs ge idx hr hs he _ _) (acc3_real reps gs ge idx hr hs he _ _)
  · rw [dif_neg h]
    exact real_add (acc3_real reps gs ge idx hr hs he _ _) (acc3_real reps gs ge idx hr hs he _ _)

end Main

/-! ### The perceptron's two arrangements -/

/-- Multiplication on the extended reals commutes, so the weights may stand on either
side of the activations in both layers. -/
theorem mlp_comm (junc : Fin 256 → EReal) (W1 : Fin 256 → Fin 128 → EReal)
    (b1 : Fin 128 → EReal) (W2 : Fin 128 → EReal) (b2 : EReal) :
    (∑ h : Fin 128, W2 h * max ((∑ k : Fin 256, W1 k h * junc k) + b1 h) 0) + b2
      = (∑ h : Fin 128, max ((∑ k : Fin 256, junc k * W1 k h) + b1 h) 0 * W2 h) + b2 := by
  have h1 : ∀ h : Fin 128,
      (∑ k : Fin 256, W1 k h * junc k) = ∑ k : Fin 256, junc k * W1 k h :=
    fun h => Finset.sum_congr rfl (fun k _ => mul_comm _ _)
  have h2 : ∀ h : Fin 128,
      W2 h * max ((∑ k : Fin 256, W1 k h * junc k) + b1 h) 0
        = max ((∑ k : Fin 256, junc k * W1 k h) + b1 h) 0 * W2 h :=
    fun h => by rw [h1 h, mul_comm]
  rw [Finset.sum_congr rfl (fun h _ => h2 h)]

end Cert.Closed
-- ==== Proof.Spec.lean ====
/-
  The junction potentials as one function of the argument arrays, index by index, on the extended reals.

  For gene `g` the site table is augmented by two rows: row 4096 is the gene-start vector, row 4097 the
  gene-end vector.  Junction `j` reads the donor row `don g j` and the acceptor row `acc g j` of that
  table and lays them side by side as a vector of 256 entries.  A two-layer perceptron follows:
  `hid = max (junc · W1 + b1) 0` over 128 hidden units, and `pot = hid · W2 + b2`.
-/
import Idealize.ShloMosaic.PureOps.Ideal
import Idealize.ShloMosaic.Lib.ValueIdx

noncomputable section

namespace Cert.Spec

open Idealize.ShloMosaic Idealize.ShloMosaic.ValueIdx

abbrev SReps : Shape := ⟨3, ![128, 4096, 128]⟩
abbrev SVec : Shape := ⟨1, ![128]⟩
abbrev SIdx : Shape := ⟨2, ![128, 2048]⟩
abbrev SW1 : Shape := ⟨2, ![256, 128]⟩
abbrev SW2 : Shape := ⟨2, ![128, 1]⟩
abbrev SOne : Shape := ⟨1, ![1]⟩

/-- Entry `c` of row `r` of gene `g`'s augmented site table: a site row below 4096, the gene-start vector
    at 4096, the gene-end vector above. -/
def augRow (reps : FVec Ideal SReps .f32) (gs ge : FVec Ideal SVec .f32) (g : Fin 128) (r : ℕ) (c : Fin 128) : EReal :=
  if h : r < 4096 then reps (ix3 g ⟨r, h⟩ c) else if r = 4096 then gs (ix1 c) else ge (ix1 c)

/-- Entry `k` of junction `j`'s embedding: the donor row's 128 entries, then the acceptor row's. -/
def junc (reps : FVec Ideal SReps .f32) (gs ge : FVec Ideal SVec .f32) (don acc : IVec SIdx 32)
    (g : Fin 128) (j : Fin 2048) (k : Fin 256) : EReal :=
  if h : k.val < 128 then augRow reps gs ge g (don (ix2 g j)).toNat ⟨k.val, h⟩
  else augRow reps gs ge g (acc (ix2 g j)).toNat ⟨k.val - 128, by omega⟩

/-- Hidden unit `h` of junction `j`. -/
def hid (reps : FVec Ideal SReps .f32) (gs ge : FVec Ideal SVec .f32) (don acc : IVec SIdx 32)
    (W1 : FVec Ideal SW1 .f32) (b1 : FVec Ideal SVec .f32) (g : Fin 128) (j : Fin 2048) (h : Fin 128) : EReal :=
  max (∑ k : Fin 256, junc reps gs ge don acc g j k * W1 (ix2 k h) + b1 (ix1 h)) 0

/-- The potential of junction `j` of gene `g`. -/
def potAt (reps : FVec Ideal SReps .f32) (gs ge : FVec Ideal SVec .f32) (don acc : IVec SIdx 32)
    (W1 : FVec Ideal SW1 .f32) (b1 : FVec Ideal SVec .f32) (W2 : FVec Ideal SW2 .f32) (b2 : FVec Ideal SOne .f32)
    (g : Fin 128) (j : Fin 2048) : EReal :=
  ∑ h : Fin 128, hid reps gs ge don acc W1 b1 g j h * W2 (ix2 h 0) + b2 (ix1 0)

/-- All potentials, as an array over genes and junctions. -/
def pot (reps : FVec Ideal SReps .f32) (gs ge : FVec Ideal SVec .f32) (don acc : IVec SIdx 32)
    (W1 : FVec Ideal SW1 .f32) (b1 : FVec Ideal SVec .f32) (W2 : FVec Ideal SW2 .f32) (b2 : FVec Ideal SOne .f32) :
    FVec Ideal SIdx .f32 :=
  fun i => potAt reps gs ge don acc W1 b1 W2 b2 ⟨(i 0).val, (i 0).isLt⟩ ⟨(i 1).val, (i 1).isLt⟩

theorem pot_apply (reps : FVec Ideal SReps .f32) (gs ge : FVec Ideal SVec .f32) (don acc : IVec SIdx 32)
    (W1 : FVec Ideal SW1 .f32) (b1 : FVec Ideal SVec .f32) (W2 : FVec Ideal SW2 .f32) (b2 : FVec Ideal SOne .f32)
    (g : Fin 128) (j : Fin 2048) :
    pot reps gs ge don acc W1 b1 W2 b2 (ix2 g j) = potAt reps gs ge don acc W1 b1 W2 b2 g j := rfl

/-- Every entry of a float array is a real number. -/
def AllReal {s : Shape} (x : FVec Ideal s .f32) : Prop := ∀ i, ∃ r : ℝ, x i = (r : EReal)

/-- Every index of an index array lies in the augmented table: `0 ≤ idx ≤ 4097` as an unsigned word. -/
def InRange (idx : IVec SIdx 32) : Prop := ∀ i, (idx i).toNat ≤ 4097

end Cert.Spec

end
-- ==== Proof.KI.Bridge1.lean ====
/-
  The kernel's output array is the specification's potentials.

  For gene `g` the accumulator after the gene's chunk `k` is the `k`-th step of the one-hot accumulation over
  the gene's site table, its two special rows and its row of junction indices: the first chunk starts from the
  special rows, every later chunk adds its one-hot product to what the chunk before left.  After the fourth
  chunk the upper half of the accumulator holds, in column `n`, the row of the augmented table that the
  `n`-th index names, and the lower half is zero (it only ever received differences `x - x` of real numbers).
  The last chunk stacks the donor and acceptor halves into the junction's embedding and runs the perceptron on
  it; exchanging the factors of each product turns the kernel's arrangement into the specification's.  The
  output blocks of the genes' last chunks tile the output array.
-/
import proofs.«422879_j30666066494039_3_alg».proof.Proof.KI.Pieces
import proofs.«422879_j30666066494039_3_alg».proof.Proof.KI.Blocks
import proofs.«422879_j30666066494039_3_alg».proof.Proof.HostPre
import proofs.«422879_j30666066494039_3_alg».proof.Proof.Closed
import proofs.«422879_j30666066494039_3_alg».proof.Proof.Spec

set_option maxRecDepth 16384

noncomputable section

namespace Cert.KernelIdeal.Bridge

open Cert.KernelIdeal Cert.KernelIdeal.Gen Cert.KernelIdeal.Fr Cert.KernelIdeal.Pieces Cert.KernelIdeal.Blocks
open Idealize.ShloMosaic Idealize.ShloMosaic.TcCoe Idealize.SL.Sem Idealize.ShloMosaic.ValueIdx

variable (m : (ℓ : Loc nD τ sig) → Buf (Elt Ideal) ℓ)

abbrev A0 (c : Dev nD) : FVec Ideal S128x4096x128 .f32 := m ((c : Thread nD τ).loc main_arg0)
abbrev A1 (c : Dev nD) : FVec Ideal S128 .f32 := m ((c : Thread nD τ).loc main_arg1)
abbrev A2 (c : Dev nD) : FVec Ideal S128 .f32 := m ((c : Thread nD τ).loc main_arg2)
abbrev A4 (c : Dev nD) : FVec Ideal S256x128 .f32 := m ((c : Thread nD τ).loc main_arg4)
abbrev A5 (c : Dev nD) : FVec Ideal S128 .f32 := m ((c : Thread nD τ).loc main_arg5)
abbrev A6 (c : Dev nD) : FVec Ideal S128x1 .f32 := m ((c : Thread nD τ).loc main_arg6)
abbrev A7 (c : Dev nD) : FVec Ideal S1 .f32 := m ((c : Thread nD τ).loc main_arg7)
abbrev D8 (c : Dev nD) : IVec S128x2048 32 := m ((c : Thread nD τ).loc main_arg8)
abbrev D9 (c : Dev nD) : IVec S128x2048 32 := m ((c : Thread nD τ).loc main_arg9)

/-- What the precondition gives on core `c`: the float arguments the kernel reads are real-valued, the two
    index arrays lie in the augmented table. -/
structure Hyp (c : Dev nD) : Prop where
  r0 : ∀ i, ∃ x : ℝ, A0 m c i = (x : EReal)
  r1 : ∀ i, ∃ x : ℝ, A1 m c i = (x : EReal)
  r2 : ∀ i, ∃ x : ℝ, A2 m c i = (x : EReal)
  r4 : ∀ i, ∃ x : ℝ, A4 m c i = (x : EReal)
  r5 : ∀ i, ∃ x : ℝ, A5 m c i = (x : EReal)
  r6 : ∀ i, ∃ x : ℝ, A6 m c i = (x : EReal)
  r7 : ∀ i, ∃ x : ℝ, A7 m c i = (x : EReal)
  d8 : ∀ i, (D8 m c i).toNat ≤ 4097
  d9 : ∀ i, (D9 m c i).toNat ≤ 4097

/-! ## One gene's data -/

/-- Gene `g`'s site table. -/
def repsG (c : Dev nD) (g : Fin 128) : Fin 4096 → Fin 128 → EReal := fun s q => A0 m c (ix3 g s q)
/-- The gene-start and gene-end vectors. -/
def gsF (c : Dev nD) : Fin 128 → EReal := fun q => A1 m c (ix1 q)
def geF (c : Dev nD) : Fin 128 → EReal := fun q => A2 m c (ix1 q)
/-- Gene `g`'s row of junction indices: donors then acceptors. -/
def idxG (c : Dev nD) (g : Fin 128) : Fin 4096 → BitVec 32 := fun n => HostPre.idxComb (D8 m c) (D9 m c) (ix3 g 0 n)

/-- The gene of a grid point. -/
abbrev geneOf (t : Fin cfg0.N) : Fin 128 := ⟨t.val / 4, gene_lt t⟩

/-- The chunk coordinate of a grid point is its position modulo 4. -/
theorem coord1 : ∀ t : Fin cfg0.N, ((grid0.coords t) 1).val = t.val % 4 :=
  (by decide +kernel : ∀ t : Fin grid0.N, ((grid0.coords t) 1).val = t.val % 4)

/-- The index operand the region finds is the concatenation of the two index arrays (the clips are the identity
    in range). -/
theorem V_idx (c : Dev nD) (h : Hyp m c) : V m c main_call0_v3 = HostPre.idxComb (D8 m c) (D9 m c) := by
  show StableHlo.after (List.flatten [hostOps0]) (fun b => m (c, b)) (Proc.devRef .tc main_call0_v3) = _
  simp only [List.flatten_cons, List.flatten_nil, List.append_nil]
  rw [HostPre.after_idx]
  show HostPre.idxComb (HostPre.clipIdx (D8 m c)) (HostPre.clipIdx (D9 m c)) = _
  rw [HostPre.clipIdx_of_inRange _ h.d8, HostPre.clipIdx_of_inRange _ h.d9]

theorem idxG_bound (c : Dev nD) (h : Hyp m c) (g : Fin 128) (n : Fin 4096) : (idxG m c g n).toNat ≤ 4097 := by
  unfold idxG; rw [HostPre.idxComb_apply]
  split
  · exact h.d8 _
  · exact h.d9 _

theorem repsG_real (c : Dev nD) (h : Hyp m c) (g : Fin 128) : Closed.IsReal2 (repsG m c g) := fun s q => h.r0 _
theorem gsF_real (c : Dev nD) (h : Hyp m c) : Closed.IsReal1 (gsF m c) := fun q => h.r1 _
theorem geF_real (c : Dev nD) (h : Hyp m c) : Closed.IsReal1 (geF m c) := fun q => h.r2 _

/-! ## A point's blocks are the gene's data -/

theorem xb3_at (c : Dev nD) (h : Hyp m c) (t : Fin cfg0.N) (n : Fin 4096) :
    xb3 m c t (ix3 0 0 n) = idxG m c (geneOf t) n := by
  show (iblk m c 3 t : Vec Ideal S1x1x4096 .i32) (ix3 0 0 n) = _
  rw [blk3_apply, V_idx m c h]; rfl

theorem xb0_at (c : Dev nD) (t : Fin cfg0.N) (k : Fin 4) (hk : t.val % 4 = k.val) (s : Fin 1024) (q : Fin 128) :
    xb0 m c t (ix3 0 s q) = Closed.blkAt (repsG m c (geneOf t)) k s q := by
  show (iblk m c 0 t : Vec Ideal S1x1024x128 .f32) (ix3 0 s q) = _
  rw [blk0_apply]
  unfold Closed.blkAt repsG
  have e : (⟨(t.val % 4) * 1024 + s.val, row_lt t s⟩ : Fin 4096) = ⟨k.val * 1024 + s.val, by omega⟩ := Fin.ext (by simp only [hk])
  rw [e]

/-- A chunk's one-hot product, in the gene's terms. -/
theorem chunk_sum (c : Dev nD) (h : Hyp m c) (t : Fin cfg0.N) (k : Fin 4) (hk : t.val % 4 = k.val) (r : Fin 256) (n : Fin 4096) :
    (∑ s : Fin 1024, catAt (xb0 m c t) s r * ohAt t (xb3 m c t) s n)
      = ∑ s : Fin 1024, Closed.catAt (repsG m c (geneOf t)) k s r * Closed.oh (idxG m c (geneOf t)) k s n := by
  refine Finset.sum_congr rfl fun s _ => ?_
  congr 1
  · unfold catAt Closed.catAt
    split
    · exact xb0_at m c t k hk s _
    · rw [xb0_at m c t k hk s _]
  · unfold ohAt Closed.oh
    rw [xb3_at m c h t n, coord1 t, hk]

theorem init_eq (c : Dev nD) (h : Hyp m c) (t : Fin cfg0.N) (r : Fin 256) (n : Fin 4096) :
    accInit (xb1 m c t) (xb2 m c t) (xb3 m c t) r n = Closed.accInit (gsF m c) (geF m c) (idxG m c (geneOf t)) r n := by
  unfold accInit Closed.accInit
  rw [xb3_at m c h t n]
  rw [show xb1 m c t = A1 m c from blk1_eq m c t, show xb2 m c t = A2 m c from blk2_eq m c t]
  rfl

/-! ## The accumulator after each chunk -/

/-- The point before, as a point. -/
abbrev prev (t : Fin cfg0.N) (h : t.val ≠ 0) : Fin cfg0.N := ⟨t.val - 1, Nat.lt_of_le_of_lt (Nat.sub_le _ _) t.isLt⟩

/-- The accumulator after a point, by the point's case. -/
theorem snd_A (c : Dev nD) (t : Fin cfg0.N) (h0 : t.val % 4 = 0) (h1 : ¬t.val % 4 = 3) :
    (outsAt0 m c t.val t.isLt).2 = soutA m c t h0 h1 := by rw [outsAt0_A m c t h0 h1]
theorem snd_B (c : Dev nD) (t : Fin cfg0.N) (h0 : ¬t.val % 4 = 0) (h1 : ¬t.val % 4 = 3) :
    (outsAt0 m c t.val t.isLt).2 = soutB m c t h0 h1 (outsAt0 m c (t.val - 1) (Nat.lt_of_le_of_lt (Nat.sub_le _ _) t.isLt)).2 := by rw [outsAt0_B m c t h0 h1]
theorem snd_C (c : Dev nD) (t : Fin cfg0.N) (h0 : ¬t.val % 4 = 0) (h1 : t.val % 4 = 3) :
    (outsAt0 m c t.val t.isLt).2 = soutC m c t h0 h1 (outsAt0 m c (t.val - 1) (Nat.lt_of_le_of_lt (Nat.sub_le _ _) t.isLt)).2 := by rw [outsAt0_C m c t h0 h1]
/-- The output block after a gene's last chunk. -/
theorem fst_C (c : Dev nD) (t : Fin cfg0.N) (h0 : ¬t.val % 4 = 0) (h1 : t.val % 4 = 3) :
    (outsAt0 m c t.val t.isLt).1 = outC m c t h0 h1 (outsAt0 m c (t.val - 1) (Nat.lt_of_le_of_lt (Nat.sub_le _ _) t.isLt)).2 := by rw [outsAt0_C m c t h0 h1]

theorem inv0 (c : Dev nD) (h : Hyp m c) (t : Fin cfg0.N) (hk : t.val % 4 = 0) (r : Fin 256) (n : Fin 4096) :
    (outsAt0 m c t.val t.isLt).2 (ix2 r n)
      = Closed.acc0 (repsG m c (geneOf t)) (gsF m c) (geF m c) (idxG m c (geneOf t)) r n := by
  have h1 : ¬t.val % 4 = 3 := by omega
  rw [snd_A m c t hk h1, soutA_apply m c t hk h1 r n, init_eq m c h, chunk_sum m c h t 0 (by simpa using hk)]
  rfl

theorem inv1 (c : Dev nD) (h : Hyp m c) (t : Fin cfg0.N) (hk : t.val % 4 = 1) (r : Fin 256) (n : Fin 4096) :
    (outsAt0 m c t.val t.isLt).2 (ix2 r n)
      = Closed.acc1 (repsG m c (geneOf t)) (gsF m c) (geF m c) (idxG m c (geneOf t)) r n := by
  have hz : t.val ≠ 0 := by omega
  have h0 : ¬t.val % 4 = 0 := by omega
  have h1 : ¬t.val % 4 = 3 := by omega
  have hp : (outsAt0 m c (t.val - 1) (Nat.lt_of_le_of_lt (Nat.sub_le _ _) t.isLt)).2 (ix2 r n)
      = Closed.acc0 (repsG m c (geneOf t)) (gsF m c) (geF m c) (idxG m c (geneOf t)) r n := by
    have hg : geneOf (prev t hz) = geneOf t := Fin.ext (by show (t.val - 1) / 4 = t.val / 4; omega)
    have := inv0 m c h (prev t hz) (by show (t.val - 1) % 4 = 0; omega) r n
    rw [hg] at this
    exact this
  rw [snd_B m c t h0 h1, soutB_apply m c t h0 h1 _ r n, chunk_sum m c h t 1 (by simpa using hk), hp]
  rfl

theorem inv2 (c : Dev nD) (h : Hyp m c) (t : Fin cfg0.N) (hk : t.val % 4 = 2) (r : Fin 256) (n : Fin 4096) :
    (outsAt0 m c t.val t.isLt).2 (ix2 r n)
      = Closed.acc2 (repsG m c (geneOf t)) (gsF m c) (geF m c) (idxG m c (geneOf t)) r n := by
  have hz : t.val ≠ 0 := by omega
  have h0 : ¬t.val % 4 = 0 := by omega
  have h1 : ¬t.val % 4 = 3 := by omega
  have hp : (outsAt0 m c (t.val - 1) (Nat.lt_of_le_of_lt (Nat.sub_le _ _) t.isLt)).2 (ix2 r n)
      = Closed.acc1 (repsG m c (geneOf t)) (gsF m c) (geF m c) (idxG m c (geneOf t)) r n := by
    have hg : geneOf (prev t hz) = geneOf t := Fin.ext (by show (t.val - 1) / 4 = t.val / 4; omega)
    have := inv1 m c h (prev t hz) (by show (t.val - 1) % 4 = 1; omega) r n
    rw [hg] at this
    exact this
  rw [snd_B m c t h0 h1, soutB_apply m c t h0 h1 _ r n, chunk_sum m c h t 2 (by simpa using hk), hp]
  rfl

theorem inv3 (c : Dev nD) (h : Hyp m c) (t : Fin cfg0.N) (hk : t.val % 4 = 3) (r : Fin 256) (n : Fin 4096) :
    (outsAt0 m c t.val t.isLt).2 (ix2 r n)
      = Closed.acc3 (repsG m c (geneOf t)) (gsF m c) (geF m c) (idxG m c (geneOf t)) r n := by
  have hz : t.val ≠ 0 := by omega
  have h0 : ¬t.val % 4 = 0 := by omega
  have h1 : t.val % 4 = 3 := by omega
  have hp : (outsAt0 m c (t.val - 1) (Nat.lt_of_le_of_lt (Nat.sub_le _ _) t.isLt)).2 (ix2 r n)
      = Closed.acc2 (repsG m c (geneOf t)) (gsF m c) (geF m c) (idxG m c (geneOf t)) r n := by
    have hg : geneOf (prev t hz) = geneOf t := Fin.ext (by show (t.val - 1) / 4 = t.val / 4; omega)
    have := inv2 m c h (prev t hz) (by show (t.val - 1) % 4 = 2; omega) r n
    rw [hg] at this
    exact this
  rw [snd_C m c t h0 h1, soutC_apply m c t h0 h1 _ r n, chunk_sum m c h t 3 (by simpa using hk), hp]
  rfl

/-! ## The output block of a gene's last chunk -/

/-- The specification's embedding entry, in the gene's terms. -/
theorem junc_eq (c : Dev nD) (g : Fin 128) (j : Fin 2048) (k : Fin 256) :
    (if hlt : k.val < 128 then Closed.augRow (repsG m c g) (gsF m c) (geF m c) (idxG m c g ⟨j.val, by omega⟩).toNat ⟨k.val, hlt⟩
      else Closed.augRow (repsG m c g) (gsF m c) (geF m c) (idxG m c g ⟨j.val + 2048, by omega⟩).toNat ⟨k.val - 128, by omega⟩)
      = Cert.Spec.junc (A0 m c) (A1 m c) (A2 m c) (D8 m c) (D9 m c) g j k := by
  have e1 : idxG m c g ⟨j.val, by omega⟩ = D8 m c (ix2 g j) := by
    unfold idxG; rw [HostPre.idxComb_apply, dif_pos (show (⟨j.val, by omega⟩ : Fin 4096).val < 2048 from j.isLt)]
  have e2 : idxG m c g ⟨j.val + 2048, by omega⟩ = D9 m c (ix2 g j) := by
    unfold idxG; rw [HostPre.idxComb_apply, dif_neg (show ¬ (⟨j.val + 2048, by omega⟩ : Fin 4096).val < 2048 from by simp)]
    congr 2
  rw [e1, e2]
  unfold Cert.Spec.junc Cert.Spec.augRow Closed.augRow repsG gsF geF
  rfl

/-- The potentials laid out as the region's output array (unit middle axis). -/
def G (c : Dev nD) : Buf (Elt Ideal) ((cfg0.win 8).arr.view.loc (c.tc : Thread nD τ)) :=
  fun i : S128x1x2048.Idx => Cert.Spec.potAt (A0 m c) (A1 m c) (A2 m c) (D8 m c) (D9 m c) (A4 m c) (A5 m c) (A6 m c) (A7 m c)
    ⟨(i 0).val, (i 0).isLt⟩ ⟨(i 2).val, (i 2).isLt⟩

theorem row_eq (c : Dev nD) (h : Hyp m c) (t : Fin cfg0.N) (hk : t.val % 4 = 3) (j : Fin 2048) :
    (outsAt0 m c t.val t.isLt).1 (ix3 0 0 j)
      = (G m c : S128x1x2048.Idx → Elt Ideal .f32) (ix3 (geneOf t) 0 j) := by
  have h0 : ¬ t.val % 4 = 0 := by omega
  -- the accumulator the last chunk leaves, entry by entry
  have hacc : ∀ r n, soutC m c t h0 hk (outsAt0 m c (t.val - 1) (Nat.lt_of_le_of_lt (Nat.sub_le _ _) t.isLt)).2 (ix2 r n)
      = Closed.acc3 (repsG m c (geneOf t)) (gsF m c) (geF m c) (idxG m c (geneOf t)) r n := fun r n => by
    rw [← snd_C m c t h0 hk]; exact inv3 m c h t hk r n
  have hreal : ∀ y, ∃ x : ℝ, soutC m c t h0 hk (outsAt0 m c (t.val - 1) (Nat.lt_of_le_of_lt (Nat.sub_le _ _) t.isLt)).2 y = (x : EReal) := fun y => by
    obtain ⟨r, n, rfl⟩ : ∃ (r : Fin 256) (n : Fin 4096), y = ix2 r n := ⟨y 0, y 1, eq_ix2 y⟩
    rw [hacc]
    exact Closed.acc3_real _ _ _ _ (repsG_real m c h _) (gsF_real m c h) (geF_real m c h) _ _
  have hW1 : ∀ y, ∃ x : ℝ, xb4 m c t y = (x : EReal) := by
    rw [show xb4 m c t = A4 m c from blk4_eq m c t]; exact h.r4
  have hb1 : ∀ y, ∃ x : ℝ, xb5 m c t y = (x : EReal) := by
    rw [show xb5 m c t = A5 m c from blk5_eq m c t]; exact h.r5
  have hcomb : ∀ k : Fin 256, comb2At (soutC m c t h0 hk (outsAt0 m c (t.val - 1) (Nat.lt_of_le_of_lt (Nat.sub_le _ _) t.isLt)).2) k j
      = Cert.Spec.junc (A0 m c) (A1 m c) (A2 m c) (D8 m c) (D9 m c) (geneOf t) j k := fun k => by
    rw [← junc_eq m c (geneOf t) j k,
      ← Closed.comb2_eq _ _ _ _ (repsG_real m c h _) (gsF_real m c h) (geF_real m c h) (idxG_bound m c h _) k j]
    unfold comb2At Closed.comb2At
    split
    · rw [hacc, hacc]
    · rw [hacc, hacc]
  have eG : (G m c : S128x1x2048.Idx → Elt Ideal .f32) (ix3 (geneOf t) 0 j)
      = Cert.Spec.potAt (A0 m c) (A1 m c) (A2 m c) (D8 m c) (D9 m c) (A4 m c) (A5 m c) (A6 m c) (A7 m c) (geneOf t) j := rfl
  rw [eG, fst_C m c t h0 hk, outC_apply m c t h0 hk _ hreal hW1 hb1 j]
  simp only [hcomb]
  rw [show xb4 m c t = A4 m c from blk4_eq m c t, show xb5 m c t = A5 m c from blk5_eq m c t,
    show xb6 m c t = A6 m c from blk6_eq m c t, show xb7 m c t = A7 m c from blk7_eq m c t]
  unfold Cert.Spec.potAt Cert.Spec.hid
  exact Closed.mlp_comm (fun k => Cert.Spec.junc (A0 m c) (A1 m c) (A2 m c) (D8 m c) (D9 m c) (geneOf t) j k)
    (fun k hh => A4 m c (ix2 k hh)) (fun hh => A5 m c (ix1 hh)) (fun hh => A6 m c (ix2 hh 0)) (A7 m c (ix1 0))

/-- The output array after the run: the potentials. -/
theorem final8 (c : Dev nD) (h : Hyp m c) : (dats m 0 c).arrAt 8 cfg0.N = G m c :=
  (dats m 0 c).arrAt_eq_of_cover 8 (G m c) (fun t hf => by
    rw [flushed8]
    funext (y : S1x1x2048.Idx)
    obtain ⟨j, rfl⟩ := idx_row y
    rw [out_read]
    exact row_eq m c h t ((flush0_8 t).mp hf) j) (out_cover c)

end Cert.KernelIdeal.Bridge

end
-- ==== Proof.Tail.lean ====
import proofs.«422879_j30666066494039_3_alg».proof.Proof.Gen.KernelIdeal.Launch
import Idealize.ShloMosaic.Lib.StableHlo.Run
import Idealize.ShloMosaic.Lib.Pipeline.Frame
import Idealize.ShloMosaic.PureOps.Ideal

noncomputable section

namespace Cert.KernelIdeal.Tail

open Cert.KernelIdeal Cert.KernelIdeal.Gen Idealize.ShloMosaic Idealize.ShloMosaic.TcCoe Idealize.SL.Sem

variable {F : FTy → Type} [FloatOps F]

/-! ## The stages of the host tail, at any float values

    After the junction potentials are known the host does five things in a row. They are stated here as functions of
    the values they read, for float values of any kind; the tail itself is their composition at the extended reals. -/

/-- An entry of the junction table as a position on the junction axis: a negative entry counts from the end of
    the row (2048 is added to it); the result carries a trailing axis of length one. -/
def wrapIdx (tjFlat : IVec S128x2048 32) : IVec S128x2048x1 32 :=
  shapeCast S128x2048x1
    (select (cmpi .slt tjFlat (broadcastInDim S128x2048 ![] bcast_S_S128x2048 (constantI S_ 32 0#32)))
      (addi tjFlat (broadcastInDim S128x2048 ![] bcast_S_S128x2048 (constantI S_ 32 2048#32))) tjFlat)
    shapeCasts_S128x2048_S128x2048x1

/-- Where a wrapped position lies on the axis: 0 ≤ position ≤ 2047 (the conjunction taken over the trailing axis). -/
def inRange (idx : IVec S128x2048x1 32) : IVec S128x2048 1 :=
  Host.reduce IntOp.andi
    (andi (cmpi .sge idx (broadcastInDim S128x2048x1 ![] bcast_S_S128x2048x1 (constantI S_ 32 0#32)))
      (cmpi .sle idx (broadcastInDim S128x2048x1 ![0, 1, 2] bcast_S1x1x1_S128x2048x1_0_1_2
        (broadcastInDim S1x1x1 ![2] bcast_S1_S1x1x1_2 (constantI S1 32 2047#32)))))
    (constantI S_ 1 1#1) reducesTo_S128x2048x1_S128x2048_d2 h_S_

/-- A table with one row of 2048 entries per batch row, read along the row at the wrapped junction entries; an
    entry that falls outside the row reads the fill value instead. -/
def takeAlong {α : Type} (x fill : S128x2048.Idx → α) (tjFlat : IVec S128x2048 32) : S128x2048.Idx → α :=
  select (inRange (wrapIdx tjFlat))
    (Host.gather gather_S128x2048_S128x2048x1_S128x2048_n_1_0_0_1_2_11 x (wrapIdx tjFlat)) fill

/-- One score per transcript: the potentials read at the transcript's junctions (a NaN where the entry is out of
    range), weighed by the mask and summed over the junctions of the transcript. -/
def scoreF (pot : FVec F S128x2048 .f32) (tjFlat : IVec S128x2048 32) (mask : FVec F S128x64x32 .f32) :
    FVec F S128x64 .f32 :=
  Host.reduceAdd (F := F)
    (mulf
      (shapeCast S128x64x32
        (takeAlong pot (broadcastInDim S128x2048 ![] bcast_S_S128x2048 (constant (F := F) S_ .f32 0x7FC00000#32)) tjFlat)
        shapeCasts_S128x2048_S128x64x32)
      mask)
    (constant (F := F) S_ .f32 0x00000000#32) reducesTo_S128x64x32_S128x64_d2 h_S_

/-- The softmax over the 64 transcript scores and the reference's, the 65th: the row maximum is subtracted, the
    exponentials are divided by their sum. -/
def weightsF (score : FVec F S128x64 .f32) (refCol : FVec F S128x1 .f32) : FVec F S128x65 .f32 :=
  let scores : FVec F S128x65 .f32 :=
    concatenate S128x65 1 [⟨S128x64, score⟩, ⟨S128x1, refCol⟩] concatenates_S128x64_S128x1_S128x65_d1
  let rowMax : FVec F S128 .f32 :=
    maximumf (broadcastInDim S128 ![] bcast_S_S128 (constant (F := F) S_ .f32 0xFF800000#32))
      (Host.reduce FloatOps.maximumf scores (constant (F := F) S_ .f32 0xFF800000#32) reducesTo_S128x65_S128_d1 h_S_)
  let expd : FVec F S128x65 .f32 :=
    Host.exp (F := F) (subf scores
      (broadcastInDim S128x65 ![0, 1] bcast_S128x1_S128x65_0_1 (broadcastInDim S128x1 ![0] bcast_S128_S128x1_0 rowMax)))
  let rowSum : FVec F S128 .f32 :=
    Host.reduceAdd (F := F) expd (constant (F := F) S_ .f32 0x00000000#32) reducesTo_S128x65_S128_d1 h_S_
  Host.divf (F := F) expd
    (broadcastInDim S128x65 ![0, 1] bcast_S128x1_S128x65_0_1 (broadcastInDim S128x1 ![0] bcast_S128_S128x1_0 rowSum))

/-- The donor (or acceptor) position of each junction of each transcript: the position table read at the
    transcript's junctions (the least integer where the entry is out of range). -/
def posOf (pos : IVec S128x2048 32) (tjFlat : IVec S128x2048 32) : IVec S128x64x32 32 :=
  shapeCast S128x64x32
    (takeAlong pos (broadcastInDim S128x2048 ![] bcast_S_S128x2048 (constantI S_ 32 2147483648#32)) tjFlat)
    shapeCasts_S128x2048_S128x64x32

/-- A position within batch row b as a position in the flattened array of 128 rows of 4098: 4098 * b is added, and
    a negative sum wraps by the array's length 524544. -/
def flatPos (at3 : IVec S128x64x32 32) : IVec S262144x1 32 :=
  let rowStart : IVec S128x1x1 32 :=
    broadcastInDim S128x1x1 ![0] bcast_S128_S128x1x1_0
      (muli (iotaInDim S128 32 0) (broadcastInDim S128 ![] bcast_S_S128 (constantI S_ 32 4098#32)))
  let flat : IVec S262144 32 :=
    shapeCast S262144 (addi (broadcastInDim S128x64x32 ![0, 1, 2] bcast_S128x1x1_S128x64x32_0_1_2 rowStart) at3)
      shapeCasts_S128x64x32_S262144
  broadcastInDim S262144x1 ![0] bcast_S262144_S262144x1_0
    (select (cmpi .slt flat (broadcastInDim S262144 ![] bcast_S_S262144 (constantI S_ 32 0#32)))
      (addi flat (broadcastInDim S262144 ![] bcast_S_S262144 (constantI S_ 32 524544#32))) flat)

/-- The first 64 softmax weights, spread over the junctions of their transcript and weighed by the mask, are added
    into rows of zeros at the donor positions and then at the acceptor positions; of each row of 4098 the first 4096
    entries are kept. -/
def spreadF (weights : FVec F S128x65 .f32) (mask : FVec F S128x64x32 .f32) (donAt3 accAt3 : IVec S128x64x32 32) :
    FVec F S128x4096 .f32 :=
  let contrib : FVec F S128x64x32 .f32 :=
    mulf
      (broadcastInDim S128x64x32 ![0, 1, 2] bcast_S128x64x1_S128x64x32_0_1_2
        (broadcastInDim S128x64x1 ![0, 1] bcast_S128x64_S128x64x1_0_1
          (extractStridedSlice S128x64 ![0, 0] weights slices_S128x65_S128x64_0_0)))
      mask
  let upd : FVec F S262144 .f32 := shapeCast S262144 contrib shapeCasts_S128x64x32_S262144
  let zeros : FVec F S524544 .f32 :=
    broadcastInDim S524544 ![] bcast_S_S524544 (constant (F := F) S_ .f32 0x00000000#32)
  let withDon : FVec F S524544 .f32 :=
    Host.scatterAdd (F := F) scatter_S524544_S262144x1_S262144_n_0_0_1 zeros (flatPos donAt3) upd
  let withAcc : FVec F S524544 .f32 :=
    Host.scatterAdd (F := F) scatter_S524544_S262144x1_S262144_n_0_0_1 withDon (flatPos accAt3) upd
  extractStridedSlice S128x4096 ![0, 0] (shapeCast S128x4098 withAcc shapeCasts_S524544_S128x4098)
    slices_S128x4098_S128x4096_0_0

/-- The five stages composed. -/
def tailF (pot : FVec F S128x2048 .f32) (don acc : IVec S128x2048 32) (tj : IVec S128x64x32 32)
    (mask : FVec F S128x64x32 .f32) (refpot : FVec F S1 .f32) : FVec F S128x4096 .f32 :=
  let tjFlat : IVec S128x2048 32 := shapeCast S128x2048 tj shapeCasts_S128x64x32_S128x2048
  spreadF (weightsF (scoreF pot tjFlat mask) (broadcastInDim S128x1 ![1] bcast_S1_S128x1_1 refpot)) mask
    (posOf don tjFlat) (posOf acc tjFlat)

/-! ## The operation list cut at the stages -/

/-- Operations 1 to 29: the potentials and the junction table reshaped, the potentials read at the junctions, the
    transcript scores, the reference's score as a column. -/
abbrev opsA : List (HloOp τ sig (Elt F)) := (hostOps1 (F := F)).take 29
/-- Operations 30 to 129. -/
abbrev restA : List (HloOp τ sig (Elt F)) := (hostOps1 (F := F)).drop 29
/-- Operations 30 to 44: the softmax. -/
abbrev opsB : List (HloOp τ sig (Elt F)) := (restA (F := F)).take 15
/-- Operations 45 to 129. -/
abbrev restB : List (HloOp τ sig (Elt F)) := (restA (F := F)).drop 15
/-- Operations 45 to 67: the donor positions read at the junctions. -/
abbrev opsC : List (HloOp τ sig (Elt F)) := (restB (F := F)).take 23
/-- Operations 68 to 129. -/
abbrev restC : List (HloOp τ sig (Elt F)) := (restB (F := F)).drop 23
/-- Operations 68 to 90: the acceptor positions read at the junctions. -/
abbrev opsD : List (HloOp τ sig (Elt F)) := (restC (F := F)).take 23
/-- Operations 91 to 129: the weights spread, scattered and sliced. -/
abbrev opsE : List (HloOp τ sig (Elt F)) := (restC (F := F)).drop 23

/-- The list is its five stretches in a row. -/
theorem hostOps1_split :
    (hostOps1 (F := F)) = opsA (F := F) ++ (opsB (F := F) ++ (opsC (F := F) ++ (opsD (F := F) ++ opsE (F := F)))) := by
  simp only [opsA, opsB, opsC, opsD, opsE, restA, restB, restC, List.take_append_drop]

/-! ## What each stretch leaves, from any contents

    For each stretch: the values later stretches read that it computes, as the stage's function of the contents
    before it, and the values later stretches read that it leaves alone. Each is read off the stretch's operations:
    the stretch is unfolded to its operations, each operation's result is rewritten at its own buffer to its
    function's value and at any other buffer to what was there, and what is left is the stage's term up to the
    identity transports of typed buffers. -/

open Idealize.ShloMosaic.StableHlo in
/-- Reads a buffer's contents after a stretch off the stretch's operations. -/
macro "read_stretch" : tactic =>
  `(tactic|
    (simp only [opsA, opsB, opsC, opsD, opsE, restA, restB, restC, hostOps1,
       List.drop_succ_cons, List.drop_zero, List.take_succ_cons, List.take_zero]
     after_results_simp <;> (try simp only [TRef.ofBuf, TRef.toBuf, cast_eq]) <;> rfl))

/-! ### Operations 1 to 29 -/

set_option maxRecDepth 8192 in
set_option maxHeartbeats 4000000 in
/-- The transcript scores. -/
theorem afterA_score (V : Valuation τ sig (Elt F)) :
    StableHlo.after (opsA (F := F)) V (Proc.devRef .tc main_call0_v10)
      = scoreF (shapeCast S128x2048 (V (Proc.devRef .tc main_call0_v4)) shapeCasts_S128x1x2048_S128x2048)
          (shapeCast S128x2048 (V (Proc.devRef .tc main_arg10)) shapeCasts_S128x64x32_S128x2048)
          (V (Proc.devRef .tc main_arg11)) := by
  read_stretch

set_option maxRecDepth 8192 in
set_option maxHeartbeats 4000000 in
/-- The reference's score as a column. -/
theorem afterA_refCol (V : Valuation τ sig (Elt F)) :
    StableHlo.after (opsA (F := F)) V (Proc.devRef .tc main_call0_v11)
      = broadcastInDim S128x1 ![1] bcast_S1_S128x1_1 (V (Proc.devRef .tc main_arg3)) := by
  read_stretch

set_option maxRecDepth 8192 in
set_option maxHeartbeats 4000000 in
/-- The junction table with its two trailing axes merged. -/
theorem afterA_tjFlat (V : Valuation τ sig (Elt F)) :
    StableHlo.after (opsA (F := F)) V (Proc.devRef .tc main_call0_v6)
      = shapeCast S128x2048 (V (Proc.devRef .tc main_arg10)) shapeCasts_S128x64x32_S128x2048 := by
  read_stretch

set_option maxRecDepth 8192 in
set_option maxHeartbeats 4000000 in
/-- The mask is left alone. -/
theorem afterA_mask (V : Valuation τ sig (Elt F)) :
    StableHlo.after (opsA (F := F)) V (Proc.devRef .tc main_arg11) = V (Proc.devRef .tc main_arg11) := by
  read_stretch

set_option maxRecDepth 8192 in
set_option maxHeartbeats 4000000 in
/-- The donor table is left alone. -/
theorem afterA_don (V : Valuation τ sig (Elt F)) :
    StableHlo.after (opsA (F := F)) V (Proc.devRef .tc main_call0_v0) = V (Proc.devRef .tc main_call0_v0) := by
  read_stretch

set_option maxRecDepth 8192 in
set_option maxHeartbeats 4000000 in
/-- The acceptor table is left alone. -/
theorem afterA_acc (V : Valuation τ sig (Elt F)) :
    StableHlo.after (opsA (F := F)) V (Proc.devRef .tc main_call0_v1) = V (Proc.devRef .tc main_call0_v1) := by
  read_stretch

/-! ### Operations 30 to 44 -/

set_option maxRecDepth 8192 in
set_option maxHeartbeats 4000000 in
/-- The softmax weights. -/
theorem afterB_weights (V : Valuation τ sig (Elt F)) :
    StableHlo.after (opsB (F := F)) V (Proc.devRef .tc main_call0_v23)
      = weightsF (V (Proc.devRef .tc main_call0_v10)) (V (Proc.devRef .tc main_call0_v11)) := by
  read_stretch

set_option maxRecDepth 8192 in
set_option maxHeartbeats 4000000 in
/-- The mask is left alone. -/
theorem afterB_mask (V : Valuation τ sig (Elt F)) :
    StableHlo.after (opsB (F := F)) V (Proc.devRef .tc main_arg11) = V (Proc.devRef .tc main_arg11) := by
  read_stretch

set_option maxRecDepth 8192 in
set_option maxHeartbeats 4000000 in
/-- The donor table is left alone. -/
theorem afterB_don (V : Valuation τ sig (Elt F)) :
    StableHlo.after (opsB (F := F)) V (Proc.devRef .tc main_call0_v0) = V (Proc.devRef .tc main_call0_v0) := by
  read_stretch

set_option maxRecDepth 8192 in
set_option maxHeartbeats 4000000 in
/-- The acceptor table is left alone. -/
theorem afterB_acc (V : Valuation τ sig (Elt F)) :
    StableHlo.after (opsB (F := F)) V (Proc.devRef .tc main_call0_v1) = V (Proc.devRef .tc main_call0_v1) := by
  read_stretch

set_option maxRecDepth 8192 in
set_option maxHeartbeats 4000000 in
/-- The merged junction table is left alone. -/
theorem afterB_tjFlat (V : Valuation τ sig (Elt F)) :
    StableHlo.after (opsB (F := F)) V (Proc.devRef .tc main_call0_v6) = V (Proc.devRef .tc main_call0_v6) := by
  read_stretch

/-! ### Operations 45 to 67 -/

set_option maxRecDepth 8192 in
set_option maxHeartbeats 4000000 in
/-- The donor positions at the junctions. -/
theorem afterC_donAt (V : Valuation τ sig (Elt F)) :
    StableHlo.after (opsC (F := F)) V (Proc.devRef .tc main_call0_v25)
      = posOf (V (Proc.devRef .tc main_call0_v0)) (V (Proc.devRef .tc main_call0_v6)) := by
  read_stretch

set_option maxRecDepth 8192 in
set_option maxHeartbeats 4000000 in
/-- The softmax weights are left alone. -/
theorem afterC_weights (V : Valuation τ sig (Elt F)) :
    StableHlo.after (opsC (F := F)) V (Proc.devRef .tc main_call0_v23) = V (Proc.devRef .tc main_call0_v23) := by
  read_stretch

set_option maxRecDepth 8192 in
set_option maxHeartbeats 4000000 in
/-- The mask is left alone. -/
theorem afterC_mask (V : Valuation τ sig (Elt F)) :
    StableHlo.after (opsC (F := F)) V (Proc.devRef .tc main_arg11) = V (Proc.devRef .tc main_arg11) := by
  read_stretch

set_option maxRecDepth 8192 in
set_option maxHeartbeats 4000000 in
/-- The acceptor table is left alone. -/
theorem afterC_acc (V : Valuation τ sig (Elt F)) :
    StableHlo.after (opsC (F := F)) V (Proc.devRef .tc main_call0_v1) = V (Proc.devRef .tc main_call0_v1) := by
  read_stretch

set_option maxRecDepth 8192 in
set_option maxHeartbeats 4000000 in
/-- The merged junction table is left alone. -/
theorem afterC_tjFlat (V : Valuation τ sig (Elt F)) :
    StableHlo.after (opsC (F := F)) V (Proc.devRef .tc main_call0_v6) = V (Proc.devRef .tc main_call0_v6) := by
  read_stretch

/-! ### Operations 68 to 90 -/

set_option maxRecDepth 8192 in
set_option maxHeartbeats 4000000 in
/-- The acceptor positions at the junctions. -/
theorem afterD_accAt (V : Valuation τ sig (Elt F)) :
    StableHlo.after (opsD (F := F)) V (Proc.devRef .tc main_call0_v27)
      = posOf (V (Proc.devRef .tc main_call0_v1)) (V (Proc.devRef .tc main_call0_v6)) := by
  read_stretch

set_option maxRecDepth 8192 in
set_option maxHeartbeats 4000000 in
/-- The softmax weights are left alone. -/
theorem afterD_weights (V : Valuation τ sig (Elt F)) :
    StableHlo.after (opsD (F := F)) V (Proc.devRef .tc main_call0_v23) = V (Proc.devRef .tc main_call0_v23) := by
  read_stretch

set_option maxRecDepth 8192 in
set_option maxHeartbeats 4000000 in
/-- The mask is left alone. -/
theorem afterD_mask (V : Valuation τ sig (Elt F)) :
    StableHlo.after (opsD (F := F)) V (Proc.devRef .tc main_arg11) = V (Proc.devRef .tc main_arg11) := by
  read_stretch

set_option maxRecDepth 8192 in
set_option maxHeartbeats 4000000 in
/-- The donor positions at the junctions are left alone. -/
theorem afterD_donAt (V : Valuation τ sig (Elt F)) :
    StableHlo.after (opsD (F := F)) V (Proc.devRef .tc main_call0_v25) = V (Proc.devRef .tc main_call0_v25) := by
  read_stretch

/-! ### Operations 91 to 129 -/

set_option maxRecDepth 8192 in
set_option maxHeartbeats 4000000 in
/-- The result. -/
theorem afterE_out (V : Valuation τ sig (Elt F)) :
    StableHlo.after (opsE (F := F)) V (Proc.devRef .tc main_v0)
      = spreadF (V (Proc.devRef .tc main_call0_v23)) (V (Proc.devRef .tc main_arg11))
          (V (Proc.devRef .tc main_call0_v25)) (V (Proc.devRef .tc main_call0_v27)) := by
  read_stretch

/-! ## The whole tail -/

section Whole

-- from here on the contents after a stretch are known only through the facts above, never by computing the fold
attribute [local irreducible] Idealize.ShloMosaic.StableHlo.after

set_option maxRecDepth 8192 in
set_option maxHeartbeats 4000000 in
/-- The 129 operations, from any contents and for any float values, leave in the result buffer the five stages
    composed: of the potentials the kernel wrote (their unit axis dropped), the two clipped position tables, the
    junction table, the mask and the reference potential. -/
theorem after_tailF (W : Valuation τ sig (Elt F)) :
    StableHlo.after (hostOps1 (F := F)) W (Proc.devRef .tc main_v0)
      = tailF (shapeCast S128x2048 (W (Proc.devRef .tc main_call0_v4)) shapeCasts_S128x1x2048_S128x2048)
          (W (Proc.devRef .tc main_call0_v0)) (W (Proc.devRef .tc main_call0_v1))
          (W (Proc.devRef .tc main_arg10)) (W (Proc.devRef .tc main_arg11)) (W (Proc.devRef .tc main_arg3)) := by
  rw [hostOps1_split, StableHlo.after_append, StableHlo.after_append, StableHlo.after_append, StableHlo.after_append]
  rw [afterE_out]
  rw [afterD_accAt, afterD_weights, afterD_mask, afterD_donAt]
  rw [afterC_donAt, afterC_weights, afterC_mask, afterC_acc, afterC_tjFlat]
  rw [afterB_weights, afterB_mask, afterB_don, afterB_acc, afterB_tjFlat]
  rw [afterA_score, afterA_refCol, afterA_tjFlat, afterA_mask, afterA_don, afterA_acc]
  rfl

end Whole

/-! ## At the extended reals -/

/-- What the host computes once the junction potentials are known, at the extended reals.

    The potential of junction j of batch row b is pot b j; don and acc give each junction's donor and acceptor
    position; tj b t k names the k-th junction of transcript t (a negative entry counts from the end of the row),
    mask weighs it, and refpot is the potential of the reference transcript. The potentials are read at the
    junctions of each transcript and their masked sum is the transcript's score; the 64 scores and the reference's
    go through a softmax; the first 64 weights, spread over the junctions and masked, are added into 128 rows of 4098
    zeros at the donor and at the acceptor positions, and the first 4096 entries of each row are the result. -/
def tail (pot : FVec Ideal S128x2048 .f32) (don acc : IVec S128x2048 32) (tj : IVec S128x64x32 32)
    (mask : FVec Ideal S128x64x32 .f32) (refpot : FVec Ideal S1 .f32) : FVec Ideal S128x4096 .f32 :=
  tailF (F := Ideal) pot don acc tj mask refpot

/-- The 129 host operations after the kernel leave in the result buffer the tail of the potentials the kernel wrote
    (their unit axis dropped), the two clipped position tables, the junction table, the mask and the reference
    potential. -/
theorem after_tail (W : Valuation τ sig (Elt Ideal)) :
    StableHlo.after (hostOps1 (F := Ideal)) W (Proc.devRef .tc main_v0)
      = tail (shapeCast S128x2048 (W (Proc.devRef .tc main_call0_v4)) shapeCasts_S128x1x2048_S128x2048)
          (W (Proc.devRef .tc main_call0_v0)) (W (Proc.devRef .tc main_call0_v1))
          (W (Proc.devRef .tc main_arg10)) (W (Proc.devRef .tc main_arg11)) (W (Proc.devRef .tc main_arg3)) :=
  after_tailF (F := Ideal) W

end Cert.KernelIdeal.Tail

end
-- ==== Proof.KI.Bridge2.lean ====
/-
  The kernel side's last step: what the program leaves in its result buffer.

  The region leaves in its output array the junction potentials, one row of 2048 per gene under a unit middle axis. The
  129 host operations after the region drop that axis and apply the tail (scores of the transcripts at their junctions,
  a softmax with the reference's score, the weights spread back and added at the donor and acceptor positions) to the
  potentials, the two position tables as clipped before the region, the junction table, the mask and the reference
  potential. A position table whose words all lie in [0, 4097] is unchanged by the clip, so the tail is applied to the
  arguments themselves. The run is the frame's run with its post read at the result buffer; the argument arrays end
  as they began.
-/
import proofs.«422879_j30666066494039_3_alg».proof.Proof.KI.Bridge1
import proofs.«422879_j30666066494039_3_alg».proof.Proof.Tail
import proofs.«422879_j30666066494039_3_alg».proof.Proof.HostPre

set_option maxRecDepth 16384

noncomputable section

open scoped BigOperators

namespace Cert.KernelIdeal.Bridge

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ)

/-! ## The potentials with their unit axis dropped -/

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The region's output array, its unit middle axis dropped, is the array of potentials. -/
theorem G_flat (c : Dev nD) :
    shapeCast S128x2048 (G m c) shapeCasts_S128x1x2048_S128x2048
      = Cert.Spec.pot (A0 m c) (A1 m c) (A2 m c) (D8 m c) (D9 m c) (A4 m c) (A5 m c) (A6 m c) (A7 m c) := by
  funext i
  obtain ⟨g, j, rfl⟩ : ∃ (g : Fin 128) (j : Fin 2048), i = ix2 g j := ⟨i 0, i 1, eq_ix2 i⟩
  refine (shapeCast_a1b_ab_apply (G m c) shapeCasts_S128x1x2048_S128x2048 g j).trans ?_
  rfl

/-! ## The host tail's six operands -/

/-- The tail is a function of its six operands. -/
theorem tail_congr {p p' : FVec Ideal S128x2048 .f32} {d d' a a' : IVec S128x2048 32} {tj tj' : IVec S128x64x32 32}
    {mk mk' : FVec Ideal S128x64x32 .f32} {rp rp' : FVec Ideal S1 .f32}
    (h1 : p = p') (h2 : d = d') (h3 : a = a') (h4 : tj = tj') (h5 : mk = mk') (h6 : rp = rp') :
    Tail.tail p d a tj mk rp = Tail.tail p' d' a' tj' mk' rp' := by
  subst h1 h2 h3 h4 h5 h6; rfl

/-- What the host operations after the region leave in the result buffer: the tail of the potentials, of the two
    position tables as they came (the clip changes no word already in range), of the junction table, the mask and the
    reference potential. -/
theorem kernel_result (c : Dev nD) (h : Hyp m c) :
    Pipeline.afterTail₀ cfgs (Fr.dats m) 0 (Fr.V0 m) [hostOps1] c main_v0
      = Cert.KernelIdeal.Tail.tail (Cert.Spec.pot (A0 m c) (A1 m c) (A2 m c) (D8 m c) (D9 m c) (A4 m c) (A5 m c) (A6 m c) (A7 m c))
          (D8 m c) (D9 m c) (m ((c : Thread nD τ).loc main_arg10)) (m ((c : Thread nD τ).loc main_arg11))
          (m ((c : Thread nD τ).loc main_arg3)) := by
  unfold Pipeline.afterTail₀
  simp only [List.flatten_cons, List.flatten_nil, List.append_nil]
  rw [Cert.KernelIdeal.Tail.after_tail]
  refine tail_congr ?_ ?_ ?_ ?_ ?_ ?_
  · -- the region's output array holds the potentials
    refine Eq.trans (congrArg (fun x => shapeCast S128x2048 x shapeCasts_S128x1x2048_S128x2048)
      ((Pipeline.withArrays_arr spec0 launch0.win.arr_inj c (V0 m c) (fun w => (dats m 0 c).arrAt w cfg0.N) 8).trans (final8 m c h))) ?_
    exact G_flat m c
  · -- the donor table: clipped before the region, and the clip is the identity on it
    refine (Pipeline.withArrays_of_ne spec0 c (V0 m c) _ main_call0_v0 (by decide)).trans ?_
    show StableHlo.after (List.flatten [hostOps0]) (fun b => m (c, b)) (Proc.devRef .tc main_call0_v0) = _
    simp only [List.flatten_cons, List.flatten_nil, List.append_nil]
    rw [Cert.KernelIdeal.HostPre.after_don]
    exact Cert.KernelIdeal.HostPre.clipIdx_of_inRange _ h.d8
  · -- the acceptor table likewise
    refine (Pipeline.withArrays_of_ne spec0 c (V0 m c) _ main_call0_v1 (by decide)).trans ?_
    show StableHlo.after (List.flatten [hostOps0]) (fun b => m (c, b)) (Proc.devRef .tc main_call0_v1) = _
    simp only [List.flatten_cons, List.flatten_nil, List.append_nil]
    rw [Cert.KernelIdeal.HostPre.after_acc]
    exact Cert.KernelIdeal.HostPre.clipIdx_of_inRange _ h.d9
  · exact (Pipeline.withArrays_of_ne spec0 c (V0 m c) _ main_arg10 (by decide)).trans (V_main_arg10 m c)
  · exact (Pipeline.withArrays_of_ne spec0 c (V0 m c) _ main_arg11 (by decide)).trans (V_main_arg11 m c)
  · exact (Pipeline.withArrays_of_ne spec0 c (V0 m c) _ main_arg3 (by decide)).trans (V_main_arg3 m c)

/-! ## The run -/

/-- Every weakly fair execution of the program terminates without a fault; the result buffer ends at the tail of the
    potentials, and every argument array ends as it began. -/
theorem kernel_run (ρ : Dev nD → PrngReg) (h : ∀ c, Hyp m c) :
    θ_run (defs (F := Ideal)) (onTc (τ := τ) (main (F := Ideal))) ⟨m, fun _ => 0, ρ⟩ (fun r => ∀ c : Dev nD,
      r.2.mem ((c.tc : Thread nD τ).loc main_v0)
          = Cert.KernelIdeal.Tail.tail (Cert.Spec.pot (A0 m c) (A1 m c) (A2 m c) (D8 m c) (D9 m c) (A4 m c) (A5 m c) (A6 m c) (A7 m c))
              (D8 m c) (D9 m c) (m ((c.tc : Thread nD τ).loc main_arg10)) (m ((c.tc : Thread nD τ).loc main_arg11))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h' c =>
    ⟨((h' c).2 main_v0 (Pipeline.mem_restRefs_of main_v0 (by decide) (by decide))).trans (kernel_result m c (h c)),
      ⟨((h' c).1 0).trans (((dats m 0 c).arrAt_in 0 rfl _).trans ((A_eq m c 0).trans (V_main_arg0 m c))),
      ⟨((h' c).1 1).trans (((dats m 0 c).arrAt_in 1 rfl _).trans ((A_eq m c 1).trans (V_main_arg1 m c))),
      ⟨((h' c).1 2).trans (((dats m 0 c).arrAt_in 2 rfl _).trans ((A_eq m c 2).trans (V_main_arg2 m c))),
      ⟨((h' c).2 main_arg3 (Pipeline.mem_restRefs_of main_arg3 (by decide) (by decide))).trans (tail_main_arg3 m c),
      ⟨((h' c).1 4).trans (((dats m 0 c).arrAt_in 4 rfl _).trans ((A_eq m c 4).trans (V_main_arg4 m c))),
      ⟨((h' c).1 5).trans (((dats m 0 c).arrAt_in 5 rfl _).trans ((A_eq m c 5).trans (V_main_arg5 m c))),
      ⟨((h' c).1 6).trans (((dats m 0 c).arrAt_in 6 rfl _).trans ((A_eq m c 6).trans (V_main_arg6 m c))),
      ⟨((h' c).1 7).trans (((dats m 0 c).arrAt_in 7 rfl _).trans ((A_eq m c 7).trans (V_main_arg7 m c))),
      ⟨((h' c).2 main_arg8 (Pipeline.mem_restRefs_of main_arg8 (by decide) (by decide))).trans (tail_main_arg8 m c),
      ⟨((h' c).2 main_arg9 (Pipeline.mem_restRefs_of main_arg9 (by decide) (by decide))).trans (tail_main_arg9 m c),
      ⟨((h' c).2 main_arg10 (Pipeline.mem_restRefs_of main_arg10 (by decide) (by decide))).trans (tail_main_arg10 m c),
      ((h' c).2 main_arg11 (Pipeline.mem_restRefs_of main_arg11 (by decide) (by decide))).trans (tail_main_arg11 m c)⟩⟩⟩⟩⟩⟩⟩⟩⟩⟩⟩⟩) (run_main m ρ)

end Cert.KernelIdeal.Bridge

end
-- ==== Proof.LibNary3.lean ====
/-
  A host operation over a LITERAL family of three references (a concatenate of three operands): its result
  with each operand's contents at its own reference.

  The result of an operation over a family `xs` of references is its function applied to
  `fun k => F (xs k)`.  Under that binder the reference `xs k` is no literal, so no result lemma of an earlier
  operation applies to it and a run cannot go on rewriting the operands' contents.  For the family
  `![x, a, b]` the same value is the function applied to the three contents listed one by one, where each is
  read at a literal reference again.  The statement follows the library's lemma for four references.
-/
import Idealize.ShloMosaic.Lib.StableHlo.Run

noncomputable section

namespace Idealize.ShloMosaic.StableHlo

variable {nD : Nat} {τ : Topo} {sig : RefSig} {Val : EltTy → Type}
variable {x a b y : Ref sig .tc}

/-- The result of an operation over the literal family `![x, a, b]`, its operands read one by one. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed for a simp pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The contents after a line of operations, read by one simp pass, a three-operand operation by `nary3_result'`. -/
macro "after_results_simp3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefAfter.lean ====
import proofs.«422879_j30666066494039_3_alg».proof.Proof.RefRead
import proofs.«422879_j30666066494039_3_alg».proof.Proof.LibNary3
import Idealize.ShloMosaic.Lib.StableHlo.Run
import Idealize.ShloMosaic.Lib.Pipeline.Frame

noncomputable section

namespace Cert.RefAfter

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo

variable {F : FTy → Type} [FloatOps F]

/-! # The reference program's run, read stage by stage

    The reference is 190 host operations in a row. What its result buffer holds at the end is the value
    val_main_v72 of the twelve arguments; each argument is left as it was. The operations are read in six
    stretches, cut before each of the three concatenates:

    * 1 to 2: the two bias rows as rows of the table;
    * 3 to 49: the table with the two rows joined, read at the donor and at the acceptor positions;
    * 50 to 90: the two readings joined and put through the two layers, which gives the junction potentials; the
      potentials read at the transcripts' junctions and summed to transcript scores; the reference's score;
    * 91 to 105: the softmax;
    * 106 to 151: the donor and the acceptor positions read at the transcripts' junctions;
    * 152 to 190: the weights scattered and sliced.

    Each stretch is read from ANY contents: given that the buffers it reads hold the earlier stages' values, the
    buffer it hands on holds its own stage's value. The facts are then chained along the six stretches. -/

/-! ## The arguments are never written -/

/-- The program's twelve arguments. -/
abbrev argRefs : List (Ref sig .tc) :=
  [main_arg0, main_arg1, main_arg2, main_arg3, main_arg4, main_arg5, main_arg6, main_arg7, main_arg8, main_arg9,
   main_arg10, main_arg11]

set_option maxRecDepth 16384 in
set_option maxHeartbeats 40000000 in
/-- No operation writes an argument: each operation writes its own result buffer, and none of those is an
    argument's. -/
theorem ops_keep_args :
    ∀ b ∈ argRefs, ∀ op ∈ (ops (F := F)), Proc.devRef (τ := τ) .tc b ∉ op.writes := by
  intro b hb
  simp only [argRefs, List.mem_cons, List.mem_nil_iff, or_false] at hb
  rcases hb with rfl | rfl | rfl | rfl | rfl | rfl | rfl | rfl | rfl | rfl | rfl | rfl <;>
  · refine List.forall_iff_forall_mem.mp ?_
    simp only [ops, List.Forall, nullary_writes, unary_writes, binary_writes, ternary_writes, reshape_writes,
      nary_writes, Finset.mem_singleton]
    repeat' apply And.intro
    all_goals exact devRef_ne_of_ne (by decide)

/-- A line of operations taken from the program leaves every argument as it was. -/
theorem keeps_arg {S : List (HloOp τ sig (Elt F))} (hS : ∀ op ∈ S, op ∈ (ops (F := F)))
    (V : Valuation τ sig (Elt F)) (b : Ref sig .tc) (hb : b ∈ argRefs := by decide) :
    StableHlo.after S V (Proc.devRef .tc b) = V (Proc.devRef .tc b) :=
  after_of_forall_not_mem S V fun op hop => ops_keep_args b hb op (hS op hop)

/-- The whole program leaves every argument as it was. -/
theorem after_arg (W : Valuation τ sig (Elt F)) (b : Ref sig .tc)
    (hb : b ∈ [main_arg0, main_arg1, main_arg2, main_arg3, main_arg4, main_arg5, main_arg6, main_arg7, main_arg8,
      main_arg9, main_arg10, main_arg11]) :
    StableHlo.after (ops (F := F)) W (Proc.devRef .tc b) = W (Proc.devRef .tc b) :=
  after_of_forall_not_mem _ W (ops_keep_args b hb)

/-! ## The operation list cut at the stages -/

/-- Operations 1 to 2. -/
abbrev sA : List (HloOp τ sig (Elt F)) := (ops (F := F)).take 2
/-- Operations 3 to 190. -/
abbrev r1 : List (HloOp τ sig (Elt F)) := (ops (F := F)).drop 2
/-- Operations 3 to 49. -/
abbrev sB : List (HloOp τ sig (Elt F)) := (r1 (F := F)).take 47
/-- Operations 50 to 190. -/
abbrev r2 : List (HloOp τ sig (Elt F)) := (r1 (F := F)).drop 47
/-- Operations 50 to 90. -/
abbrev sC : List (HloOp τ sig (Elt F)) := (r2 (F := F)).take 41
/-- Operations 91 to 190. -/
abbrev r3 : List (HloOp τ sig (Elt F)) := (r2 (F := F)).drop 41
/-- Operations 91 to 105. -/
abbrev sD : List (HloOp τ sig (Elt F)) := (r3 (F := F)).take 15
/-- Operations 106 to 190. -/
abbrev r4 : List (HloOp τ sig (Elt F)) := (r3 (F := F)).drop 15
/-- Operations 106 to 151. -/
abbrev sE : List (HloOp τ sig (Elt F)) := (r4 (F := F)).take 46
/-- Operations 152 to 190. -/
abbrev sF : List (HloOp τ sig (Elt F)) := (r4 (F := F)).drop 46

/-- The program is its six stretches in a row. -/
theorem ops_split :
    (ops (F := F)) = sA (F := F) ++ (sB (F := F) ++ (sC (F := F) ++ (sD (F := F) ++ (sE (F := F) ++ sF (F := F))))) := by
  simp only [sA, sB, sC, sD, sE, sF, r1, r2, r3, r4, List.take_append_drop]

theorem sA_sub : ∀ op ∈ (sA (F := F)), op ∈ (ops (F := F)) := fun _ h => List.mem_of_mem_take h
theorem sB_sub : ∀ op ∈ (sB (F := F)), op ∈ (ops (F := F)) := fun _ h => List.mem_of_mem_drop (List.mem_of_mem_take h)
theorem sC_sub : ∀ op ∈ (sC (F := F)), op ∈ (ops (F := F)) := fun _ h =>
  List.mem_of_mem_drop (List.mem_of_mem_drop (List.mem_of_mem_take h))
theorem sD_sub : ∀ op ∈ (sD (F := F)), op ∈ (ops (F := F)) := fun _ h =>
  List.mem_of_mem_drop (List.mem_of_mem_drop (List.mem_of_mem_drop (List.mem_of_mem_take h)))
theorem sE_sub : ∀ op ∈ (sE (F := F)), op ∈ (ops (F := F)) := fun _ h =>
  List.mem_of_mem_drop (List.mem_of_mem_drop (List.mem_of_mem_drop (List.mem_of_mem_drop (List.mem_of_mem_take h))))

/-! ## What each stretch leaves, from any contents -/

/-- Unfolds a stretch to its operations and rewrites each operation's result at its own buffer to its function's
    value and at any other buffer to what was there; the identity transports of typed buffers are removed. -/
macro "read_ops" : tactic =>
  `(tactic|
    (simp only [sA, sB, sC, sD, sE, sF, r1, r2, r3, r4, ops,
       List.drop_succ_cons, List.drop_zero, List.take_succ_cons, List.take_zero]
     after_results_simp3 <;> (try simp only [TRef.ofBuf, TRef.toBuf, cast_eq])))

section Stretches

variable (V : Valuation τ sig (Elt F))
variable {x0 : (⟨S128x4096x128, .f32⟩ : BufTy).Contents (Elt F)} {x1 x2 : (⟨S128, .f32⟩ : BufTy).Contents (Elt F)}
  {x3 : (⟨S1, .f32⟩ : BufTy).Contents (Elt F)} {x4 : (⟨S256x128, .f32⟩ : BufTy).Contents (Elt F)}
  {x5 : (⟨S128, .f32⟩ : BufTy).Contents (Elt F)} {x6 : (⟨S128x1, .f32⟩ : BufTy).Contents (Elt F)}
  {x7 : (⟨S1, .f32⟩ : BufTy).Contents (Elt F)} {x8 x9 : (⟨S128x2048, .i32⟩ : BufTy).Contents (Elt F)}
  {x10 : (⟨S128x64x32, .i32⟩ : BufTy).Contents (Elt F)} {x11 : (⟨S128x64x32, .f32⟩ : BufTy).Contents (Elt F)}

/-! ### Operations 1 to 2 -/

set_option maxRecDepth 8192 in
/-- The first bias row as a row of the table. -/
theorem A_v0 (a1 : V (Proc.devRef .tc main_arg1) = x1) :
    StableHlo.after (sA (F := F)) V (Proc.devRef .tc main_v0) = val_main_v0 (F := F) x1 := by
  read_ops
  rw [a1]
  rfl

set_option maxRecDepth 8192 in
/-- The second bias row as a row of the table. -/
theorem A_v1 (a2 : V (Proc.devRef .tc main_arg2) = x2) :
    StableHlo.after (sA (F := F)) V (Proc.devRef .tc main_v1) = val_main_v1 (F := F) x2 := by
  read_ops
  rw [a2]
  rfl

/-! ### Operations 3 to 49 -/

set_option maxRecDepth 16384 in
set_option maxHeartbeats 8000000 in
/-- The extended table read at the donor positions. -/
theorem B_v4 (h0 : V (Proc.devRef .tc main_v0) = val_main_v0 (F := F) x1)
    (h1 : V (Proc.devRef .tc main_v1) = val_main_v1 (F := F) x2)
    (a0 : V (Proc.devRef .tc main_arg0) = x0) (a8 : V (Proc.devRef .tc main_arg8) = x8) :
    StableHlo.after (sB (F := F)) V (Proc.devRef .tc main_v4) = val_main_v4 (F := F) x0 x1 x2 x8 := by
  read_ops
  rw [h0, h1, a0, a8]
  rfl

set_option maxRecDepth 16384 in
set_option maxHeartbeats 8000000 in
/-- The extended table read at the acceptor positions. -/
theorem B_v6 (h0 : V (Proc.devRef .tc main_v0) = val_main_v0 (F := F) x1)
    (h1 : V (Proc.devRef .tc main_v1) = val_main_v1 (F := F) x2)
    (a0 : V (Proc.devRef .tc main_arg0) = x0) (a9 : V (Proc.devRef .tc main_arg9) = x9) :
    StableHlo.after (sB (F := F)) V (Proc.devRef .tc main_v6) = val_main_v6 (F := F) x0 x1 x2 x9 := by
  read_ops
  rw [h0, h1, a0, a9]
  rfl

/-! ### Operations 50 to 90 -/

set_option maxRecDepth 16384 in
set_option maxHeartbeats 8000000 in
/-- The transcript scores: the two readings joined, the two layers, the potentials read at the junctions, the
    masked sum. -/
theorem C_v22 (h4 : V (Proc.devRef .tc main_v4) = val_main_v4 (F := F) x0 x1 x2 x8)
    (h6 : V (Proc.devRef .tc main_v6) = val_main_v6 (F := F) x0 x1 x2 x9)
    (a4 : V (Proc.devRef .tc main_arg4) = x4) (a5 : V (Proc.devRef .tc main_arg5) = x5)
    (a6 : V (Proc.devRef .tc main_arg6) = x6) (a7 : V (Proc.devRef .tc main_arg7) = x7)
    (a10 : V (Proc.devRef .tc main_arg10) = x10) (a11 : V (Proc.devRef .tc main_arg11) = x11) :
    StableHlo.after (sC (F := F)) V (Proc.devRef .tc main_v22)
      = val_main_v22 (F := F) x0 x1 x2 x4 x5 x6 x7 x8 x9 x10 x11 := by
  read_ops
  rw [h4, h6, a4, a5, a6, a7, a10, a11]
  rfl

set_option maxRecDepth 8192 in
/-- The reference's score as a column. -/
theorem C_v23 (a3 : V (Proc.devRef .tc main_arg3) = x3) :
    StableHlo.after (sC (F := F)) V (Proc.devRef .tc main_v23) = val_main_v23 (F := F) x3 := by
  read_ops
  rw [a3]
  rfl

set_option maxRecDepth 8192 in
/-- The junction table with its two trailing axes merged. -/
theorem C_v18 (a10 : V (Proc.devRef .tc main_arg10) = x10) :
    StableHlo.after (sC (F := F)) V (Proc.devRef .tc main_v18) = val_main_v18 (F := F) x10 := by
  read_ops
  rw [a10]
  rfl

/-! ### Operations 91 to 105 -/

set_option maxRecDepth 8192 in
set_option maxHeartbeats 4000000 in
/-- The softmax weights. -/
theorem D_v35 (h22 : V (Proc.devRef .tc main_v22) = val_main_v22 (F := F) x0 x1 x2 x4 x5 x6 x7 x8 x9 x10 x11)
    (h23 : V (Proc.devRef .tc main_v23) = val_main_v23 (F := F) x3) :
    StableHlo.after (sD (F := F)) V (Proc.devRef .tc main_v35)
      = val_main_v35 (F := F) x0 x1 x2 x3 x4 x5 x6 x7 x8 x9 x10 x11 := by
  read_ops
  rw [h22, h23]
  rfl

set_option maxRecDepth 8192 in
/-- The merged junction table is left alone. -/
theorem D_keep_v18 :
    StableHlo.after (sD (F := F)) V (Proc.devRef .tc main_v18) = V (Proc.devRef .tc main_v18) := by
  read_ops

/-! ### Operations 106 to 151 -/

set_option maxRecDepth 16384 in
set_option maxHeartbeats 8000000 in
/-- The donor positions at the junctions. -/
theorem E_v37 (h18 : V (Proc.devRef .tc main_v18) = val_main_v18 (F := F) x10)
    (a8 : V (Proc.devRef .tc main_arg8) = x8) :
    StableHlo.after (sE (F := F)) V (Proc.devRef .tc main_v37) = val_main_v37 (F := F) x8 x10 := by
  read_ops
  rw [h18, a8]
  rfl

set_option maxRecDepth 16384 in
set_option maxHeartbeats 8000000 in
/-- The acceptor positions at the junctions. -/
theorem E_v39 (h18 : V (Proc.devRef .tc main_v18) = val_main_v18 (F := F) x10)
    (a9 : V (Proc.devRef .tc main_arg9) = x9) :
    StableHlo.after (sE (F := F)) V (Proc.devRef .tc main_v39) = val_main_v39 (F := F) x9 x10 := by
  read_ops
  rw [h18, a9]
  rfl

set_option maxRecDepth 16384 in
set_option maxHeartbeats 8000000 in
/-- The softmax weights are left alone. -/
theorem E_keep_v35 :
    StableHlo.after (sE (F := F)) V (Proc.devRef .tc main_v35) = V (Proc.devRef .tc main_v35) := by
  read_ops

/-! ### Operations 152 to 190 -/

set_option maxRecDepth 16384 in
set_option maxHeartbeats 8000000 in
/-- The result: the weights scattered at the donor and at the acceptor positions, and sliced. -/
theorem F_v72 (h35 : V (Proc.devRef .tc main_v35) = val_main_v35 (F := F) x0 x1 x2 x3 x4 x5 x6 x7 x8 x9 x10 x11)
    (h37 : V (Proc.devRef .tc main_v37) = val_main_v37 (F := F) x8 x10)
    (h39 : V (Proc.devRef .tc main_v39) = val_main_v39 (F := F) x9 x10)
    (a11 : V (Proc.devRef .tc main_arg11) = x11) :
    StableHlo.after (sF (F := F)) V (Proc.devRef .tc main_v72)
      = val_main_v72 (F := F) x0 x1 x2 x3 x4 x5 x6 x7 x8 x9 x10 x11 := by
  read_ops
  rw [h35, h37, h39, a11]
  rfl

end Stretches

/-! ## The facts chained along the stretches -/

section Chain

variable (W : Valuation τ sig (Elt F))

/-- The contents after operations 1 to 2. -/
abbrev at1 : Valuation τ sig (Elt F) := StableHlo.after (sA (F := F)) W
/-- The contents after operations 1 to 49. -/
abbrev at2 : Valuation τ sig (Elt F) := StableHlo.after (sB (F := F)) (at1 W)
/-- The contents after operations 1 to 90. -/
abbrev at3 : Valuation τ sig (Elt F) := StableHlo.after (sC (F := F)) (at2 W)
/-- The contents after operations 1 to 105. -/
abbrev at4 : Valuation τ sig (Elt F) := StableHlo.after (sD (F := F)) (at3 W)
/-- The contents after operations 1 to 151. -/
abbrev at5 : Valuation τ sig (Elt F) := StableHlo.after (sE (F := F)) (at4 W)

theorem at1_arg (b : Ref sig .tc) (hb : b ∈ argRefs := by decide) :
    at1 W (Proc.devRef .tc b) = W (Proc.devRef .tc b) := keeps_arg sA_sub W b hb
theorem at2_arg (b : Ref sig .tc) (hb : b ∈ argRefs := by decide) :
    at2 W (Proc.devRef .tc b) = W (Proc.devRef .tc b) := (keeps_arg sB_sub (at1 W) b hb).trans (at1_arg W b hb)
theorem at3_arg (b : Ref sig .tc) (hb : b ∈ argRefs := by decide) :
    at3 W (Proc.devRef .tc b) = W (Proc.devRef .tc b) := (keeps_arg sC_sub (at2 W) b hb).trans (at2_arg W b hb)
theorem at4_arg (b : Ref sig .tc) (hb : b ∈ argRefs := by decide) :
    at4 W (Proc.devRef .tc b) = W (Proc.devRef .tc b) := (keeps_arg sD_sub (at3 W) b hb).trans (at3_arg W b hb)
theorem at5_arg (b : Ref sig .tc) (hb : b ∈ argRefs := by decide) :
    at5 W (Proc.devRef .tc b) = W (Proc.devRef .tc b) := (keeps_arg sE_sub (at4 W) b hb).trans (at4_arg W b hb)

theorem at1_v0 : at1 W (Proc.devRef .tc main_v0) = val_main_v0 (F := F) (W (Proc.devRef .tc main_arg1)) :=
  A_v0 W rfl
theorem at1_v1 : at1 W (Proc.devRef .tc main_v1) = val_main_v1 (F := F) (W (Proc.devRef .tc main_arg2)) :=
  A_v1 W rfl

theorem at2_v4 :
    at2 W (Proc.devRef .tc main_v4)
      = val_main_v4 (F := F) (W (Proc.devRef .tc main_arg0)) (W (Proc.devRef .tc main_arg1))
          (W (Proc.devRef .tc main_arg2)) (W (Proc.devRef .tc main_arg8)) :=
  B_v4 (at1 W) (at1_v0 W) (at1_v1 W) (at1_arg W main_arg0) (at1_arg W main_arg8)
theorem at2_v6 :
    at2 W (Proc.devRef .tc main_v6)
      = val_main_v6 (F := F) (W (Proc.devRef .tc main_arg0)) (W (Proc.devRef .tc main_arg1))
          (W (Proc.devRef .tc main_arg2)) (W (Proc.devRef .tc main_arg9)) :=
  B_v6 (at1 W) (at1_v0 W) (at1_v1 W) (at1_arg W main_arg0) (at1_arg W main_arg9)

theorem at3_v22 :
    at3 W (Proc.devRef .tc main_v22)
      = val_main_v22 (F := F) (W (Proc.devRef .tc main_arg0)) (W (Proc.devRef .tc main_arg1))
          (W (Proc.devRef .tc main_arg2)) (W (Proc.devRef .tc main_arg4)) (W (Proc.devRef .tc main_arg5))
          (W (Proc.devRef .tc main_arg6)) (W (Proc.devRef .tc main_arg7)) (W (Proc.devRef .tc main_arg8))
          (W (Proc.devRef .tc main_arg9)) (W (Proc.devRef .tc main_arg10)) (W (Proc.devRef .tc main_arg11)) :=
  C_v22 (at2 W) (at2_v4 W) (at2_v6 W) (at2_arg W main_arg4) (at2_arg W main_arg5) (at2_arg W main_arg6)
    (at2_arg W main_arg7) (at2_arg W main_arg10) (at2_arg W main_arg11)
theorem at3_v23 : at3 W (Proc.devRef .tc main_v23) = val_main_v23 (F := F) (W (Proc.devRef .tc main_arg3)) :=
  C_v23 (at2 W) (at2_arg W main_arg3)
theorem at3_v18 : at3 W (Proc.devRef .tc main_v18) = val_main_v18 (F := F) (W (Proc.devRef .tc main_arg10)) :=
  C_v18 (at2 W) (at2_arg W main_arg10)

theorem at4_v35 :
    at4 W (Proc.devRef .tc main_v35)
      = val_main_v35 (F := F) (W (Proc.devRef .tc main_arg0)) (W (Proc.devRef .tc main_arg1))
          (W (Proc.devRef .tc main_arg2)) (W (Proc.devRef .tc main_arg3)) (W (Proc.devRef .tc main_arg4))
          (W (Proc.devRef .tc main_arg5)) (W (Proc.devRef .tc main_arg6)) (W (Proc.devRef .tc main_arg7))
          (W (Proc.devRef .tc main_arg8)) (W (Proc.devRef .tc main_arg9)) (W (Proc.devRef .tc main_arg10))
          (W (Proc.devRef .tc main_arg11)) :=
  D_v35 (at3 W) (at3_v22 W) (at3_v23 W)
theorem at4_v18 : at4 W (Proc.devRef .tc main_v18) = val_main_v18 (F := F) (W (Proc.devRef .tc main_arg10)) :=
  (D_keep_v18 (at3 W)).trans (at3_v18 W)

theorem at5_v37 :
    at5 W (Proc.devRef .tc main_v37)
      = val_main_v37 (F := F) (W (Proc.devRef .tc main_arg8)) (W (Proc.devRef .tc main_arg10)) :=
  E_v37 (at4 W) (at4_v18 W) (at4_arg W main_arg8)
theorem at5_v39 :
    at5 W (Proc.devRef .tc main_v39)
      = val_main_v39 (F := F) (W (Proc.devRef .tc main_arg9)) (W (Proc.devRef .tc main_arg10)) :=
  E_v39 (at4 W) (at4_v18 W) (at4_arg W main_arg9)
theorem at5_v35 :
    at5 W (Proc.devRef .tc main_v35)
      = val_main_v35 (F := F) (W (Proc.devRef .tc main_arg0)) (W (Proc.devRef .tc main_arg1))
          (W (Proc.devRef .tc main_arg2)) (W (Proc.devRef .tc main_arg3)) (W (Proc.devRef .tc main_arg4))
          (W (Proc.devRef .tc main_arg5)) (W (Proc.devRef .tc main_arg6)) (W (Proc.devRef .tc main_arg7))
          (W (Proc.devRef .tc main_arg8)) (W (Proc.devRef .tc main_arg9)) (W (Proc.devRef .tc main_arg10))
          (W (Proc.devRef .tc main_arg11)) :=
  (E_keep_v35 (at4 W)).trans (at4_v35 W)

/-- After all 190 operations the result buffer holds the reference's value of the twelve arguments. -/
theorem after_v72 :
    StableHlo.after (ops (F := F)) W (Proc.devRef .tc main_v72)
      = val_main_v72 (F := F) (W (Proc.devRef .tc main_arg0)) (W (Proc.devRef .tc main_arg1))
          (W (Proc.devRef .tc main_arg2)) (W (Proc.devRef .tc main_arg3)) (W (Proc.devRef .tc main_arg4))
          (W (Proc.devRef .tc main_arg5)) (W (Proc.devRef .tc main_arg6)) (W (Proc.devRef .tc main_arg7))
          (W (Proc.devRef .tc main_arg8)) (W (Proc.devRef .tc main_arg9)) (W (Proc.devRef .tc main_arg10))
          (W (Proc.devRef .tc main_arg11)) := by
  rw [ops_split, StableHlo.after_append, StableHlo.after_append, StableHlo.after_append, StableHlo.after_append,
    StableHlo.after_append]
  exact F_v72 (at5 W) (at5_v35 W) (at5_v37 W) (at5_v39 W) (at5_arg W main_arg11)

end Chain

/-! ## The run -/

set_option maxRecDepth 16384 in
set_option maxHeartbeats 8000000 in
/-- Every operation determines its results. -/
theorem ops_fresh : (ops : List (HloOp τ sig (Elt F))).Forall fun op => op.fresh = ∅ := by
  simp only [ops, List.Forall]; repeat' constructor

set_option maxRecDepth 16384 in
set_option maxHeartbeats 8000000 in
/-- On every device, for any float values, from any memory with zero counters: every weakly fair execution of
    the reference terminates with its result at the reference's value of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72)
          = val_main_v72 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono
    (fun _ h c =>
      ⟨(h c main_v72).trans (after_v72 (launchContents m c)),
       (h c main_arg0).trans (after_arg _ main_arg0 (by decide)),
       (h c main_arg1).trans (after_arg _ main_arg1 (by decide)),
       (h c main_arg2).trans (after_arg _ main_arg2 (by decide)),
       (h c main_arg3).trans (after_arg _ main_arg3 (by decide)),
       (h c main_arg4).trans (after_arg _ main_arg4 (by decide)),
       (h c main_arg5).trans (after_arg _ main_arg5 (by decide)),
       (h c main_arg6).trans (after_arg _ main_arg6 (by decide)),
       (h c main_arg7).trans (after_arg _ main_arg7 (by decide)),
       (h c main_arg8).trans (after_arg _ main_arg8 (by decide)),
       (h c main_arg9).trans (after_arg _ main_arg9 (by decide)),
       (h c main_arg10).trans (after_arg _ main_arg10 (by decide)),
       (h c main_arg11).trans (after_arg _ main_arg11 (by decide))⟩)
    (run_seq scopedRefs_eq scopedSems_eq defs main (fun _ => ops) main_eq (fun _ => ops_sub) m ρ
      (fun _ => List.forall_iff_forall_mem.mp ops_fresh))

end Cert.RefAfter

end
-- ==== Proof.RefPot.lean ====
/-
  The reference's junction potentials are the specification's.

  The reference augments each gene's site table by the gene-start and gene-end vectors (rows 4096 and 4097), reads for
  every junction the donor row and the acceptor row of that table, lays the two rows side by side, and applies a
  two-layer perceptron. Each read wraps a negative index once around the table, tests the wrapped index against the
  table's range, gathers the row at the index clamped into the range, and keeps the gathered row where the test holds.
  For an index word between 0 and 4097 the wrap does nothing, the test holds, the clamp does nothing, and the row read is
  the word's own row. What remains is the perceptron, sum by sum.
-/
import proofs.«422879_j30666066494039_3_alg».proof.Proof.Spec
import proofs.«422879_j30666066494039_3_alg».proof.Proof.RefRead
import Idealize.ShloMosaic.PureOps.Ideal.Laws
import Idealize.ShloMosaic.Lib.ValueIdx
import Idealize.ShloMosaic.Lib.Pipeline.Value
import Idealize.ShloMosaic.Lib.StableHlo.Predicate
import Idealize.ShloMosaic.Lib.Affine

noncomputable section

namespace Cert.RefPot

open Idealize.ShloMosaic Idealize.ShloMosaic.ValueIdx Cert.ReferenceIdeal Cert.ReferenceIdeal.Gen Cert.ReferenceIdeal.Read

/-! ## A gather of rows, gene by gene -/

section Rows
variable {α : Type}

/-- The dimension numbers of a row gather over a stack of tables: operand `[G, N, C]`, start indices `[G, J, 1]`, result
    `[G, J, C]`; axis 0 pairs table with table, axis 1 is the row looked up, axis 2 is carried whole. -/
abbrev rowDims (G N J C : Nat)
    (wf : GatherDims.WF ⟨3, ![G, N, C]⟩ ⟨3, ![G, J, 1]⟩ ⟨3, ![G, J, C]⟩ [2] [1] [0] [1] [0] 2 ![1, 1, C]) :
    GatherDims ⟨3, ![G, N, C]⟩ ⟨3, ![G, J, 1]⟩ ⟨3, ![G, J, C]⟩ where
  offsetDims := [2]
  collapsedSliceDims := [1]
  operandBatchingDims := [0]
  startIndicesBatchingDims := [0]
  startIndexMap := [1]
  indexVectorDim := 2
  sliceSizes := ![1, 1, C]
  wf := wf

/-- The row gather at `(g, j, c)`: table `g` at the row `idx[g, j, 0]`, read signed and clamped into `[0, N − 1]`,
    entry `c`. -/
theorem gather_row_apply {G N J C w : Nat} (hN : 0 < N)
    (wf : GatherDims.WF ⟨3, ![G, N, C]⟩ ⟨3, ![G, J, 1]⟩ ⟨3, ![G, J, C]⟩ [2] [1] [0] [1] [0] 2 ![1, 1, C])
    (x : (⟨3, ![G, N, C]⟩ : Shape).Idx → α) (idx : IVec ⟨3, ![G, J, 1]⟩ w) (g : Fin G) (j : Fin J) (c : Fin C) :
    Host.gather (rowDims G N J C wf) x idx (ix3 g j c)
      = x (ix3 g ⟨min (idx (ix3 g j (0 : Fin 1))).toInt.toNat (N - 1), by omega⟩ c) := by
  unfold Host.gather
  congr 1
  funext a
  refine Fin.ext ?_
  match a with
  | ⟨0, _⟩ =>
    show (rowDims G N J C wf).start (ix3 g j c) idx 0 + (rowDims G N J C wf).batchCoord (ix3 g j c) 0
      + (rowDims G N J C wf).offCoord (ix3 g j c) 0 = g.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (rowDims G N J C wf).operandBatchingDims from List.mem_singleton.mpr rfl)]
    rfl
  | ⟨1, _⟩ =>
    show (rowDims G N J C wf).start (ix3 g j c) idx 1 + (rowDims G N J C wf).batchCoord (ix3 g j c) 1
      + (rowDims G N J C wf).offCoord (ix3 g j c) 1 = _
    rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims G N J C wf).startIndexMap from List.mem_singleton.mpr rfl)]
    have hsi : (rowDims G N J C wf).siIdx (ix3 g j c) ⟨List.idxOf (1 : Fin 3) (rowDims G N J C wf).startIndexMap,
        List.idxOf_lt_length_iff.2 (List.mem_singleton.mpr rfl)⟩ = ix3 g j (0 : Fin 1) := by
      funext b; refine Fin.ext ?_
      match b with
      | ⟨0, _⟩ => rfl
      | ⟨1, _⟩ => rfl
      | ⟨2, _⟩ => rfl
    rw [hsi]
    rfl
  | ⟨2, _⟩ =>
    show (rowDims G N J C wf).start (ix3 g j c) idx 2 + (rowDims G N J C wf).batchCoord (ix3 g j c) 2
      + (rowDims G N J C wf).offCoord (ix3 g j c) 2 = c.val
    rw [GatherDims.batchCoord_eq_zero _ _ _ (show (2 : Fin 3) ∉ ([0] : List (Fin 3)) by decide)]
    unfold GatherDims.start
    rw [dif_neg (show (2 : Fin 3) ∉ ([1] : List (Fin 3)) by decide)]
    simp only [Nat.zero_add, Nat.add_zero]
    unfold GatherDims.offCoord
    rw [dif_pos ((GatherDims.mem_sKept _ _).mpr ⟨show (2 : Fin 3) ∉ ([1] : List (Fin 3)) by decide, show (2 : Fin 3) ∉ ([0] : List (Fin 3)) by decide⟩)]
    rfl

end Rows

/-! ## An `and` over ones -/

/-- A left fold by `and` from 1 over ones is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduction by `and` from 1 of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_one x hx _

/-! ## An index word inside the table -/

/-- A word at most 4097 is the same number signed and unsigned. -/
theorem word_toInt (x : BitVec 32) (hx : x.toNat ≤ 4097) : x.toInt = (x.toNat : Int) := by
  rw [BitVec.toInt_eq_toNat_cond]
  have : 2 * x.toNat < 2 ^ 32 := by omega
  rw [if_pos this]

/-- It is not below zero … -/
theorem word_not_neg (x : BitVec 32) (hx : x.toNat ≤ 4097) : IntOp.cmpi .slt x 0#32 = 0#1 := by
  apply eq_zero_of_ne_one
  rw [IntOp.cmpi_slt, word_toInt x hx]
  simp

/-- … it is at least zero … -/
theorem word_ge_zero (x : BitVec 32) (hx : x.toNat ≤ 4097) : IntOp.cmpi .sge x 0#32 = 1#1 := by
  rw [IntOp.cmpi_sge, word_toInt x hx]
  simp

/-- … it is at most 4097 … -/
theorem word_le_top (x : BitVec 32) (hx : x.toNat ≤ 4097) : IntOp.cmpi .sle x 4097#32 = 1#1 := by
  rw [IntOp.cmpi_sle, word_toInt x hx]
  have : (4097#32 : BitVec 32).toInt = 4097 := by decide
  rw [this]
  omega

/-- … and clamping it into `[0, 4097]` leaves it. -/
theorem word_clamp (x : BitVec 32) (hx : x.toNat ≤ 4097) : min x.toInt.toNat (4098 - 1) = x.toNat := by
  rw [word_toInt x hx, Int.toNat_natCast]
  omega

/-! ## The augmented table: the site rows, then the gene-start vector, then the gene-end vector -/

theorem idx_v0 (g : Fin 128) (c : Fin 128) : idx_main_v0 (ix3 g (0 : Fin 1) c) = ix1 c := by
  funext a; match a with | ⟨0, _⟩ => rfl

theorem idx_v1 (g : Fin 128) (c : Fin 128) : idx_main_v1 (ix3 g (0 : Fin 1) c) = ix1 c := by
  funext a; match a with | ⟨0, _⟩ => rfl

/-- Row `r` of gene `g`'s augmented table, entry by entry. -/
theorem table_apply (x0 : FVec Ideal S128x4096x128 .f32) (x1 x2 : FVec Ideal S128 .f32)
    (g : Fin 128) (r : Fin 4098) (c : Fin 128) :
    val_main_v2 (F := Ideal) x0 x1 x2 (ix3 g r c) = Cert.Spec.augRow x0 x1 x2 g r.val c := by
  unfold val_main_v2 Cert.Spec.augRow
  by_cases h : r.val < 4096
  · rw [dif_pos h]
    exact concatenate_apply_piece (1 : Fin 3) _ _ (ix3 g r c) 0 (by simp) S128x4096x128 x0 rfl rfl 0 rfl
      (ix3 g ⟨r.val, h⟩ c)
      (fun b hb => match b with
        | ⟨0, _⟩ => rfl
        | ⟨1, _⟩ => absurd rfl hb
        | ⟨2, _⟩ => rfl)
      (Nat.zero_add _)
  · rw [dif_neg h]
    by_cases h' : r.val = 4096
    · rw [if_pos h']
      rw [concatenate_apply_piece (1 : Fin 3) _ _ (ix3 g r c) 1 (by simp) S128x1x128 (val_main_v0 (F := Ideal) x1) rfl rfl
        4096 rfl (ix3 g (0 : Fin 1) c)
        (fun b hb => match b with
          | ⟨0, _⟩ => rfl
          | ⟨1, _⟩ => absurd rfl hb
          | ⟨2, _⟩ => rfl)
        (by show 4096 + 0 = r.val; omega)]
      rw [val_main_v0_apply, idx_v0]
    · rw [if_neg h']
      have hr : r.val = 4097 := by have := r.isLt; omega
      rw [concatenate_apply_piece (1 : Fin 3) _ _ (ix3 g r c) 2 (by simp) S128x1x128 (val_main_v1 (F := Ideal) x2) rfl rfl
        4097 rfl (ix3 g (0 : Fin 1) c)
        (fun b hb => match b with
          | ⟨0, _⟩ => rfl
          | ⟨1, _⟩ => absurd rfl hb
          | ⟨2, _⟩ => rfl)
        (by show 4097 + 0 = r.val; omega)]
      rw [val_main_v1_apply, idx_v1]

/-! ## One embedding: an index word inside the table reads its own row -/

theorem idx_v3 (g : Fin 128) (j : Fin 2048) : idx_main_v3 (ix3 g j (0 : Fin 1)) = ix2 g j := by
  funext a; match a with | ⟨0, _⟩ => rfl | ⟨1, _⟩ => rfl

/-- The donor side's wrapped index is the index itself: it is not negative. -/
theorem start0_apply (x8 : IVec S128x2048 32) (h8 : ∀ i, (x8 i).toNat ≤ 4097) (i : S128x2048x1.Idx) :
    val_main_call0_v4 (F := Ideal) x8 i = x8 (idx_main_v3 i) := by
  rw [val_main_call0_v4_apply, val_main_call0_v1_apply, val_main_v3_apply, val_main_call0_v0_apply,
    val_main_call0_c_apply, word_not_neg _ (h8 _), select_zero]

/-- The donor side's in-range test holds everywhere. -/
theorem mask0_apply (x8 : IVec S128x2048 32) (h8 : ∀ i, (x8 i).toNat ≤ 4097) (i : S128x2048x1.Idx) :
    val_main_call0_v10 (F := Ideal) x8 i = 1#1 := by
  rw [val_main_call0_v10_apply, val_main_call0_v6_apply, val_main_call0_v9_apply, start0_apply x8 h8,
    val_main_call0_v5_apply, val_main_call0_c_2_apply, val_main_call0_v8_apply, val_main_call0_v7_apply,
    val_main_call0_c_1_apply, word_ge_zero _ (h8 _), word_le_top _ (h8 _)]
  rfl

/-- So the donor side's test, folded over its one-entry axis, holds for every junction. -/
theorem all0_apply (x8 : IVec S128x2048 32) (h8 : ∀ i, (x8 i).toNat ≤ 4097) (y : S128x2048.Idx) :
    val_main_call0_v11 (F := Ideal) x8 y = 1#1 := by
  unfold val_main_call0_v11
  exact reduce_andi_ones _ _ _ _ (mask0_apply x8 h8) (fun _ => rfl) y

/-- The donor embedding of junction `j` is row `don g j` of the augmented table. -/
theorem take0_apply (x0 : FVec Ideal S128x4096x128 .f32) (x1 x2 : FVec Ideal S128 .f32) (x8 : IVec S128x2048 32)
    (h8 : ∀ i, (x8 i).toNat ≤ 4097) (g : Fin 128) (j : Fin 2048) (c : Fin 128) :
    val_main_v4 (F := Ideal) x0 x1 x2 x8 (ix3 g j c) = Cert.Spec.augRow x0 x1 x2 g (x8 (ix2 g j)).toNat c := by
  have hlt : (x8 (ix2 g j)).toNat < 4098 := Nat.lt_succ_of_le (h8 _)
  have e : (⟨min (val_main_call0_v4 (F := Ideal) x8 (ix3 g j (0 : Fin 1))).toInt.toNat (4098 - 1), by omega⟩ : Fin 4098)
      = ⟨(x8 (ix2 g j)).toNat, hlt⟩ := Fin.ext (by
    show min (val_main_call0_v4 (F := Ideal) x8 (ix3 g j (0 : Fin 1))).toInt.toNat (4098 - 1) = (x8 (ix2 g j)).toNat
    rw [start0_apply x8 h8, idx_v3, word_clamp _ (h8 _)])
  rw [val_main_v4_apply, val_main_call0_v13_apply, all0_apply x8 h8, select_one]
  unfold val_main_call0_v12
  refine (gather_row_apply (by decide) gather_S128x4098x128_S128x2048x1_S128x2048x128_2_1_0_0_1_2_11128_wf
    (val_main_v2 (F := Ideal) x0 x1 x2) (val_main_call0_v4 (F := Ideal) x8) g j c).trans ?_
  rw [e]
  exact table_apply x0 x1 x2 g ⟨(x8 (ix2 g j)).toNat, hlt⟩ c

/-- The acceptor side's wrapped index is the index itself. -/
theorem start1_apply (x9 : IVec S128x2048 32) (h9 : ∀ i, (x9 i).toNat ≤ 4097) (i : S128x2048x1.Idx) :
    val_main_call1_v4 (F := Ideal) x9 i = x9 (idx_main_v5 i) := by
  rw [val_main_call1_v4_apply, val_main_call1_v1_apply, val_main_v5_apply, val_main_call1_v0_apply,
    val_main_call1_c_apply, word_not_neg _ (h9 _), select_zero]

theorem idx_v5 (g : Fin 128) (j : Fin 2048) : idx_main_v5 (ix3 g j (0 : Fin 1)) = ix2 g j := by
  funext a; match a with | ⟨0, _⟩ => rfl | ⟨1, _⟩ => rfl

/-- The acceptor side's in-range test holds everywhere. -/
theorem mask1_apply (x9 : IVec S128x2048 32) (h9 : ∀ i, (x9 i).toNat ≤ 4097) (i : S128x2048x1.Idx) :
    val_main_call1_v10 (F := Ideal) x9 i = 1#1 := by
  rw [val_main_call1_v10_apply, val_main_call1_v6_apply, val_main_call1_v9_apply, start1_apply x9 h9,
    val_main_call1_v5_apply, val_main_call1_c_2_apply, val_main_call1_v8_apply, val_main_call1_v7_apply,
    val_main_call1_c_1_apply, word_ge_zero _ (h9 _), word_le_top _ (h9 _)]
  rfl

/-- So the acceptor side's test, folded over its one-entry axis, holds for every junction. -/
theorem all1_apply (x9 : IVec S128x2048 32) (h9 : ∀ i, (x9 i).toNat ≤ 4097) (y : S128x2048.Idx) :
    val_main_call1_v11 (F := Ideal) x9 y = 1#1 := by
  unfold val_main_call1_v11
  exact reduce_andi_ones _ _ _ _ (mask1_apply x9 h9) (fun _ => rfl) y

/-- The acceptor embedding of junction `j` is row `acc g j` of the augmented table. -/
theorem take1_apply (x0 : FVec Ideal S128x4096x128 .f32) (x1 x2 : FVec Ideal S128 .f32) (x9 : IVec S128x2048 32)
    (h9 : ∀ i, (x9 i).toNat ≤ 4097) (g : Fin 128) (j : Fin 2048) (c : Fin 128) :
    val_main_v6 (F := Ideal) x0 x1 x2 x9 (ix3 g j c) = Cert.Spec.augRow x0 x1 x2 g (x9 (ix2 g j)).toNat c := by
  have hlt : (x9 (ix2 g j)).toNat < 4098 := Nat.lt_succ_of_le (h9 _)
  have e : (⟨min (val_main_call1_v4 (F := Ideal) x9 (ix3 g j (0 : Fin 1))).toInt.toNat (4098 - 1), by omega⟩ : Fin 4098)
      = ⟨(x9 (ix2 g j)).toNat, hlt⟩ := Fin.ext (by
    show min (val_main_call1_v4 (F := Ideal) x9 (ix3 g j (0 : Fin 1))).toInt.toNat (4098 - 1) = (x9 (ix2 g j)).toNat
    rw [start1_apply x9 h9, idx_v5, word_clamp _ (h9 _)])
  rw [val_main_v6_apply, val_main_call1_v13_apply, all1_apply x9 h9, select_one]
  unfold val_main_call1_v12
  refine (gather_row_apply (by decide) gather_S128x4098x128_S128x2048x1_S128x2048x128_2_1_0_0_1_2_11128_wf
    (val_main_v2 (F := Ideal) x0 x1 x2) (val_main_call1_v4 (F := Ideal) x9) g j c).trans ?_
  rw [e]
  exact table_apply x0 x1 x2 g ⟨(x9 (ix2 g j)).toNat, hlt⟩ c

/-! ## The junction embedding: the donor row beside the acceptor row -/

/-- Entry `k` of junction `j`'s embedding: below 128 the donor row's, from 128 on the acceptor row's. -/
theorem junc_apply (x0 : FVec Ideal S128x4096x128 .f32) (x1 x2 : FVec Ideal S128 .f32) (x8 x9 : IVec S128x2048 32)
    (h8 : ∀ i, (x8 i).toNat ≤ 4097) (h9 : ∀ i, (x9 i).toNat ≤ 4097) (g : Fin 128) (j : Fin 2048) (k : Fin 256) :
    val_main_v7 (F := Ideal) x0 x1 x2 x8 x9 (ix3 g j k) = Cert.Spec.junc x0 x1 x2 x8 x9 g j k := by
  unfold val_main_v7 Cert.Spec.junc
  by_cases h : k.val < 128
  · rw [dif_pos h]
    rw [concatenate_pair_apply_left (t := S128x2048x256) (s₁ := S128x2048x128) (s₂ := S128x2048x128) (2 : Fin 3) _ _ _
      (ix3 g j k) rfl (ix3 g j (⟨k.val, h⟩ : Fin 128))
      (fun b => match b with
        | ⟨0, _⟩ => rfl
        | ⟨1, _⟩ => rfl
        | ⟨2, _⟩ => rfl)]
    exact take0_apply x0 x1 x2 x8 h8 g j ⟨k.val, h⟩
  · rw [dif_neg h]
    rw [concatenate_pair_apply_right (t := S128x2048x256) (s₁ := S128x2048x128) (s₂ := S128x2048x128) (2 : Fin 3) _ _ _
      (ix3 g j k) rfl rfl (ix3 g j (⟨k.val - 128, by omega⟩ : Fin 128))
      (fun b hb => match b with
        | ⟨0, _⟩ => rfl
        | ⟨1, _⟩ => rfl
        | ⟨2, _⟩ => absurd rfl hb)
      (by show k.val - 128 + 128 = k.val; omega)]
    exact take1_apply x0 x1 x2 x9 h9 g j ⟨k.val - 128, by omega⟩

/-! ## The hidden layer -/

theorem lidx_v8 (g : Fin 128) (j : Fin 2048) (h : Fin 128) (k : Fin 256) : lidx_main_v8 (ix3 g j h) k = ix3 g j k := by
  funext a; match a with | ⟨0, _⟩ => rfl | ⟨1, _⟩ => rfl | ⟨2, _⟩ => rfl

theorem ridx_v8 (g : Fin 128) (j : Fin 2048) (h : Fin 128) (k : Fin 256) : ridx_main_v8 (ix3 g j h) k = ix2 k h := by
  funext a; match a with | ⟨0, _⟩ => rfl | ⟨1, _⟩ => rfl

theorem idx_v9_v10 (g : Fin 128) (j : Fin 2048) (h : Fin 128) : idx_main_v9 (idx_main_v10 (ix3 g j h)) = ix1 h := by
  funext a; match a with | ⟨0, _⟩ => rfl

/-- Hidden unit `h`: the embedding against column `h` of the first weights, plus the bias, cut off below at zero. -/
theorem hid_apply (x0 : FVec Ideal S128x4096x128 .f32) (x1 x2 : FVec Ideal S128 .f32) (x4 : FVec Ideal S256x128 .f32)
    (x5 : FVec Ideal S128 .f32) (x8 x9 : IVec S128x2048 32)
    (h8 : ∀ i, (x8 i).toNat ≤ 4097) (h9 : ∀ i, (x9 i).toNat ≤ 4097) (g : Fin 128) (j : Fin 2048) (h : Fin 128) :
    val_main_v12 (F := Ideal) x0 x1 x2 x4 x5 x8 x9 (ix3 g j h) = Cert.Spec.hid x0 x1 x2 x8 x9 x4 x5 g j h := by
  rw [val_main_v12_apply, val_main_v11_apply, val_main_v8_apply, val_main_v10_apply, val_main_v9_apply,
    val_main_call2_v0_apply, val_main_call2_cst_apply, idx_v9_v10]
  rw [Ideal.maximumf_def, Ideal.addf_def, Ideal.ofBits_def, Ideal.ofBits_zero_f32]
  have hs : ∑ k : Fin 256, val_main_v7 (F := Ideal) x0 x1 x2 x8 x9 (lidx_main_v8 (ix3 g j h) k) * x4 (ridx_main_v8 (ix3 g j h) k)
      = ∑ k : Fin 256, Cert.Spec.junc x0 x1 x2 x8 x9 g j k * x4 (ix2 k h) :=
    Finset.sum_congr rfl fun k _ => by rw [lidx_v8, ridx_v8, junc_apply x0 x1 x2 x8 x9 h8 h9]
  unfold Cert.Spec.hid
  rw [hs]

/-! ## The potentials -/

theorem idx_v17 (g : Fin 128) (j : Fin 2048) : idx_main_v17 (ix2 g j) = ix3 g j (0 : Fin 1) := by
  have hg := g.isLt
  have hj := j.isLt
  funext a
  match a with
  | ⟨0, _⟩ => exact Fin.ext (by show (g.val * 2048 + j.val) / 2048 = g.val; omega)
  | ⟨1, _⟩ => exact Fin.ext (by show (g.val * 2048 + j.val) / 1 % 2048 = j.val; omega)
  | ⟨2, _⟩ => rfl

theorem lidx_v13 (g : Fin 128) (j : Fin 2048) (k : Fin 128) : lidx_main_v13 (ix3 g j (0 : Fin 1)) k = ix3 g j k := by
  funext a; match a with | ⟨0, _⟩ => rfl | ⟨1, _⟩ => rfl | ⟨2, _⟩ => rfl

theorem ridx_v13 (g : Fin 128) (j : Fin 2048) (k : Fin 128) : ridx_main_v13 (ix3 g j (0 : Fin 1)) k = ix2 k (0 : Fin 1) := by
  funext a; match a with | ⟨0, _⟩ => rfl | ⟨1, _⟩ => rfl

theorem idx_v14_v15 (g : Fin 128) (j : Fin 2048) : idx_main_v14 (idx_main_v15 (ix3 g j (0 : Fin 1))) = ix1 (0 : Fin 1) := by
  funext a; match a with | ⟨0, _⟩ => rfl

/-- The potential of junction `j`: the hidden units against the second weights, plus the bias. -/
theorem pot_at (x0 : FVec Ideal S128x4096x128 .f32) (x1 x2 : FVec Ideal S128 .f32) (x4 : FVec Ideal S256x128 .f32)
    (x5 : FVec Ideal S128 .f32) (x6 : FVec Ideal S128x1 .f32) (x7 : FVec Ideal S1 .f32) (x8 x9 : IVec S128x2048 32)
    (h8 : ∀ i, (x8 i).toNat ≤ 4097) (h9 : ∀ i, (x9 i).toNat ≤ 4097) (g : Fin 128) (j : Fin 2048) :
    val_main_v17 (F := Ideal) x0 x1 x2 x4 x5 x6 x7 x8 x9 (ix2 g j)
      = Cert.Spec.potAt x0 x1 x2 x8 x9 x4 x5 x6 x7 g j := by
  rw [val_main_v17_apply, idx_v17, val_main_v16_apply, val_main_v13_apply, val_main_v15_apply, val_main_v14_apply,
    idx_v14_v15, Ideal.addf_def]
  have hs : ∑ k : Fin 128, val_main_v12 (F := Ideal) x0 x1 x2 x4 x5 x8 x9 (lidx_main_v13 (ix3 g j (0 : Fin 1)) k)
        * x6 (ridx_main_v13 (ix3 g j (0 : Fin 1)) k)
      = ∑ k : Fin 128, Cert.Spec.hid x0 x1 x2 x8 x9 x4 x5 g j k * x6 (ix2 k (0 : Fin 1)) :=
    Finset.sum_congr rfl fun k _ => by rw [lidx_v13, ridx_v13, hid_apply x0 x1 x2 x4 x5 x8 x9 h8 h9]
  unfold Cert.Spec.potAt
  rw [hs]

/-- **The reference's junction potentials are the specification's.** -/
theorem ref_pot (x0 : FVec Ideal Cert.ReferenceIdeal.S128x4096x128 .f32) (x1 x2 : FVec Ideal Cert.ReferenceIdeal.S128 .f32)
    (x4 : FVec Ideal Cert.ReferenceIdeal.S256x128 .f32) (x5 : FVec Ideal Cert.ReferenceIdeal.S128 .f32)
    (x6 : FVec Ideal Cert.ReferenceIdeal.S128x1 .f32) (x7 : FVec Ideal Cert.ReferenceIdeal.S1 .f32)
    (x8 x9 : IVec Cert.ReferenceIdeal.S128x2048 32)
    (h8 : ∀ i, (x8 i).toNat ≤ 4097) (h9 : ∀ i, (x9 i).toNat ≤ 4097) :
    Cert.ReferenceIdeal.Read.val_main_v17 (F := Ideal) x0 x1 x2 x4 x5 x6 x7 x8 x9 = Cert.Spec.pot x0 x1 x2 x8 x9 x4 x5 x6 x7 := by
  funext i
  obtain ⟨g, j, rfl⟩ : ∃ (g : Fin 128) (j : Fin 2048), i = ix2 g j := ⟨i 0, i 1, eq_ix2 i⟩
  rw [pot_at x0 x1 x2 x4 x5 x6 x7 x8 x9 h8 h9, Cert.Spec.pot_apply]

end Cert.RefPot

end
-- ==== Proof.TailRef.lean ====
import proofs.«422879_j30666066494039_3_alg».proof.Proof.Tail
import proofs.«422879_j30666066494039_3_alg».proof.Proof.RefRead

noncomputable section

namespace Cert.TailRef

open Idealize.ShloMosaic Cert.ReferenceIdeal.Read Cert.KernelIdeal.Tail

/-! ## The reference's tail is the kernel program's tail

    After its junction potentials the reference applies the same host operations as the kernel program, one for
    one: the potentials read at the junctions and summed to transcript scores, the softmax with the reference's
    score, the donor and the acceptor positions read at the junctions, the weights scattered and sliced. Stage by
    stage the reference's values are the stage functions of the kernel program's tail; the two programs' shapes and
    dimension records are the same literals under two names. Stated for float values of any kind, then at the
    extended reals. -/

section Stages

variable {F : FTy → Type} [FloatOps F]
variable (x0 : FVec F Cert.ReferenceIdeal.S128x4096x128 .f32) (x1 x2 : FVec F Cert.ReferenceIdeal.S128 .f32)
  (x3 : FVec F Cert.ReferenceIdeal.S1 .f32) (x4 : FVec F Cert.ReferenceIdeal.S256x128 .f32)
  (x5 : FVec F Cert.ReferenceIdeal.S128 .f32) (x6 : FVec F Cert.ReferenceIdeal.S128x1 .f32)
  (x7 : FVec F Cert.ReferenceIdeal.S1 .f32) (x8 x9 : IVec Cert.ReferenceIdeal.S128x2048 32)
  (x10 : IVec Cert.ReferenceIdeal.S128x64x32 32) (x11 : FVec F Cert.ReferenceIdeal.S128x64x32 .f32)

/-- The reference's transcript scores are the score stage of its potentials, the merged junction table and the mask. -/
theorem ref_score :
    val_main_v22 (F := F) x0 x1 x2 x4 x5 x6 x7 x8 x9 x10 x11
      = scoreF (val_main_v17 (F := F) x0 x1 x2 x4 x5 x6 x7 x8 x9) (val_main_v18 (F := F) x10) x11 := by
  unfold val_main_v22 val_main_cst val_main_v21 val_main_v20 val_main_v19 val_main_call3_v14 val_main_call3_cst
    val_main_call3_v13 val_main_call3_v12 val_main_call3_c_3 val_main_call3_v11 val_main_call3_v10 val_main_call3_v9
    val_main_call3_v8 val_main_call3_v7 val_main_call3_v6 val_main_call3_c_2 val_main_call3_c_1 val_main_call3_v5
    val_main_call3_v4 val_main_call3_v3 val_main_call3_v2 val_main_call3_c_0 val_main_call3_v1 val_main_call3_v0
    val_main_call3_c
  generalize val_main_v17 (F := F) x0 x1 x2 x4 x5 x6 x7 x8 x9 = p
  generalize val_main_v18 (F := F) x10 = t
  rfl

/-- The reference's softmax weights are the softmax stage of its scores and its reference column. -/
theorem ref_weights :
    val_main_v35 (F := F) x0 x1 x2 x3 x4 x5 x6 x7 x8 x9 x10 x11
      = weightsF (val_main_v22 (F := F) x0 x1 x2 x4 x5 x6 x7 x8 x9 x10 x11) (val_main_v23 (F := F) x3) := by
  unfold val_main_v35 val_main_v34 val_main_v33 val_main_v32 val_main_cst_2 val_main_v31 val_main_v30 val_main_v29
    val_main_v28 val_main_v27 val_main_v26 val_main_cst_1 val_main_v25 val_main_cst_0 val_main_v24
  generalize val_main_v22 (F := F) x0 x1 x2 x4 x5 x6 x7 x8 x9 x10 x11 = s
  generalize val_main_v23 (F := F) x3 = r
  rfl

/-- The reference's donor positions at the junctions are the position stage of its donor table. -/
theorem ref_don :
    val_main_v37 (F := F) x8 x10 = posOf x8 (val_main_v18 (F := F) x10) := by
  unfold val_main_v37 val_main_v36 val_main_call4_v14 val_main_call4_c_4 val_main_call4_v13 val_main_call4_v12
    val_main_call4_c_3 val_main_call4_v11 val_main_call4_v10 val_main_call4_v9 val_main_call4_v8 val_main_call4_v7
    val_main_call4_v6 val_main_call4_c_2 val_main_call4_c_1 val_main_call4_v5 val_main_call4_v4 val_main_call4_v3
    val_main_call4_v2 val_main_call4_c_0 val_main_call4_v1 val_main_call4_v0 val_main_call4_c
  generalize val_main_v18 (F := F) x10 = t
  rfl

/-- The reference's acceptor positions at the junctions are the position stage of its acceptor table. -/
theorem ref_acc :
    val_main_v39 (F := F) x9 x10 = posOf x9 (val_main_v18 (F := F) x10) := by
  unfold val_main_v39 val_main_v38 val_main_call5_v14 val_main_call5_c_4 val_main_call5_v13 val_main_call5_v12
    val_main_call5_c_3 val_main_call5_v11 val_main_call5_v10 val_main_call5_v9 val_main_call5_v8 val_main_call5_v7
    val_main_call5_v6 val_main_call5_c_2 val_main_call5_c_1 val_main_call5_v5 val_main_call5_v4 val_main_call5_v3
    val_main_call5_v2 val_main_call5_c_0 val_main_call5_v1 val_main_call5_v0 val_main_call5_c
  generalize val_main_v18 (F := F) x10 = t
  rfl

/-- The reference's result is the scatter stage of its weights, the mask and its two position arrays. -/
theorem ref_spread :
    val_main_v72 (F := F) x0 x1 x2 x3 x4 x5 x6 x7 x8 x9 x10 x11
      = spreadF (val_main_v35 (F := F) x0 x1 x2 x3 x4 x5 x6 x7 x8 x9 x10 x11) x11
          (val_main_v37 (F := F) x8 x10) (val_main_v39 (F := F) x9 x10) := by
  unfold val_main_v72 val_main_v71 val_main_v70 val_main_v69 val_main_v68 val_main_v67 val_main_v66 val_main_c_7
    val_main_v65 val_main_v64 val_main_c_6 val_main_v63 val_main_v62 val_main_v61 val_main_v60 val_main_v59
    val_main_v58 val_main_v57 val_main_v56 val_main_v55 val_main_c_5 val_main_v54 val_main_v53 val_main_c_4
    val_main_v52 val_main_v51 val_main_v50 val_main_v49 val_main_v48 val_main_cst_3 val_main_v47 val_main_v46
    val_main_v45 val_main_c val_main_v44 val_main_v43 val_main_v42 val_main_v41 val_main_v40
  generalize val_main_v35 (F := F) x0 x1 x2 x3 x4 x5 x6 x7 x8 x9 x10 x11 = w
  generalize val_main_v37 (F := F) x8 x10 = d
  generalize val_main_v39 (F := F) x9 x10 = a
  rfl

/-- The reference's result is the tail of its potentials, its two position tables, the junction table, the mask
    and the reference potential, for float values of any kind. -/
theorem ref_tailF :
    val_main_v72 (F := F) x0 x1 x2 x3 x4 x5 x6 x7 x8 x9 x10 x11
      = tailF (val_main_v17 (F := F) x0 x1 x2 x4 x5 x6 x7 x8 x9) x8 x9 x10 x11 x3 := by
  rw [ref_spread, ref_weights, ref_score, ref_don, ref_acc]
  generalize val_main_v17 (F := F) x0 x1 x2 x4 x5 x6 x7 x8 x9 = p
  unfold val_main_v18 val_main_v23
  rfl

end Stages

/-- The reference's result is the tail of its potentials, at the extended reals. -/
theorem ref_tail (x0 : FVec Ideal Cert.ReferenceIdeal.S128x4096x128 .f32) (x1 x2 : FVec Ideal Cert.ReferenceIdeal.S128 .f32)
    (x3 : FVec Ideal Cert.ReferenceIdeal.S1 .f32) (x4 : FVec Ideal Cert.ReferenceIdeal.S256x128 .f32)
    (x5 : FVec Ideal Cert.ReferenceIdeal.S128 .f32) (x6 : FVec Ideal Cert.ReferenceIdeal.S128x1 .f32)
    (x7 : FVec Ideal Cert.ReferenceIdeal.S1 .f32) (x8 x9 : IVec Cert.ReferenceIdeal.S128x2048 32)
    (x10 : IVec Cert.ReferenceIdeal.S128x64x32 32) (x11 : FVec Ideal Cert.ReferenceIdeal.S128x64x32 .f32) :
    Cert.ReferenceIdeal.Read.val_main_v72 (F := Ideal) x0 x1 x2 x3 x4 x5 x6 x7 x8 x9 x10 x11
      = Cert.KernelIdeal.Tail.tail (Cert.ReferenceIdeal.Read.val_main_v17 (F := Ideal) x0 x1 x2 x4 x5 x6 x7 x8 x9)
          x8 x9 x10 x11 x3 :=
  ref_tailF (F := Ideal) x0 x1 x2 x3 x4 x5 x6 x7 x8 x9 x10 x11

end Cert.TailRef

end
-- ==== Proof.PreFacts.lean ====
import proofs.«422879_j30666066494039_3_alg».proof.Pre_finite_inputs
import Idealize.ShloMosaic.Lib.ReduceAll
import Idealize.ShloMosaic.Lib.StableHlo.Predicate
import Idealize.ShloMosaic.Lib.IdealHost
import Idealize.ShloMosaic.PureOps.Ideal.Laws

/-!
  The precondition read back: when the printed predicate is all ones, every entry of the nine float
  arrays is a real number (its magnitude is below +∞), and every entry of the two index arrays, read
  as an unsigned word, is at most 4097 (it lies between 0 and 4097 as a signed word).
-/

namespace Cert.PreFacts

open Idealize.ShloMosaic Cert.Pre_finite_inputs

/-- The scalar shape has one index. -/
instance : Subsingleton S_.Idx := ⟨fun a b => funext fun d => d.elim0⟩

/-- The pattern `0x7F800000` is +∞. -/
theorem ofBits_inf : Ideal.ofBits .f32 0x7F800000#32 = ⊤ := by
  simp [Ideal.ofBits, Ideal.ieee]

/-- An extended real whose magnitude `max x (-x)` is below +∞ is a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One float conjunct: `all (|x| < +∞)` over an array of any shape says every entry is a real. -/
theorem finite_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
          (cmpf .olt (Host.absf x) (broadcastInDim s ![] hb (constant (F := Ideal) S_ .f32 0x7F800000#32)))
          (constantI S_ 1 1#1) hr h0 ValueIdx.ix0 = 1#1) :
    ∀ i, ∃ r : ℝ, x i = (r : EReal) := by
  intro i
  have hi := Host.reduce_andi_all _ _ hr h0 _ e i
  rw [ValueIdx.cmpf_apply, ValueIdx.broadcastInDim_scalar_apply] at hi
  exact real_of_abs_lt_top (x i) (by rw [← ofBits_inf]; exact hi)

/-- A signed 32-bit word between 0 and 4097 is at most 4097 as an unsigned word. -/
theorem toNat_le_of_signed_range (w : BitVec 32) (h1 : IntOp.cmpi .sge w 0#32 = 1#1)
    (h2 : IntOp.cmpi .sle w 4097#32 = 1#1) : w.toNat ≤ 4097 := by
  simp only [IntOp.cmpi, StableHlo.Predicate.ofBool_eq_one_iff, BitVec.sle, decide_eq_true_eq] at h1 h2
  have e0 : (0#32 : BitVec 32).toInt = 0 := by decide
  have e4 : (4097#32 : BitVec 32).toInt = 4097 := by decide
  rw [e0] at h1
  rw [e4] at h2
  have hlt := w.isLt
  rw [BitVec.toInt_eq_toNat_cond] at h1 h2
  split at h1 <;> omega

/-- One index conjunct: `all ((x ≥ 0) ∧ (x ≤ 4097))`, signed, says every entry is at most 4097 unsigned. -/
theorem range_of_all {s : Shape} {axes : List (Fin s.rank)} (x : IVec s 32)
    (hb : S_.BroadcastsInDim s (![] : Fin 0 → Fin s.rank)) (hr : s.ReducesTo axes S_) (h0 : 0 < S_.numel)
    (e : Host.reduce IntOp.andi
          (andi (cmpi .sge x (broadcastInDim s ![] hb (constantI S_ 32 0#32)))
                (cmpi .sle x (broadcastInDim s ![] hb (constantI S_ 32 4097#32))))
          (constantI S_ 1 1#1) hr h0 ValueIdx.ix0 = 1#1) :
    ∀ i, (x i).toNat ≤ 4097 := by
  intro i
  have hi := Host.reduce_andi_all _ _ hr h0 _ e i
  obtain ⟨h1, h2⟩ := IntOp.andi_eq_one.1 hi
  have b0 : broadcastInDim s ![] hb (constantI S_ 32 0#32) i = 0#32 := ValueIdx.broadcastInDim_scalar_apply _ _ _
  have b4 : broadcastInDim s ![] hb (constantI S_ 32 4097#32) i = 4097#32 := ValueIdx.broadcastInDim_scalar_apply _ _ _
  refine toNat_le_of_signed_range (x i) ?_ ?_
  · rw [← b0]; exact h1
  · rw [← b4]; exact h2

/-- A scalar conjunction that is 1 has both sides 1. -/
theorem andi_split (a b : IVec S_ 1) (h : andi a b ValueIdx.ix0 = 1#1) :
    a ValueIdx.ix0 = 1#1 ∧ b ValueIdx.ix0 = 1#1 := IntOp.andi_eq_one.1 h

variable [Cert.Pre_finite_inputs.Facts]

theorem of_pre (x0 : FVec Ideal S128x4096x128 .f32) (x1 x2 : FVec Ideal S128 .f32) (x3 : FVec Ideal S1 .f32)
    (x4 : FVec Ideal S256x128 .f32) (x5 : FVec Ideal S128 .f32) (x6 : FVec Ideal S128x1 .f32) (x7 : FVec Ideal S1 .f32)
    (x8 x9 : IVec S128x2048 32) (x10 : IVec S128x64x32 32) (x11 : FVec Ideal S128x64x32 .f32)
    (h : Cert.Pre_finite_inputs.fn (F := Ideal) x0 x1 x2 x3 x4 x5 x6 x7 x8 x9 x10 x11 = fun _ => 1#1) :
    (∀ i, ∃ r : ℝ, x0 i = (r : EReal)) ∧ (∀ i, ∃ r : ℝ, x1 i = (r : EReal)) ∧ (∀ i, ∃ r : ℝ, x2 i = (r : EReal)) ∧
    (∀ i, ∃ r : ℝ, x3 i = (r : EReal)) ∧ (∀ i, ∃ r : ℝ, x4 i = (r : EReal)) ∧ (∀ i, ∃ r : ℝ, x5 i = (r : EReal)) ∧
    (∀ i, ∃ r : ℝ, x6 i = (r : EReal)) ∧ (∀ i, ∃ r : ℝ, x7 i = (r : EReal)) ∧ (∀ i, ∃ r : ℝ, x11 i = (r : EReal)) ∧
    (∀ i, (x8 i).toNat ≤ 4097) ∧ (∀ i, (x9 i).toNat ≤ 4097) := by
  have h0 := congrFun h ValueIdx.ix0
  dsimp only [fn, fn_part1, fn_part2, fn_part3] at h0
  obtain ⟨h0, c9⟩ := andi_split _ _ h0
  obtain ⟨h0, c8⟩ := andi_split _ _ h0
  obtain ⟨h0, c11⟩ := andi_split _ _ h0
  obtain ⟨h0, c7⟩ := andi_split _ _ h0
  obtain ⟨h0, c6⟩ := andi_split _ _ h0
  obtain ⟨h0, c5⟩ := andi_split _ _ h0
  obtain ⟨h0, c4⟩ := andi_split _ _ h0
  obtain ⟨h0, c3⟩ := andi_split _ _ h0
  obtain ⟨h0, c2⟩ := andi_split _ _ h0
  obtain ⟨c0, c1⟩ := andi_split _ _ h0
  exact ⟨finite_of_all x0 _ _ _ c0, finite_of_all x1 _ _ _ c1, finite_of_all x2 _ _ _ c2, finite_of_all x3 _ _ _ c3,
    finite_of_all x4 _ _ _ c4, finite_of_all x5 _ _ _ c5, finite_of_all x6 _ _ _ c6, finite_of_all x7 _ _ _ c7,
    finite_of_all x11 _ _ _ c11, range_of_all x8 _ _ _ c8, range_of_all x9 _ _ _ c9⟩

end Cert.PreFacts
-- ==== Proof.lean ====
/-
  The certificate of the junction-potential kernel against its reference, over the extended reals.

  The kernel gathers, for every junction, the donor and acceptor rows of a gene's site table (augmented by the
  gene-start and gene-end vectors) as a product with a one-hot matrix, accumulated over four chunks of the
  table, and feeds the stacked rows to a two-layer perceptron; the reference gathers the rows by index.  Both
  programs then apply the same host operations to the potentials (a gather by the transcript table, a masked
  sum, a softmax, two scatter-adds).  Under the precondition — every float input finite, every junction index
  inside the augmented table — a one-hot product with real entries is the row it selects, the second copies
  `x - x` the kernel carries beside each operand vanish, the clips of the indices are the identity, and the
  reference's normalised, range-checked gather reads the same row; so the potentials agree index by index, and
  the shared host operations carry the agreement to the results.

  The three frames: the two kernel programs run through the pipelined region and the host operations around it
  with every argument array unchanged; the reference is a straight line of host operations.  The idealization
  replaced three round trips through bfloat16 by the identity: the rule's statement at each site.
-/
import proofs.«422879_j30666066494039_3_alg».proof.Defs
import proofs.«422879_j30666066494039_3_alg».proof.Proof.Gen.Kernel
import proofs.«422879_j30666066494039_3_alg».proof.Proof.Gen.KernelIdeal
import proofs.«422879_j30666066494039_3_alg».proof.Proof.Gen.ReferenceIdeal
import proofs.«422879_j30666066494039_3_alg».proof.Proof.Gen.Pre_finite_inputs
import proofs.«422879_j30666066494039_3_alg».proof.Proof.K.Frame
import proofs.«422879_j30666066494039_3_alg».proof.Proof.KI.Bridge2
import proofs.«422879_j30666066494039_3_alg».proof.Proof.RefAfter
import proofs.«422879_j30666066494039_3_alg».proof.Proof.RefPot
import proofs.«422879_j30666066494039_3_alg».proof.Proof.TailRef
import proofs.«422879_j30666066494039_3_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference is a line of host operations: it runs to the end, and no operation writes an argument. -/
theorem frame_ri : Cert.frame_ReferenceIdeal := fun m ρ _ =>
  (θ_run Cert.ReferenceIdeal.defs _ _).mono (fun _ h c => (h c).2) (Cert.RefAfter.run (F := Ideal) m ρ)

/-- The three round trips through bfloat16 the idealization removed: the rule's statement at each site's shape. -/
theorem preserves : Cert.preserves_Kernel_KernelIdeal :=
  ⟨IdealRules.truncf_extf.statement _ .f32 .bf16, IdealRules.truncf_extf.statement _ .f32 .bf16, IdealRules.truncf_extf.statement _ .f32 .bf16⟩

/-- Both programs end at the shared host operations applied to the specification's potentials. -/
theorem algebraic : Cert.algebraic_KernelIdeal_ReferenceIdeal := by
  intro m ρ m' ρ' hpre hagree
  have hyp : ∀ c, Cert.KernelIdeal.Bridge.Hyp m c := fun c => by
    obtain ⟨h0, h1, h2, -, h4, h5, h6, h7, -, h8, h9⟩ := Cert.PreFacts.of_pre _ _ _ _ _ _ _ _ _ _ _ _ (hpre c)
    exact ⟨h0, h1, h2, h4, h5, h6, h7, h8, h9⟩
  refine ⟨_, Cert.KernelIdeal.Bridge.kernel_run m ρ hyp, ?_⟩
  refine (θ_run Cert.ReferenceIdeal.defs _ _).mono (fun _ h c => ⟨(h c).1.trans ?_, (h c).2⟩)
    (Cert.RefAfter.run (F := Ideal) m' ρ')
  obtain ⟨e0, e1, e2, e3, e4, e5, e6, e7, e8, e9, e10, e11⟩ := hagree c
  rw [e0, e1, e2, e3, e4, e5, e6, e7, e8, e9, e10, e11, Cert.TailRef.ref_tail,
    Cert.RefPot.ref_pot _ _ _ _ _ _ _ _ _ (hyp c).d8 (hyp c).d9]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
